-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x2500000 : Shape := ⟨2, ![2, 2500000]⟩
abbrev S2x32 : Shape := ⟨2, ![2, 32]⟩
abbrev S32 : Shape := ⟨1, ![32]⟩
abbrev S2x64x32 : Shape := ⟨3, ![2, 64, 32]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S2x64x32 : S_.BroadcastsInDim S2x64x32 (![] : Fin 0 → Fin S2x64x32.rank)
  reducesTo_S2x64x32_S_d0_1_2 : S2x64x32.ReducesTo [0, 1, 2] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x2500000 : S_.BroadcastsInDim S2x2500000 (![] : Fin 0 → Fin S2x2500000.rank)
  reducesTo_S2x2500000_S_d0_1 : S2x2500000.ReducesTo [0, 1] S_

variable [Facts]

def fn_part2 {F : FTy → Type} [FloatOps F] (main_arg1 : IVec S2x2500000 32) (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x2500000 32 := broadcastInDim S2x2500000 ![] bcast_S_S2x2500000 main_c_16
  let main_v45 : IVec S2x2500000 1 := cmpi .sge main_arg1 main_v44
  let main_c_17 : IVec S_ 32 := constantI S_ 32 100000#32
  let main_v46 : IVec S2x2500000 32 := broadcastInDim S2x2500000 ![] bcast_S_S2x2500000 main_c_17
  let main_v47 : IVec S2x2500000 1 := cmpi .slt main_arg1 main_v46
  let main_v48 : IVec S2x2500000 1 := andi main_v45 main_v47
  let main_c_18 : IVec S_ 1 := constantI S_ 1 1#1
  let main_v49 : IVec S_ 1 := (fun x v => Host.reduce IntOp.andi x v reducesTo_S2x2500000_S_d0_1 h_S_) main_v48 main_c_18
  let main_v50 : IVec S_ 1 := andi main_v43 main_v49
  main_v50

def fn_part1 {F : FTy → Type} [FloatOps F] (main_arg1 : IVec S2x2500000 32) (main_arg5 : FVec F S2x32 .f32) (main_arg6 : FVec F S64x32 .f32) (main_arg7 : FVec F S32 .f32) (main_arg8 : FVec F S32x1 .f32) (main_arg9 : FVec F S1 .f32) (main_v13 : IVec S_ 1) (main_v16 : IVec S2x64x32 1) : IVec S_ 1 :=
  let main_c_5 : IVec S_ 1 := constantI S_ 1 1#1
  let main_v17 : IVec S_ 1 := (fun x v => Host.reduce IntOp.andi x v reducesTo_S2x64x32_S_d0_1_2 h_S_) main_v16 main_c_5
  let main_v18 : IVec S_ 1 := andi main_v13 main_v17
  let main_v19 : FVec F S2x32 .f32 := Host.absf main_arg5
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_v33

def fn {F : FTy → Type} [FloatOps F] (main_arg0 : FVec F S100000x2 .f32) (main_arg1 : IVec S2x2500000 32) (main_arg2 : FVec F S2x32 .f32) (main_arg3 : FVec F S32 .f32) (main_arg4 : FVec F S2x64x32 .f32) (main_arg5 : FVec F S2x32 .f32) (main_arg6 : FVec F S64x32 .f32) (main_arg7 : FVec F S32 .f32) (main_arg8 : FVec F S32x1 .f32) (main_arg9 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S2x64x32 .f32 := Host.absf main_arg4
  let main_cst_4 : FVec F S_ .f32 := constant S_ .f32 0x7F800000#32
  let main_v15 : FVec F S2x64x32 .f32 := broadcastInDim S2x64x32 ![] bcast_S_S2x64x32 main_cst_4
  let main_v16 : IVec S2x64x32 1 := cmpf .olt main_v14 main_v15
  fn_part1 (F := F) main_arg1 main_arg5 main_arg6 main_arg7 main_arg8 main_arg9 main_v13 main_v16
-- ==== Kernel.lean ====
abbrev S100000x2 : Shape := ⟨2, ![100000, 2]⟩
abbrev S2x2500000 : Shape := ⟨2, ![2, 2500000]⟩
abbrev S2x32 : Shape := ⟨2, ![2, 32]⟩
abbrev S32 : Shape := ⟨1, ![32]⟩
abbrev S2x64x32 : Shape := ⟨3, ![2, 64, 32]⟩
abbrev S64x32 : Shape := ⟨2, ![64, 32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S1x32 : Shape := ⟨2, ![1, 32]⟩
abbrev S100000x32 : Shape := ⟨2, ![100000, 32]⟩
abbrev S5000x2 : Shape := ⟨2, ![5000, 2]⟩
abbrev S5000x32 : Shape := ⟨2, ![5000, 32]⟩
abbrev S_ : Shape := ⟨0, ![]⟩
abbrev S100000 : Shape := ⟨1, ![100000]⟩
abbrev S2500000x1 : Shape := ⟨2, ![2500000, 1]⟩
abbrev S100000x1 : Shape := ⟨2, ![100000, 1]⟩
abbrev S1x1 : Shape := ⟨2, ![1, 1]⟩
abbrev S2500000x32 : Shape := ⟨2, ![2500000, 32]⟩
abbrev S1x32x32 : Shape := ⟨3, ![1, 32, 32]⟩
abbrev S32x32 : Shape := ⟨2, ![32, 32]⟩
abbrev S5000x1 : Shape := ⟨2, ![5000, 1]⟩

abbrev nBuf : Space → Nat
  | .hbm => 152
  | .vmem => 35
  | .smem => 0
  | _ => 0

abbrev hbmTy0_0 (i : Nat) : BufTy := match i % 128 with
  | 0 => ⟨S100000x2, .f32⟩
  | 1 => ⟨S2x2500000, .i32⟩
  | 2 => ⟨S2x32, .f32⟩
  | 3 => ⟨S32, .f32⟩
  | 4 => ⟨S2x64x32, .f32⟩
  | 5 => ⟨S2x32, .f32⟩
  | 6 => ⟨S64x32, .f32⟩
  | 7 => ⟨S32, .f32⟩
  | 8 => ⟨S32x1, .f32⟩
  | 9 => ⟨S1, .f32⟩
  | 10 => ⟨S1x2500000, .i32⟩
  | 11 => ⟨S2500000, .i32⟩
  | 12 => ⟨S1x2500000, .i32⟩
  | 13 => ⟨S2500000, .i32⟩
  | 14 => ⟨S1x32, .f32⟩
  | 15 => ⟨S100000x32, .f32⟩
  | 16 => ⟨S_, .f32⟩
  | 17 => ⟨S2500000, .f32⟩
  | 18 => ⟨S_, .f32⟩
  | 19 => ⟨S100000, .f32⟩
  | 20 => ⟨S2500000x1, .i32⟩
  | 21 => ⟨S100000, .f32⟩
  | 22 => ⟨S_, .f32⟩
  | 23 => ⟨S100000, .f32⟩
  | 24 => ⟨S100000, .f32⟩
  | 25 => ⟨S100000x1, .f32⟩
  | 26 => ⟨S_, .i32⟩
  | 27 => ⟨S2500000, .i32⟩
  | 28 => ⟨S2500000, .i1⟩
  | 29 => ⟨S_, .i32⟩
  | 30 => ⟨S2500000, .i32⟩
  | 31 => ⟨S2500000, .i32⟩
  | 32 => ⟨S2500000, .i32⟩
  | 33 => ⟨S2500000x1, .i32⟩
  | 34 => ⟨S1, .i32⟩
  | 35 => ⟨S_, .i32⟩
  | 36 => ⟨S2500000x1, .i32⟩
  | 37 => ⟨S2500000x1, .i1⟩
  | 38 => ⟨S1x1, .i32⟩
  | 39 => ⟨S2500000x1, .i32⟩
  | 40 => ⟨S2500000x1, .i1⟩
  | 41 => ⟨S2500000x1, .i1⟩
  | 42 => ⟨S_, .i1⟩
  | 43 => ⟨S2500000, .i1⟩
  | 44 => ⟨S2500000x32, .f32⟩
  | 45 => ⟨S2500000x32, .i1⟩
  | 46 => ⟨S_, .f32⟩
  | 47 => ⟨S2500000x32, .f32⟩
  | 48 => ⟨S2500000x32, .f32⟩
  | 49 => ⟨S_, .f32⟩
  | 50 => ⟨S100000x32, .f32⟩
  | 51 => ⟨S2500000x1, .i32⟩
  | 52 => ⟨S100000x32, .f32⟩
  | 53 => ⟨S100000x32, .f32⟩
  | 54 => ⟨S100000x32, .f32⟩
  | 55 => ⟨S1x32x32, .f32⟩
  | 56 => ⟨S32x32, .f32⟩
  | 57 => ⟨S1x32x32, .f32⟩
  | 58 => ⟨S32x32, .f32⟩
  | 59 => ⟨S1x32, .f32⟩
  | 60 => ⟨S32, .f32⟩
  | 61 => ⟨S1x32, .f32⟩
  | 62 => ⟨S100000x32, .f32⟩
  | 63 => ⟨S_, .i32⟩
  | 64 => ⟨S2500000, .i32⟩
  | 65 => ⟨S2500000, .i1⟩
  | 66 => ⟨S_, .i32⟩
  | 67 => ⟨S2500000, .i32⟩
  | 68 => ⟨S2500000, .i32⟩
  | 69 => ⟨S2500000, .i32⟩
  | 70 => ⟨S2500000x1, .i32⟩
  | 71 => ⟨S1, .i32⟩
  | 72 => ⟨S_, .i32⟩
  | 73 => ⟨S2500000x1, .i32⟩
  | 74 => ⟨S2500000x1, .i1⟩
  | 75 => ⟨S1x1, .i32⟩
  | 76 => ⟨S2500000x1, .i32⟩
  | 77 => ⟨S2500000x1, .i1⟩
  | 78 => ⟨S2500000x1, .i1⟩
  | 79 => ⟨S_, .i1⟩
  | 80 => ⟨S2500000, .i1⟩
  | 81 => ⟨S2500000x32, .f32⟩
  | 82 => ⟨S2500000x32, .i1⟩
  | 83 => ⟨S_, .f32⟩
  | 84 => ⟨S2500000x32, .f32⟩
  | 85 => ⟨S2500000x32, .f32⟩
  | 86 => ⟨S_, .f32⟩
  | 87 => ⟨S100000x32, .f32⟩
  | 88 => ⟨S2500000x1, .i32⟩
  | 89 => ⟨S100000x32, .f32⟩
  | 90 => ⟨S100000x32, .f32⟩
  | 91 => ⟨S100000x32, .f32⟩
  | 92 => ⟨S1x32x32, .f32⟩
  | 93 => ⟨S32x32, .f32⟩
  | 94 => ⟨S1x32x32, .f32⟩
  | 95 => ⟨S32x32, .f32⟩
  | 96 => ⟨S1x32, .f32⟩
  | 97 => ⟨S32, .f32⟩
  | 98 => ⟨S1x32, .f32⟩
  | 99 => ⟨S100000x32, .f32⟩
  | 100 => ⟨S_, .i32⟩
  | 101 => ⟨S2500000, .i32⟩
  | 102 => ⟨S2500000, .i1⟩
  | 103 => ⟨S_, .i32⟩
  | 104 => ⟨S2500000, .i32⟩
  | 105 => ⟨S2500000, .i32⟩
  | 106 => ⟨S2500000, .i32⟩
  | 107 => ⟨S2500000x1, .i32⟩
  | 108 => ⟨S1, .i32⟩
  | 109 => ⟨S_, .i32⟩
  | 110 => ⟨S2500000x1, .i32⟩
  | 111 => ⟨S2500000x1, .i1⟩
  | 112 => ⟨S1x1, .i32⟩
  | 113 => ⟨S2500000x1, .i32⟩
  | 114 => ⟨S2500000x1, .i1⟩
  | 115 => ⟨S2500000x1, .i1⟩
  | 116 => ⟨S_, .i1⟩
  | 117 => ⟨S2500000, .i1⟩
  | 118 => ⟨S2500000x32, .f32⟩
  | 119 => ⟨S2500000x32, .i1⟩
  | 120 => ⟨S_, .f32⟩
  | 121 => ⟨S2500000x32, .f32⟩
  | 122 => ⟨S2500000x32, .f32⟩
  | 123 => ⟨S_, .i32⟩
  | 124 => ⟨S2500000, .i32⟩
  | 125 => ⟨S2500000, .i1⟩
  | 126 => ⟨S_, .i32⟩
  | 127 => ⟨S2500000, .i32⟩
  | _ => ⟨S100000x2, .f32⟩

abbrev hbmTy0_1 (i : Nat) : BufTy := match i % 128 with
  | 0 => ⟨S2500000, .i32⟩
  | 1 => ⟨S2500000, .i32⟩
  | 2 => ⟨S2500000x1, .i32⟩
  | 3 => ⟨S1, .i32⟩
  | 4 => ⟨S_, .i32⟩
  | 5 => ⟨S2500000x1, .i32⟩
  | 6 => ⟨S2500000x1, .i1⟩
  | 7 => ⟨S1x1, .i32⟩
  | 8 => ⟨S2500000x1, .i32⟩
  | 9 => ⟨S2500000x1, .i1⟩
  | 10 => ⟨S2500000x1, .i1⟩
  | 11 => ⟨S_, .i1⟩
  | 12 => ⟨S2500000, .i1⟩
  | 13 => ⟨S2500000x32, .f32⟩
  | 14 => ⟨S2500000x32, .i1⟩
  | 15 => ⟨S_, .f32⟩
  | 16 => ⟨S2500000x32, .f32⟩
  | 17 => ⟨S2500000x32, .f32⟩
  | 18 => ⟨S32x32, .f32⟩
  | 19 => ⟨S32x32, .f32⟩
  | 20 => ⟨S1x32, .f32⟩
  | 21 => ⟨S1x1, .f32⟩
  | 22 => ⟨S2500000x1, .f32⟩
  | 23 => ⟨S2500000, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S2x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S32x32, .f32⟩
  | .local _ .vmem, ⟨11, _⟩ => ⟨S32x32, .f32⟩
  | .local _ .vmem, ⟨12, _⟩ => ⟨S1x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S32x32, .f32⟩
  | .local _ .vmem, ⟨20, _⟩ => ⟨S32x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S32x32, .f32⟩
  | .local _ .vmem, ⟨29, _⟩ => ⟨S32x32, .f32⟩
  | .local _ .vmem, ⟨30, _⟩ => ⟨S1x32, .f32⟩
  | .local _ .vmem, ⟨31, _⟩ => ⟨S32x1, .f32⟩
  | .local _ .vmem, ⟨32, _⟩ => ⟨S1x1, .f32⟩
  | .local _ .vmem, ⟨33, _⟩ => ⟨S5000x1, .f32⟩
  | .local _ .vmem, ⟨34, _⟩ => ⟨S5000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v27 : Ref sig .tc := ⟨.hbm, 85, rfl⟩
abbrev main_cst_3 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v41 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  shapeCasts_S32_S1x32 : S32.ShapeCasts S1x32
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S100000_S100000x1_0 : S100000.BroadcastsInDim S100000x1 (![0] : Fin 1 → Fin S100000x1.rank)
  bcast_S_S2500000x1 : S_.BroadcastsInDim S2500000x1 (![] : Fin 0 → Fin S2500000x1.rank)
  bcast_S1_S1x1_1 : S1.BroadcastsInDim S1x1 (![1] : Fin 1 → Fin S1x1.rank)
  bcast_S1x1_S2500000x1_0_1 : S1x1.BroadcastsInDim S2500000x1 (![0, 1] : Fin 2 → Fin S2500000x1.rank)
  reducesTo_S2500000x1_S2500000_d1 : S2500000x1.ReducesTo [1] S2500000
  h_S_ : 0 < S_.numel
  bcast_S2500000_S2500000x32_0 : S2500000.BroadcastsInDim S2500000x32 (![0] : Fin 1 → Fin S2500000x32.rank)
  bcast_S_S2500000x32 : S_.BroadcastsInDim S2500000x32 (![] : Fin 0 → Fin S2500000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S2x64x32_S1x32x32_0_0_0 : S2x64x32.Slices ![0, 0, 0] S1x32x32
  shapeCasts_S1x32x32_S32x32 : S1x32x32.ShapeCasts S32x32
  slices_S2x64x32_S1x32x32_0_32_0 : S2x64x32.Slices ![0, 32, 0] S1x32x32
  slices_S2x32_S1x32_0_0 : S2x32.Slices ![0, 0] S1x32
  shapeCasts_S1x32_S32 : S1x32.ShapeCasts S32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S2x64x32_S1x32x32_1_0_0 : S2x64x32.Slices ![1, 0, 0] S1x32x32
  slices_S2x64x32_S1x32x32_1_32_0 : S2x64x32.Slices ![1, 32, 0] S1x32x32
  slices_S2x32_S1x32_1_0 : S2x32.Slices ![1, 0] S1x32
  slices_S64x32_S32x32_0_0 : S64x32.Slices ![0, 0] S32x32
  slices_S64x32_S32x32_32_0 : S64x32.Slices ![32, 0] S32x32
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S2500000x1_S2500000 : S2500000x1.ShapeCasts S2500000
  dot_S5000x2_S2x32_S5000x32_1_0_0_1_n_n_wf : DotDims.WF S5000x2 S2x32 S5000x32 [1] [0] [0] [1] [] []
  scatter_S100000_S2500000x1_S2500000_n_0_0_1_wf : ScatterDims.WF S100000 S2500000x1 S2500000 [] [0] [0] 1
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S2500000x32.size a
  hwx3_0 : ∀ i : grid3.Coords, EltTy.bits .f32 = 32 ∨ (Rect.block (s := S2500000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S2500000x32.size a
  hwx3_1 : ∀ i : grid3.Coords, EltTy.bits .f32 = 32 ∨ (Rect.block (s := S2500000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x1.size a ≤ S32x1.size a
  hwx3_5 : ∀ i : grid3.Coords, EltTy.bits .f32 = 32 ∨ (Rect.block (s := S32x1) S32x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S2500000x1.size a
  hwx3_7 : ∀ i : grid3.Coords, EltTy.bits .f32 = 32 ∨ (Rect.block (s := S2500000x1) S5000x1.size (cc3_transform_7 i) (hinb3_7 i)).WholeWords (EltTy.packing .f32)

variable [Facts₀]

def dot_S5000x2_S2x32_S5000x32_1_0_0_1_n_n : DotDims S5000x2 S2x32 S5000x32 where
  lhsContracting := [1]
  rhsContracting := [0]
  lhsNonContracting := [0]
  rhsNonContracting := [1]
  lhsBatch := []
  rhsBatch := []
  wf := dot_S5000x2_S2x32_S5000x32_1_0_0_1_n_n_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S32x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x2500000 : Shape := ⟨2, ![2, 2500000]⟩
abbrev S2x32 : Shape := ⟨2, ![2, 32]⟩
abbrev S32 : Shape := ⟨1, ![32]⟩
abbrev S2x64x32 : Shape := ⟨3, ![2, 64, 32]⟩
abbrev S64x32 : Shape := ⟨2, ![64, 32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S100000x32 : Shape := ⟨2, ![100000, 32]⟩
abbrev S1x32 : Shape := ⟨2, ![1, 32]⟩
abbrev S_ : Shape := ⟨0, ![]⟩
abbrev S100000 : Shape := ⟨1, ![100000]⟩
abbrev S2500000x1 : Shape := ⟨2, ![2500000, 1]⟩
abbrev S100000x1 : Shape := ⟨2, ![100000, 1]⟩
abbrev S2500000x32 : Shape := ⟨2, ![2500000, 32]⟩
abbrev S100000x64 : Shape := ⟨2, ![100000, 64]⟩
abbrev S1x64x32 : Shape := ⟨3, ![1, 64, 32]⟩
abbrev S2500000x64 : Shape := ⟨2, ![2500000, 64]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x2500000, .i32⟩
  | .hbm, ⟨2, _⟩ => ⟨S2x32, .f32⟩
  | .hbm, ⟨3, _⟩ => ⟨S32, .f32⟩
  | .hbm, ⟨4, _⟩ => ⟨S2x64x32, .f32⟩
  | .hbm, ⟨5, _⟩ => ⟨S2x32, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x2500000, .i32⟩
  | .hbm, ⟨11, _⟩ => ⟨S2500000, .i32⟩
  | .hbm, ⟨12, _⟩ => ⟨S1x2500000, .i32⟩
  | .hbm, ⟨13, _⟩ => ⟨S2500000, .i32⟩
  | .hbm, ⟨14, _⟩ => ⟨S100000x32, .f32⟩
  | .hbm, ⟨15, _⟩ => ⟨S1x32, .f32⟩
  | .hbm, ⟨16, _⟩ => ⟨S100000x32, .f32⟩
  | .hbm, ⟨17, _⟩ => ⟨S100000x32, .f32⟩
  | .hbm, ⟨18, _⟩ => ⟨S_, .f32⟩
  | .hbm, ⟨19, _⟩ => ⟨S100000x32, .f32⟩
  | .hbm, ⟨20, _⟩ => ⟨S100000x32, .f32⟩
  | .hbm, ⟨21, _⟩ => ⟨S_, .f32⟩
  | .hbm, ⟨22, _⟩ => ⟨S2500000, .f32⟩
  | .hbm, ⟨23, _⟩ => ⟨S_, .f32⟩
  | .hbm, ⟨24, _⟩ => ⟨S100000, .f32⟩
  | .hbm, ⟨25, _⟩ => ⟨S2500000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S2500000, .i32⟩
  | .hbm, ⟨33, _⟩ => ⟨S2500000, .i1⟩
  | .hbm, ⟨34, _⟩ => ⟨S_, .i32⟩
  | .hbm, ⟨35, _⟩ => ⟨S2500000, .i32⟩
  | .hbm, ⟨36, _⟩ => ⟨S2500000, .i32⟩
  | .hbm, ⟨37, _⟩ => ⟨S2500000, .i32⟩
  | .hbm, ⟨38, _⟩ => ⟨S2500000x1, .i32⟩
  | .hbm, ⟨39, _⟩ => ⟨S2500000x32, .f32⟩
  | .hbm, ⟨40, _⟩ => ⟨S_, .f32⟩
  | .hbm, ⟨41, _⟩ => ⟨S100000x32, .f32⟩
  | .hbm, ⟨42, _⟩ => ⟨S2500000x1, .i32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S100000x64, .f32⟩
  | .hbm, ⟨47, _⟩ => ⟨S1x64x32, .f32⟩
  | .hbm, ⟨48, _⟩ => ⟨S64x32, .f32⟩
  | .hbm, ⟨49, _⟩ => ⟨S100000x32, .f32⟩
  | .hbm, ⟨50, _⟩ => ⟨S1x32, .f32⟩
  | .hbm, ⟨51, _⟩ => ⟨S32, .f32⟩
  | .hbm, ⟨52, _⟩ => ⟨S1x32, .f32⟩
  | .hbm, ⟨53, _⟩ => ⟨S100000x32, .f32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S100000x32, .f32⟩
  | .hbm, ⟨58, _⟩ => ⟨S_, .i32⟩
  | .hbm, ⟨59, _⟩ => ⟨S2500000, .i32⟩
  | .hbm, ⟨60, _⟩ => ⟨S2500000, .i1⟩
  | .hbm, ⟨61, _⟩ => ⟨S_, .i32⟩
  | .hbm, ⟨62, _⟩ => ⟨S2500000, .i32⟩
  | .hbm, ⟨63, _⟩ => ⟨S2500000, .i32⟩
  | .hbm, ⟨64, _⟩ => ⟨S2500000, .i32⟩
  | .hbm, ⟨65, _⟩ => ⟨S2500000x1, .i32⟩
  | .hbm, ⟨66, _⟩ => ⟨S2500000x32, .f32⟩
  | .hbm, ⟨67, _⟩ => ⟨S_, .f32⟩
  | .hbm, ⟨68, _⟩ => ⟨S100000x32, .f32⟩
  | .hbm, ⟨69, _⟩ => ⟨S2500000x1, .i32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S100000x64, .f32⟩
  | .hbm, ⟨74, _⟩ => ⟨S1x64x32, .f32⟩
  | .hbm, ⟨75, _⟩ => ⟨S64x32, .f32⟩
  | .hbm, ⟨76, _⟩ => ⟨S100000x32, .f32⟩
  | .hbm, ⟨77, _⟩ => ⟨S1x32, .f32⟩
  | .hbm, ⟨78, _⟩ => ⟨S32, .f32⟩
  | .hbm, ⟨79, _⟩ => ⟨S1x32, .f32⟩
  | .hbm, ⟨80, _⟩ => ⟨S100000x32, .f32⟩
  | .hbm, ⟨81, _⟩ => ⟨S100000x32, .f32⟩
  | .hbm, ⟨82, _⟩ => ⟨S_, .f32⟩
  | .hbm, ⟨83, _⟩ => ⟨S100000x32, .f32⟩
  | .hbm, ⟨84, _⟩ => ⟨S100000x32, .f32⟩
  | .hbm, ⟨85, _⟩ => ⟨S_, .i32⟩
  | .hbm, ⟨86, _⟩ => ⟨S2500000, .i32⟩
  | .hbm, ⟨87, _⟩ => ⟨S2500000, .i1⟩
  | .hbm, ⟨88, _⟩ => ⟨S_, .i32⟩
  | .hbm, ⟨89, _⟩ => ⟨S2500000, .i32⟩
  | .hbm, ⟨90, _⟩ => ⟨S2500000, .i32⟩
  | .hbm, ⟨91, _⟩ => ⟨S2500000, .i32⟩
  | .hbm, ⟨92, _⟩ => ⟨S2500000x1, .i32⟩
  | .hbm, ⟨93, _⟩ => ⟨S2500000x32, .f32⟩
  | .hbm, ⟨94, _⟩ => ⟨S_, .i32⟩
  | .hbm, ⟨95, _⟩ => ⟨S2500000, .i32⟩
  | .hbm, ⟨96, _⟩ => ⟨S2500000, .i1⟩
  | .hbm, ⟨97, _⟩ => ⟨S_, .i32⟩
  | .hbm, ⟨98, _⟩ => ⟨S2500000, .i32⟩
  | .hbm, ⟨99, _⟩ => ⟨S2500000, .i32⟩
  | .hbm, ⟨100, _⟩ => ⟨S2500000, .i32⟩
  | .hbm, ⟨101, _⟩ => ⟨S2500000x1, .i32⟩
  | .hbm, ⟨102, _⟩ => ⟨S2500000x32, .f32⟩
  | .hbm, ⟨103, _⟩ => ⟨S2500000x64, .f32⟩
  | .hbm, ⟨104, _⟩ => ⟨S2500000x32, .f32⟩
  | .hbm, ⟨105, _⟩ => ⟨S1x32, .f32⟩
  | .hbm, ⟨106, _⟩ => ⟨S2500000x32, .f32⟩
  | .hbm, ⟨107, _⟩ => ⟨S2500000x32, .f32⟩
  | .hbm, ⟨108, _⟩ => ⟨S_, .f32⟩
  | .hbm, ⟨109, _⟩ => ⟨S2500000x32, .f32⟩
  | .hbm, ⟨110, _⟩ => ⟨S2500000x32, .f32⟩
  | .hbm, ⟨111, _⟩ => ⟨S2500000x1, .f32⟩
  | .hbm, ⟨112, _⟩ => ⟨S1x1, .f32⟩
  | .hbm, ⟨113, _⟩ => ⟨S2500000x1, .f32⟩
  | .hbm, ⟨114, _⟩ => ⟨S2500000x1, .f32⟩
  | .hbm, ⟨115, _⟩ => ⟨S2500000, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call2_cst : Ref sig .tc := ⟨.hbm, 82, rfl⟩
abbrev main_call2_v0 : Ref sig .tc := ⟨.hbm, 83, rfl⟩
abbrev main_v59 : Ref sig .tc := ⟨.hbm, 84, rfl⟩
abbrev main_c_7 : Ref sig .tc := ⟨.hbm, 85, rfl⟩
abbrev main_v60 : Ref sig .tc := ⟨.hbm, 86, rfl⟩
abbrev main_v61 : Ref sig .tc := ⟨.hbm, 87, rfl⟩
abbrev main_c_8 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_9 : Ref sig .tc := ⟨.hbm, 94, rfl⟩
abbrev main_v67 : Ref sig .tc := ⟨.hbm, 95, rfl⟩
abbrev main_v68 : Ref sig .tc := ⟨.hbm, 96, rfl⟩
abbrev main_c_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call3_cst : Ref sig .tc := ⟨.hbm, 108, rfl⟩
abbrev main_call3_v0 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  concatenates_S100000x32_S100000x32_S100000x64_d1 : Shape.Concatenates [S100000x32, S100000x32] S100000x64 1
  slices_S2x64x32_S1x64x32_0_0_0 : S2x64x32.Slices ![0, 0, 0] S1x64x32
  shapeCasts_S1x64x32_S64x32 : S1x64x32.ShapeCasts S64x32
  slices_S2x32_S1x32_0_0 : S2x32.Slices ![0, 0] S1x32
  shapeCasts_S1x32_S32 : S1x32.ShapeCasts S32
  slices_S2x64x32_S1x64x32_1_0_0 : S2x64x32.Slices ![1, 0, 0] S1x64x32
  slices_S2x32_S1x32_1_0 : S2x32.Slices ![1, 0] S1x32
  concatenates_S2500000x32_S2500000x32_S2500000x64_d1 : Shape.Concatenates [S2500000x32, S2500000x32] S2500000x64 1
  bcast_S1x32_S2500000x32_0_1 : S1x32.BroadcastsInDim S2500000x32 (![0, 1] : Fin 2 → Fin S2500000x32.rank)
  bcast_S_S2500000x32 : S_.BroadcastsInDim S2500000x32 (![] : Fin 0 → Fin S2500000x32.rank)
  bcast_S1_S1x1_1 : S1.BroadcastsInDim S1x1 (![1] : Fin 1 → Fin S1x1.rank)
  bcast_S1x1_S2500000x1_0_1 : S1x1.BroadcastsInDim S2500000x1 (![0, 1] : Fin 2 → Fin S2500000x1.rank)
  shapeCasts_S2500000x1_S2500000 : S2500000x1.ShapeCasts S2500000
  dot_S100000x2_S2x32_S100000x32_1_0_0_1_n_n_wf : DotDims.WF S100000x2 S2x32 S100000x32 [1] [0] [0] [1] [] []
  scatter_S100000_S2500000x1_S2500000_n_0_0_1_wf : ScatterDims.WF S100000 S2500000x1 S2500000 [] [0] [0] 1
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x64_S64x32_S100000x32_1_0_0_1_n_n_wf : DotDims.WF S100000x64 S64x32 S100000x32 [1] [0] [0] [1] [] []
  dot_S2500000x64_S64x32_S2500000x32_1_0_0_1_n_n_wf : DotDims.WF S2500000x64 S64x32 S2500000x32 [1] [0] [0] [1] [] []
  dot_S2500000x32_S32x1_S2500000x1_1_0_0_1_n_n_wf : DotDims.WF S2500000x32 S32x1 S2500000x1 [1] [0] [0] [1] [] []

variable [Facts₀]

def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S2500000x64_S64x32_S2500000x32_1_0_0_1_n_n : DotDims S2500000x64 S64x32 S2500000x32 where
  lhsContracting := [1]
  rhsContracting := [0]
  lhsNonContracting := [0]
  rhsNonContracting := [1]
  lhsBatch := []
  rhsBatch := []
  wf := dot_S2500000x64_S64x32_S2500000x32_1_0_0_1_n_n_wf
def dot_S2500000x32_S32x1_S2500000x1_1_0_0_1_n_n : DotDims S2500000x32 S32x1 S2500000x1 where
  lhsContracting := [1]
  rhsContracting := [0]
  lhsNonContracting := [0]
  rhsNonContracting := [1]
  lhsBatch := []
  rhsBatch := []
  wf := dot_S2500000x32_S32x1_S2500000x1_1_0_0_1_n_n_wf

class Facts : Prop extends Facts₀ where

variable [Facts]
-- ==== Proof.Spec.lean ====
/-
  The dense stages of the message-passing network as whole-array functions over the extended reals,
  index by index.  A node (or edge) row `r` and an output column `q`:

  * `lin`:  max (Σ_k x[r,k] · W[k,q] + b[0,q], 0), the input projection followed by the rectifier;
  * `upd`:  max (Σ_k h[r,k] · Wh[k,q] + Σ_k a[r,k] · Wa[k,q] + b[0,q], 0), one layer's update from a
    node's own features `h` and its normalised neighbourhood sum `a`, the weight matrix given as its two
    row halves;
  * `edge`: Σ_j upd(hr, hc, …)[r,j] · W2[j,q] + b2[0,q], the two-layer edge network on the features of an
    edge's two endpoints.

  Sums are finite sums in the commutative monoid of the extended reals; no law beyond commutativity and
  associativity of the sum is used with them, so nothing here depends on finiteness of the entries.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev Arr2 (n0 n1 : Nat) : Type := (⟨2, ![n0, n1]⟩ : Shape).Idx → EReal

/-- The rectified affine map at row `r`, column `q`. -/
def linAt {N K H : Nat} (x : Arr2 N K) (W : Arr2 K H) (b : Arr2 1 H) (r : Fin N) (q : Fin H) : EReal :=
  max ((∑ k : Fin K, x (ix2 r k) * W (ix2 k q)) + b (ix2 0 q)) 0

/-- The rectified affine map as a whole array. -/
def lin {N K H : Nat} (x : Arr2 N K) (W : Arr2 K H) (b : Arr2 1 H) : Arr2 N H :=
  fun i => linAt x W b ⟨(i 0).val, idx2_lt0 i⟩ ⟨(i 1).val, idx2_lt1 i⟩

theorem lin_ix2 {N K H : Nat} (x : Arr2 N K) (W : Arr2 K H) (b : Arr2 1 H) (r : Fin N) (q : Fin H) :
    lin x W b (ix2 r q) = linAt x W b r q := rfl

/-- One layer's update at row `r`, column `q`: the two matrix products are added first, then the bias. -/
def updAt {N K H : Nat} (h a : Arr2 N K) (Wh Wa : Arr2 K H) (b : Arr2 1 H) (r : Fin N) (q : Fin H) : EReal :=
  max (((∑ k : Fin K, h (ix2 r k) * Wh (ix2 k q)) + (∑ k : Fin K, a (ix2 r k) * Wa (ix2 k q))) + b (ix2 0 q)) 0

/-- One layer's update as a whole array. -/
def upd {N K H : Nat} (h a : Arr2 N K) (Wh Wa : Arr2 K H) (b : Arr2 1 H) : Arr2 N H :=
  fun i => updAt h a Wh Wa b ⟨(i 0).val, idx2_lt0 i⟩ ⟨(i 1).val, idx2_lt1 i⟩

theorem upd_ix2 {N K H : Nat} (h a : Arr2 N K) (Wh Wa : Arr2 K H) (b : Arr2 1 H) (r : Fin N) (q : Fin H) :
    upd h a Wh Wa b (ix2 r q) = updAt h a Wh Wa b r q := rfl

/-- The edge network at edge `r`, output column `q`: a hidden layer of the `upd` form, then an affine map. -/
def edgeAt {N K H O : Nat} (hr hc : Arr2 N K) (Wa Wb : Arr2 K H) (b1 : Arr2 1 H) (W2 : Arr2 H O) (b2 : Arr2 1 O)
    (r : Fin N) (q : Fin O) : EReal :=
  (∑ j : Fin H, updAt hr hc Wa Wb b1 r j * W2 (ix2 j q)) + b2 (ix2 0 q)

/-- The edge network as a whole array. -/
def edge {N K H O : Nat} (hr hc : Arr2 N K) (Wa Wb : Arr2 K H) (b1 : Arr2 1 H) (W2 : Arr2 H O) (b2 : Arr2 1 O) : Arr2 N O :=
  fun i => edgeAt hr hc Wa Wb b1 W2 b2 ⟨(i 0).val, idx2_lt0 i⟩ ⟨(i 1).val, idx2_lt1 i⟩

theorem edge_ix2 {N K H O : Nat} (hr hc : Arr2 N K) (Wa Wb : Arr2 K H) (b1 : Arr2 1 H) (W2 : Arr2 H O) (b2 : Arr2 1 O)
    (r : Fin N) (q : Fin O) : edge hr hc Wa Wb b1 W2 b2 (ix2 r q) = edgeAt hr hc Wa Wb b1 W2 b2 r q := rfl

end Cert.Spec

end
-- ==== Proof.Region0.lean ====
/-
  Region 0 (the input projection): the output array after the region is `Spec.lin` of the three operand arrays
  as the region finds them — node features, weight matrix, one-row bias.  Grid point `t` of 20 computes rows
  `5000·t … 5000·t + 4999`; its block of the output is the rectified affine map of the same rows of the features.

  The proof: (1) one entry of a block's stored value is max (Σ_k x[p,k]·W[k,q] + b[0,q], 0) of the block's own row
  `p` (the product into a zero accumulator is the plain two-term sum; changing the float format is the identity on
  extended reals; the bias row is broadcast down the rows); (2) row `p` of point `t`'s feature block is row
  `5000·t + p` of the feature array, and the weight and bias blocks are the whole arrays, so what point `t` writes
  back is block `t` of the whole-array map; (3) row `r` lies in the block of point `r / 5000`, so the twenty blocks
  tile the output.
-/
import proofs.«405452_j73366631350578_1_alg».proof.Proof.Gen.KernelIdeal.Frame
import proofs.«405452_j73366631350578_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.KernelIdeal.Facts₀ Idealize.ShloMosaic Idealize.ShloMosaic.TcCoe Idealize.ShloMosaic.ValueIdx Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-! ## The body's arithmetic at one entry -/

/-- The left operand's index at output entry `i` and contraction index `k` keeps the output's row. -/
theorem lhs_ax0 (i : S5000x32.Idx) (k : dot_S5000x2_S2x32_S5000x32_1_0_0_1_n_n.contr.Idx) :
    (dot_S5000x2_S2x32_S5000x32_1_0_0_1_n_n.lhsIdx i k 0).val = (i 0).val := by
  unfold DotDims.lhsIdx
  rw [dif_neg (show ¬(0 : Fin S5000x2.rank) ∈ dot_S5000x2_S2x32_S5000x32_1_0_0_1_n_n.lhsBatch by decide),
    dif_pos (show (0 : Fin S5000x2.rank) ∈ dot_S5000x2_S2x32_S5000x32_1_0_0_1_n_n.lhsNonContracting by decide)]
  rfl

/-- Its column is the contraction index. -/
theorem lhs_ax1 (i : S5000x32.Idx) (k : dot_S5000x2_S2x32_S5000x32_1_0_0_1_n_n.contr.Idx) :
    (dot_S5000x2_S2x32_S5000x32_1_0_0_1_n_n.lhsIdx i k 1).val = (k ⟨0, by decide⟩).val :=
  dot_S5000x2_S2x32_S5000x32_1_0_0_1_n_n.lhsIdx_val_of_single rfl i k

/-- The right operand's row is the contraction index. -/
theorem rhs_ax0 (i : S5000x32.Idx) (k : dot_S5000x2_S2x32_S5000x32_1_0_0_1_n_n.contr.Idx) :
    (dot_S5000x2_S2x32_S5000x32_1_0_0_1_n_n.rhsIdx i k 0).val = (k ⟨0, by decide⟩).val :=
  dot_S5000x2_S2x32_S5000x32_1_0_0_1_n_n.rhsIdx_val_of_single rfl i k

/-- Its column is the output's column. -/
theorem rhs_ax1 (i : S5000x32.Idx) (k : dot_S5000x2_S2x32_S5000x32_1_0_0_1_n_n.contr.Idx) :
    (dot_S5000x2_S2x32_S5000x32_1_0_0_1_n_n.rhsIdx i k 1).val = (i 1).val := by
  unfold DotDims.rhsIdx
  rw [dif_neg (show ¬(1 : Fin S2x32.rank) ∈ dot_S5000x2_S2x32_S5000x32_1_0_0_1_n_n.rhsBatch by decide),
    dif_pos (show (1 : Fin S2x32.rank) ∈ dot_S5000x2_S2x32_S5000x32_1_0_0_1_n_n.rhsNonContracting by decide)]
  rfl

/-- The matrix product into a zero accumulator, at row `p` and column `q`: the sum over the two contracted
    positions of the products of the operands' entries. -/
theorem mm_apply (a : FVec Ideal S5000x2 .bf16) (b : FVec Ideal S2x32 .bf16) (p : Fin 5000) (q : Fin 32) :
    FloatOps.matmul dot_S5000x2_S2x32_S5000x32_1_0_0_1_n_n none a b (constant S5000x32 .f32 0x00000000#32) (ix2 p q)
      = ∑ k : Fin 2, a (ix2 p k) * b (ix2 k q) := by
  rw [Ideal.matmul_constant_zero_apply,
    ← Equiv.sum_comp (contrEquiv1 dot_S5000x2_S2x32_S5000x32_1_0_0_1_n_n 2 rfl rfl).symm]
  refine Finset.sum_congr rfl fun k _ => ?_
  have hk := contrEquiv1_symm_val dot_S5000x2_S2x32_S5000x32_1_0_0_1_n_n 2 rfl rfl k
  have el : dot_S5000x2_S2x32_S5000x32_1_0_0_1_n_n.lhsIdx (ix2 p q)
      ((contrEquiv1 dot_S5000x2_S2x32_S5000x32_1_0_0_1_n_n 2 rfl rfl).symm k) = ix2 p k :=
    funext fun ax => Fin.ext (by
      match ax with
      | ⟨0, _⟩ => exact lhs_ax0 _ _
      | ⟨1, _⟩ => exact (lhs_ax1 _ _).trans hk)
  have er : dot_S5000x2_S2x32_S5000x32_1_0_0_1_n_n.rhsIdx (ix2 p q)
      ((contrEquiv1 dot_S5000x2_S2x32_S5000x32_1_0_0_1_n_n 2 rfl rfl).symm k) = ix2 k q :=
    funext fun ax => Fin.ext (by
      match ax with
      | ⟨0, _⟩ => exact (rhs_ax0 _ _).trans hk
      | ⟨1, _⟩ => exact rhs_ax1 _ _)
  rw [el, er]

/-- The body's stored value at row `p`, column `q` of a block: the rectified affine map of the block's row `p`. -/
theorem pay_apply (x0 : Vec Ideal S5000x2 .f32) (x1 : Vec Ideal S2x32 .f32) (x2 : Vec Ideal S1x32 .f32)
    (p : Fin 5000) (q : Fin 32) :
    k0_pay1 (F := Ideal) x0 x1 x2 (ix2 p q) = Cert.Spec.linAt x0 x1 x2 p q := by
  have h1 : FloatOps.matmul dot_S5000x2_S2x32_S5000x32_1_0_0_1_n_n none (truncf (F := Ideal) .bf16 x0 Gen.bitsLt_bf16_f32)
      (truncf (F := Ideal) .bf16 x1 Gen.bitsLt_bf16_f32) (constant S5000x32 .f32 0x00000000#32) (ix2 p q)
      = ∑ k : Fin 2, x0 (ix2 p k) * x1 (ix2 k q) :=
    mm_apply (truncf (F := Ideal) .bf16 x0 Gen.bitsLt_bf16_f32) (truncf (F := Ideal) .bf16 x1 Gen.bitsLt_bf16_f32) p q
  have h2 : broadcastTo S5000x32 (shapeCast S1x32 x2 Gen.shapeCasts_S1x32_S1x32) Gen.broadcasts_S1x32_S5000x32 (ix2 p q)
      = x2 (ix2 (0 : Fin 1) q) := by
    rw [shapeCast_self]
    exact broadcastTo_1b_ab_apply x2 Gen.broadcasts_S1x32_S5000x32 p q
  have h3 : (FloatOps.ofBits (F := Ideal) .f32 0x00000000#32) = (0 : EReal) := Ideal.ofBits_zero_f32
  unfold k0_pay1 Cert.Spec.linAt
  exact congrArg₂ max (congrArg₂ (· + ·) h1 h2) h3

/-! ## What one grid point writes back -/

theorem hz : (![0, 0] : Fin 2 → Nat) = fun _ => 0 := funext fun a => by fin_cases a <;> rfl

/-- The index maps over the grid: the row-blocked windows sit at block row `t`, the weight and bias windows at the
    origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rectified affine map of a block whose row `p` is row `r` of the array, against the same weights and bias,
    is the array's at row `r`. -/
theorem linAt_congr (A : Cert.Spec.Arr2 100000 2) (W : Cert.Spec.Arr2 2 32) (B : Cert.Spec.Arr2 1 32)
    (x0 : Cert.Spec.Arr2 5000 2) (x1 : Cert.Spec.Arr2 2 32) (x2 : Cert.Spec.Arr2 1 32)
    (p : Fin 5000) (q : Fin 32) (r : Fin 100000)
    (h0 : ∀ k : Fin 2, x0 (ix2 p k) = A (ix2 r k)) (h1 : ∀ k : Fin 2, x1 (ix2 k q) = W (ix2 k q))
    (h2 : x2 (ix2 0 q) = B (ix2 0 q)) :
    Cert.Spec.linAt x0 x1 x2 p q = Cert.Spec.linAt A W B r q := by
  unfold Cert.Spec.linAt
  rw [h2, Finset.sum_congr rfl fun k _ => by rw [h0 k, h1 k]]

/-- The whole-array map at an index whose coordinates are `r` and `q`. -/
theorem lin_at (A : Cert.Spec.Arr2 100000 2) (W : Cert.Spec.Arr2 2 32) (B : Cert.Spec.Arr2 1 32)
    (i : (⟨2, ![100000, 32]⟩ : Shape).Idx) (r : Fin 100000) (q : Fin 32)
    (h0 : (i 0).val = r.val) (h1 : (i 1).val = q.val) :
    Cert.Spec.lin A W B i = Cert.Spec.linAt A W B r q := by
  have e : i = ix2 r q := by
    funext a; apply Fin.ext
    match a with
    | ⟨0, _⟩ => exact h0
    | ⟨1, _⟩ => exact h1
  rw [e]; rfl

/-- Grid point `t` writes back block `t` of the rectified affine map of the operand arrays: its block's row `p` is
    computed from row `5000·t + p` of the features, the whole weight matrix and the bias row. -/
theorem flushed_eq (c : Dev nD) (t : Fin cfg0.N) :
    (dat0 (F := Ideal) V c).flushed 3 t
      = ((cfg0.win 3).blk t).view.read (Elt Ideal) (Cert.Spec.lin (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S5000x2) hz, View.ld_unit_zero (S := S2x32) hz, View.ld_unit_zero (S := S1x32) hz]
  funext j
  obtain ⟨p, q, rfl⟩ : ∃ (p : Fin 5000) (q : Fin 32), j = ix2 p q := ⟨j 0, j 1, eq_ix2 j⟩
  obtain ⟨e00, e01, e10, e11, e20, e21, e30, e31⟩ := idx_facts t
  have ht : t.val < 20 := lt_of_lt_of_eq t.isLt N_0
  have hp : p.val < 5000 := p.isLt
  show k0_pay1 (F := Ideal) (iblk0 V c 0 t) (iblk0 V c 1 t) (iblk0 V c 2 t) (ix2 p q)
    = Cert.Spec.lin (V c main_arg0) (V c main_arg2) (V c main_v4) (((cfg0.win 3).blk t).view.emb (ix2 p q))
  refine (pay_apply (iblk0 V c 0 t) (iblk0 V c 1 t) (iblk0 V c 2 t) p q).trans ?_
  refine (linAt_congr (V c main_arg0) (V c main_arg2) (V c main_v4) (iblk0 V c 0 t) (iblk0 V c 1 t) (iblk0 V c 2 t)
    p q ⟨t.val * 5000 + p.val, by omega⟩ ?_ ?_ ?_).trans ?_
  · intro k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 2 + 1 * k.val = k.val; rw [e01]; omega
  · intro k
    show V c main_arg2 (((cfg0.win 1).blk t).view.emb (ix2 k q)) = _
    refine congrArg (V c main_arg2) (funext fun a => Fin.ext ?_)
    match a with
    | ⟨0, _⟩ => show win0_1.index t (0 : Fin 2) * 2 + 1 * k.val = k.val; rw [e10]; omega
    | ⟨1, _⟩ => show win0_1.index t (1 : Fin 2) * 32 + 1 * q.val = q.val; rw [e11]; omega
  · show V c main_v4 (((cfg0.win 2).blk t).view.emb (ix2 (0 : Fin 1) q)) = _
    refine congrArg (V c main_v4) (funext fun a => Fin.ext ?_)
    match a with
    | ⟨0, _⟩ => show win0_2.index t (0 : Fin 2) * 1 + 1 * (0 : Fin 1).val = (0 : Fin 1).val; rw [e20]; rfl
    | ⟨1, _⟩ => show win0_2.index t (1 : Fin 2) * 32 + 1 * q.val = q.val; rw [e21]; omega
  · refine (lin_at (V c main_arg0) (V c main_arg2) (V c main_v4) (((cfg0.win 3).blk t).view.emb (ix2 p q))
      ⟨t.val * 5000 + p.val, by omega⟩ q ?_ ?_).symm
    · show win0_3.index t (0 : Fin 2) * 5000 + 1 * p.val = t.val * 5000 + p.val; rw [e30]; omega
    · show win0_3.index t (1 : Fin 2) * 32 + 1 * q.val = q.val; rw [e31]; omega

/-! ## The blocks tile the array -/

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v5).slice (win0_3.rect t)).set ↔ _
  rw [View.set_slice_whole, Rect.mem_set_unit]
  exact Iff.rfl

/-- Row `r` of the output lies in the block of point `r / 5000`, which writes its block back. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, (by omega : (i 0).val / 5000 < 20).trans_eq N_0.symm⟩, rfl⟩
  obtain ⟨_, _, _, _, _, _, e30, e31⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 32 ≤ (i 1).val ∧ (i 1).val < win0_3.index t (1 : Fin 2) * 32 + 32
    rw [e31]; omega

/-! ## The array after the region -/

/-- After region 0 its output array is the rectified affine map of its operand arrays, whatever they hold. -/
theorem final0 (c : Dev nD) :
    (dat0 (F := Ideal) V c).arrAt 3 cfg0.N = Cert.Spec.lin (V c main_arg0) (V c main_arg2) (V c main_v4) :=
  (dat0 (F := Ideal) V c).arrAt_eq_of_cover 3 (Cert.Spec.lin (V c main_arg0) (V c main_arg2) (V c main_v4))
    (fun t _ => flushed_eq V c t) cover

end Cert.KernelIdeal.Region0

end
-- ==== Proof.Region1.lean ====
/-
  Region 1 (a layer's update): the output array after the region is `Spec.upd` of the five operand arrays as the
  region finds them — the nodes' features, their normalised neighbourhood sums, the two 32-row halves of the layer's
  weight matrix, the one-row bias.  Grid point `t` of 20 computes rows `5000·t … 5000·t + 4999` from the same rows
  of the two feature arrays.

  The proof has three steps.  (1) One element of the body's result: at row `p` and column `q` of a block it is
  `max (Σ_k h[p,k]·Wh[k,q] + Σ_k a[p,k]·Wa[k,q] + b[0,q]) 0` of the loaded blocks — each matrix product into the zero
  accumulator is the plain sum over the one contracted axis, the narrowing of the operands is the identity on the
  extended reals, the bias row is repeated down the rows, and the rectifier is the maximum with zero.  (2) What point
  `t` writes back is block `t` of `Spec.upd` of the whole arrays: the two feature blocks are rows
  `5000·t + p`, the weight and bias blocks are the whole arrays.  (3) Row `r` lies in the block of point `r / 5000`,
  so the blocks cover the array.
-/
import proofs.«405452_j73366631350578_1_alg».proof.Proof.Gen.KernelIdeal.Frame
import proofs.«405452_j73366631350578_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.KernelIdeal.Facts₀ Idealize.ShloMosaic Idealize.ShloMosaic.TcCoe Idealize.ShloMosaic.ValueIdx Idealize.SL.Sem
open Idealize.ShloMosaic.Pipeline (Dat Cfg Window)
open scoped BigOperators

/-! ## One element of a 5000x32 by 32x32 product -/

/-- The left operand's row is the output's row. -/
theorem lhs_axis0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
/-- The left operand's column is the contracted coordinate. -/
theorem lhs_axis1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- The right operand's row is the contracted coordinate. -/
theorem rhs_axis0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
/-- The right operand's column is the output's column. -/
theorem rhs_axis1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- A product into the zero accumulator, at row `p` and column `q`: the sum over the contracted axis. -/
theorem matmul_zero_ix2 {φ₁ φ₂ : FTy} (x : FVec Ideal S5000x32 φ₁) (w : FVec Ideal S32x32 φ₂) (p : Fin 5000) (q : Fin 32) :
    matmul dot_S5000x32_S32x32_S5000x32_1_0_0_1_n_n none x w (constant (F := Ideal) S5000x32 .f32 0x00000000#32) (ix2 p q)
      = ∑ k : Fin 32, x (ix2 p k) * w (ix2 k q) := by
  refine (Ideal.matmul_constant_zero_apply dot_S5000x32_S32x32_S5000x32_1_0_0_1_n_n none x w (ix2 p q)).trans ?_
  rw [← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k :=
    funext fun a => Fin.ext (by
      match a with
      | ⟨0, _⟩ => exact lhs_axis0 _ _
      | ⟨1, _⟩ => exact (lhs_axis1 _ _).trans hk)
  have er : dot_S5000x32_S32x32_S5000x32_1_0_0_1_n_n.rhsIdx (ix2 p q) ((contrEquiv1 dot_S5000x32_S32x32_S5000x32_1_0_0_1_n_n 32 rfl rfl).symm k) = ix2 k q :=
    funext fun a => Fin.ext (by
      match a with
      | ⟨0, _⟩ => exact (rhs_axis0 _ _).trans hk
      | ⟨1, _⟩ => exact rhs_axis1 _ _)
  rw [el, er]

/-! ## One element of the body's result -/

/-- The one-row bias repeated down the rows, at row `p` and column `q`, is the bias at column `q`. -/
theorem bias_ix2 (b : Vec Ideal S1x32 .f32) (hb : S1x32.Broadcasts S5000x32) (p : Fin 5000) (q : Fin 32) :
    broadcastTo S5000x32 b hb (ix2 p q) = b (ix2 0 q) := by
  refine broadcastTo_apply b hb (ix2 p q) (ix2 0 q) fun a => ?_
  match a with
  | ⟨0, _⟩ => rfl
  | ⟨1, _⟩ => rfl

/-- The body's result at row `p`, column `q` of its block, from the five loaded blocks. -/
theorem pay_ix2 (h a : Vec Ideal S5000x32 .f32) (Wh Wa : Vec Ideal S32x32 .f32) (b : Vec Ideal S1x32 .f32)
    (p : Fin 5000) (q : Fin 32) :
    k1_pay1 (F := Ideal) h a Wh Wa b (ix2 p q) = Cert.Spec.updAt h a Wh Wa b p q := by
  unfold k1_pay1
  simp only [shapeCast_self]
  rw [maximumf_apply, addf_apply, addf_apply, matmul_zero_ix2, matmul_zero_ix2, bias_ix2, broadcast_apply]
  simp only [truncf_apply]
  show max _ (Ideal.ofBits .f32 0x00000000#32) = _
  rw [Ideal.ofBits_zero_f32]
  rfl

/-! ## What a point writes back -/

/-- Block `n` of the update, from blocks that are rows `5000·n + p` of the two feature arrays and the whole weight and
    bias arrays. -/
theorem block_ix2 (H A : Cert.Spec.Arr2 100000 32) (WH WA : Cert.Spec.Arr2 32 32) (B : Cert.Spec.Arr2 1 32)
    (h a : Vec Ideal S5000x32 .f32) (Wh Wa : Vec Ideal S32x32 .f32) (b : Vec Ideal S1x32 .f32)
    (n : Nat) (hn : n < 20)
    (hh : ∀ (p : Fin 5000) (k : Fin 32), h (ix2 p k) = H (ix2 (⟨n * 5000 + p.val, by omega⟩ : Fin 100000) k))
    (ha : ∀ (p : Fin 5000) (k : Fin 32), a (ix2 p k) = A (ix2 (⟨n * 5000 + p.val, by omega⟩ : Fin 100000) k))
    (hWh : Wh = WH) (hWa : Wa = WA) (hb : b = B) (p : Fin 5000) (q : Fin 32) :
    k1_pay1 (F := Ideal) h a Wh Wa b (ix2 p q)
      = Cert.Spec.upd H A WH WA B (ix2 (⟨n * 5000 + p.val, by omega⟩ : Fin 100000) q) := by
  subst hWh hWa hb
  rw [pay_ix2, Cert.Spec.upd_ix2]
  unfold Cert.Spec.updAt
  simp only [hh, ha]

-- the TensorCore's buffer contents when the region is entered
variable (V : (c : Dev nD) → (b : Ref sig .tc) → Buf (Elt Ideal) ((c : Thread nD τ).loc b))

/-- The accesses' offsets are all zero. -/
theorem offs_zero : (![0, 0] : Fin 2 → Nat) = fun _ => 0 :=
  funext fun a => by match a with | ⟨0, _⟩ => rfl | ⟨1, _⟩ => rfl

/-- The index maps over the grid: the feature windows and the output window are at block row `t`, the weight and bias
    windows at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the update of the operand arrays. -/
theorem flushed_eq (c : Dev nD) (t : Fin cfg1.N) :
    (dat1 (F := Ideal) V c).flushed 5 t = ((cfg1.win 5).blk t).view.read (Elt Ideal)
      (Cert.Spec.upd (V c main_v5) (V c main_v18) (V c main_v20) (V c main_v22) (V c main_v25)) := by
  show (cfg1.win 5).cut (grid1.coords t) ((dat1 V c).after 5 t) = _
  rw [after1_5]
  unfold out1_5
  rw [View.canon_unit_zero offs_zero]
  simp only [View.ld_unit_zero (S := S5000x32) offs_zero, View.ld_unit_zero (S := S32x32) offs_zero,
    View.ld_unit_zero (S := S1x32) offs_zero]
  obtain ⟨e00, e01, e10, e11, e20, e21, e30, e31, e40, e41, e50, e51⟩ := index_facts t
  have ht : t.val < 20 := t.isLt
  funext j
  have hj0 : (j 0).val < 5000 := (j 0).isLt
  have hj1 : (j 1).val < 32 := (j 1).isLt
  have hx : (cfg1.win 5).xinj (grid1.coords t) j = ix2 (⟨(j 0).val, hj0⟩ : Fin 5000) (⟨(j 1).val, hj1⟩ : Fin 32) :=
    funext fun a => by match a with | ⟨0, _⟩ => rfl | ⟨1, _⟩ => rfl
  have hemb : ((cfg1.win 5).blk t).view.emb j
      = ix2 (⟨t.val * 5000 + (j 0).val, by omega⟩ : Fin 100000) (⟨(j 1).val, hj1⟩ : Fin 32) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 32 + 1 * (j 1).val = (j 1).val; omega
  show k1_pay1 (F := Ideal) (iblk1 V c 0 t) (iblk1 V c 1 t) (iblk1 V c 2 t) (iblk1 V c 3 t) (iblk1 V c 4 t)
      ((cfg1.win 5).xinj (grid1.coords t) j)
    = Cert.Spec.upd (V c main_v5) (V c main_v18) (V c main_v20) (V c main_v22) (V c main_v25)
      (((cfg1.win 5).blk t).view.emb j)
  rw [hx, hemb]
  refine block_ix2 (V c main_v5) (V c main_v18) (V c main_v20) (V c main_v22) (V c main_v25)
    (iblk1 V c 0 t) (iblk1 V c 1 t) (iblk1 V c 2 t) (iblk1 V c 3 t) (iblk1 V c 4 t) t.val ht ?_ ?_ ?_ ?_ ?_ _ _
  · intro p k
    show V c main_v5 (((cfg1.win 0).blk t).view.emb (ix2 p k)) = _
    refine congrArg (V c main_v5) (funext fun a => Fin.ext ?_)
    match a with
    | ⟨0, _⟩ => show win1_0.index t (0 : Fin 2) * 5000 + 1 * p.val = t.val * 5000 + p.val; omega
    | ⟨1, _⟩ => show win1_0.index t (1 : Fin 2) * 32 + 1 * k.val = k.val; omega
  · intro p k
    show V c main_v18 (((cfg1.win 1).blk t).view.emb (ix2 p k)) = _
    refine congrArg (V c main_v18) (funext fun a => Fin.ext ?_)
    match a with
    | ⟨0, _⟩ => show win1_1.index t (0 : Fin 2) * 5000 + 1 * p.val = t.val * 5000 + p.val; omega
    | ⟨1, _⟩ => show win1_1.index t (1 : Fin 2) * 32 + 1 * k.val = k.val; omega
  · funext y
    show V c main_v20 (((cfg1.win 2).blk t).view.emb y) = V c main_v20 y
    refine congrArg (V c main_v20) (funext fun a => Fin.ext ?_)
    match a with
    | ⟨0, _⟩ => show win1_2.index t (0 : Fin 2) * 32 + 1 * (y 0).val = (y 0).val; omega
    | ⟨1, _⟩ => show win1_2.index t (1 : Fin 2) * 32 + 1 * (y 1).val = (y 1).val; omega
  · funext y
    show V c main_v22 (((cfg1.win 3).blk t).view.emb y) = V c main_v22 y
    refine congrArg (V c main_v22) (funext fun a => Fin.ext ?_)
    match a with
    | ⟨0, _⟩ => show win1_3.index t (0 : Fin 2) * 32 + 1 * (y 0).val = (y 0).val; omega
    | ⟨1, _⟩ => show win1_3.index t (1 : Fin 2) * 32 + 1 * (y 1).val = (y 1).val; omega
  · funext y
    show V c main_v25 (((cfg1.win 4).blk t).view.emb y) = V c main_v25 y
    refine congrArg (V c main_v25) (funext fun a => Fin.ext ?_)
    match a with
    | ⟨0, _⟩ => show win1_4.index t (0 : Fin 2) * 1 + 1 * (y 0).val = (y 0).val; omega
    | ⟨1, _⟩ => show win1_4.index t (1 : Fin 2) * 32 + 1 * (y 1).val = (y 1).val; omega

/-! ## The blocks cover the array -/

/-- An index of the array is in point `t`'s block iff each coordinate is in the block's range on its axis. -/
theorem mem_block (t : Fin cfg1.N) (i : S100000x32.Idx) :
    i ∈ ((cfg1.win 5).blk t).view.set
      ↔ ∀ a : Fin 2, win1_5.index t a * S5000x32.size a ≤ (i a).val ∧ (i a).val < win1_5.index t a * S5000x32.size a + S5000x32.size a := by
  show i ∈ ((View.whole main_v26).slice (win1_5.rect t)).set ↔ _
  rw [View.set_slice_whole, Rect.mem_set_unit]
  exact Iff.rfl

/-- Row `r` is in the block of point `r / 5000`. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  let t : Fin cfg1.N := ⟨(i 0).val / 5000, by show (i 0).val / 5000 < 20; omega⟩
  have htv : t.val = (i 0).val / 5000 := rfl
  obtain ⟨-, -, -, -, -, -, -, -, -, -, e50, e51⟩ := index_facts t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-! ## The array after the region -/

/-- After region 1 its output array is the layer update of its operand arrays, whatever they hold. -/
theorem final1 (c : Dev nD) :
    (dat1 (F := Ideal) V c).arrAt 5 cfg1.N
      = Cert.Spec.upd (V c main_v5) (V c main_v18) (V c main_v20) (V c main_v22) (V c main_v25) :=
  (dat1 (F := Ideal) V c).arrAt_eq_of_cover 5
    (Cert.Spec.upd (V c main_v5) (V c main_v18) (V c main_v20) (V c main_v22) (V c main_v25))
    (fun t _ => flushed_eq V c t) cover

end Cert.KernelIdeal.Region1

end
-- ==== Proof.Region2.lean ====
/-
  Region 2 (a layer's update): the output array after the region is `Spec.upd` of the five operand arrays as the
  region finds them — the nodes' features, their normalised neighbourhood sums, the two 32-row halves of the layer's
  weight matrix, the one-row bias.  Grid point `t` of 20 computes rows `5000·t … 5000·t + 4999` from the same rows
  of the two feature arrays.

  The proof has three steps.  (1) One element of the body's result: at row `p` and column `q` of a block it is
  `max (Σ_k h[p,k]·Wh[k,q] + Σ_k a[p,k]·Wa[k,q] + b[0,q]) 0` of the loaded blocks — each matrix product into the zero
  accumulator is the plain sum over the one contracted axis, the narrowing of the operands is the identity on the
  extended reals, the bias row is repeated down the rows, and the rectifier is the maximum with zero.  (2) What point
  `t` writes back is block `t` of `Spec.upd` of the whole arrays: the two feature blocks are rows
  `5000·t + p`, the weight and bias blocks are the whole arrays.  (3) Row `r` lies in the block of point `r / 5000`,
  so the blocks cover the array.
-/
import proofs.«405452_j73366631350578_1_alg».proof.Proof.Gen.KernelIdeal.Frame
import proofs.«405452_j73366631350578_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.KernelIdeal.Facts₀ Idealize.ShloMosaic Idealize.ShloMosaic.TcCoe Idealize.ShloMosaic.ValueIdx Idealize.SL.Sem
open Idealize.ShloMosaic.Pipeline (Dat Cfg Window)
open scoped BigOperators

/-! ## One element of a 5000x32 by 32x32 product -/

/-- The left operand's row is the output's row. -/
theorem lhs_axis0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
/-- The left operand's column is the contracted coordinate. -/
theorem lhs_axis1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- The right operand's row is the contracted coordinate. -/
theorem rhs_axis0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
/-- The right operand's column is the output's column. -/
theorem rhs_axis1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- A product into the zero accumulator, at row `p` and column `q`: the sum over the contracted axis. -/
theorem matmul_zero_ix2 {φ₁ φ₂ : FTy} (x : FVec Ideal S5000x32 φ₁) (w : FVec Ideal S32x32 φ₂) (p : Fin 5000) (q : Fin 32) :
    matmul dot_S5000x32_S32x32_S5000x32_1_0_0_1_n_n none x w (constant (F := Ideal) S5000x32 .f32 0x00000000#32) (ix2 p q)
      = ∑ k : Fin 32, x (ix2 p k) * w (ix2 k q) := by
  refine (Ideal.matmul_constant_zero_apply dot_S5000x32_S32x32_S5000x32_1_0_0_1_n_n none x w (ix2 p q)).trans ?_
  rw [← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k :=
    funext fun a => Fin.ext (by
      match a with
      | ⟨0, _⟩ => exact lhs_axis0 _ _
      | ⟨1, _⟩ => exact (lhs_axis1 _ _).trans hk)
  have er : dot_S5000x32_S32x32_S5000x32_1_0_0_1_n_n.rhsIdx (ix2 p q) ((contrEquiv1 dot_S5000x32_S32x32_S5000x32_1_0_0_1_n_n 32 rfl rfl).symm k) = ix2 k q :=
    funext fun a => Fin.ext (by
      match a with
      | ⟨0, _⟩ => exact (rhs_axis0 _ _).trans hk
      | ⟨1, _⟩ => exact rhs_axis1 _ _)
  rw [el, er]

/-! ## One element of the body's result -/

/-- The one-row bias repeated down the rows, at row `p` and column `q`, is the bias at column `q`. -/
theorem bias_ix2 (b : Vec Ideal S1x32 .f32) (hb : S1x32.Broadcasts S5000x32) (p : Fin 5000) (q : Fin 32) :
    broadcastTo S5000x32 b hb (ix2 p q) = b (ix2 0 q) := by
  refine broadcastTo_apply b hb (ix2 p q) (ix2 0 q) fun a => ?_
  match a with
  | ⟨0, _⟩ => rfl
  | ⟨1, _⟩ => rfl

/-- The body's result at row `p`, column `q` of its block, from the five loaded blocks. -/
theorem pay_ix2 (h a : Vec Ideal S5000x32 .f32) (Wh Wa : Vec Ideal S32x32 .f32) (b : Vec Ideal S1x32 .f32)
    (p : Fin 5000) (q : Fin 32) :
    k2_pay1 (F := Ideal) h a Wh Wa b (ix2 p q) = Cert.Spec.updAt h a Wh Wa b p q := by
  unfold k2_pay1
  simp only [shapeCast_self]
  rw [maximumf_apply, addf_apply, addf_apply, matmul_zero_ix2, matmul_zero_ix2, bias_ix2, broadcast_apply]
  simp only [truncf_apply]
  show max _ (Ideal.ofBits .f32 0x00000000#32) = _
  rw [Ideal.ofBits_zero_f32]
  rfl

/-! ## What a point writes back -/

/-- Block `n` of the update, from blocks that are rows `5000·n + p` of the two feature arrays and the whole weight and
    bias arrays. -/
theorem block_ix2 (H A : Cert.Spec.Arr2 100000 32) (WH WA : Cert.Spec.Arr2 32 32) (B : Cert.Spec.Arr2 1 32)
    (h a : Vec Ideal S5000x32 .f32) (Wh Wa : Vec Ideal S32x32 .f32) (b : Vec Ideal S1x32 .f32)
    (n : Nat) (hn : n < 20)
    (hh : ∀ (p : Fin 5000) (k : Fin 32), h (ix2 p k) = H (ix2 (⟨n * 5000 + p.val, by omega⟩ : Fin 100000) k))
    (ha : ∀ (p : Fin 5000) (k : Fin 32), a (ix2 p k) = A (ix2 (⟨n * 5000 + p.val, by omega⟩ : Fin 100000) k))
    (hWh : Wh = WH) (hWa : Wa = WA) (hb : b = B) (p : Fin 5000) (q : Fin 32) :
    k2_pay1 (F := Ideal) h a Wh Wa b (ix2 p q)
      = Cert.Spec.upd H A WH WA B (ix2 (⟨n * 5000 + p.val, by omega⟩ : Fin 100000) q) := by
  subst hWh hWa hb
  rw [pay_ix2, Cert.Spec.upd_ix2]
  unfold Cert.Spec.updAt
  simp only [hh, ha]

-- the TensorCore's buffer contents when the region is entered
variable (V : (c : Dev nD) → (b : Ref sig .tc) → Buf (Elt Ideal) ((c : Thread nD τ).loc b))

/-- The accesses' offsets are all zero. -/
theorem offs_zero : (![0, 0] : Fin 2 → Nat) = fun _ => 0 :=
  funext fun a => by match a with | ⟨0, _⟩ => rfl | ⟨1, _⟩ => rfl

/-- The index maps over the grid: the feature windows and the output window are at block row `t`, the weight and bias
    windows at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the update of the operand arrays. -/
theorem flushed_eq (c : Dev nD) (t : Fin cfg2.N) :
    (dat2 (F := Ideal) V c).flushed 5 t = ((cfg2.win 5).blk t).view.read (Elt Ideal)
      (Cert.Spec.upd (V c main_v26) (V c main_v32) (V c main_v34) (V c main_v36) (V c main_v39)) := by
  show (cfg2.win 5).cut (grid2.coords t) ((dat2 V c).after 5 t) = _
  rw [after2_5]
  unfold out2_5
  rw [View.canon_unit_zero offs_zero]
  simp only [View.ld_unit_zero (S := S5000x32) offs_zero, View.ld_unit_zero (S := S32x32) offs_zero,
    View.ld_unit_zero (S := S1x32) offs_zero]
  obtain ⟨e00, e01, e10, e11, e20, e21, e30, e31, e40, e41, e50, e51⟩ := index_facts t
  have ht : t.val < 20 := t.isLt
  funext j
  have hj0 : (j 0).val < 5000 := (j 0).isLt
  have hj1 : (j 1).val < 32 := (j 1).isLt
  have hx : (cfg2.win 5).xinj (grid2.coords t) j = ix2 (⟨(j 0).val, hj0⟩ : Fin 5000) (⟨(j 1).val, hj1⟩ : Fin 32) :=
    funext fun a => by match a with | ⟨0, _⟩ => rfl | ⟨1, _⟩ => rfl
  have hemb : ((cfg2.win 5).blk t).view.emb j
      = ix2 (⟨t.val * 5000 + (j 0).val, by omega⟩ : Fin 100000) (⟨(j 1).val, hj1⟩ : Fin 32) := by
    funext a; apply Fin.ext
    match a with
    | ⟨0, _⟩ => show win2_5.index t (0 : Fin 2) * 5000 + 1 * (j 0).val = t.val * 5000 + (j 0).val; omega
    | ⟨1, _⟩ => show win2_5.index t (1 : Fin 2) * 32 + 1 * (j 1).val = (j 1).val; omega
  show k2_pay1 (F := Ideal) (iblk2 V c 0 t) (iblk2 V c 1 t) (iblk2 V c 2 t) (iblk2 V c 3 t) (iblk2 V c 4 t)
      ((cfg2.win 5).xinj (grid2.coords t) j)
    = Cert.Spec.upd (V c main_v26) (V c main_v32) (V c main_v34) (V c main_v36) (V c main_v39)
      (((cfg2.win 5).blk t).view.emb j)
  rw [hx, hemb]
  refine block_ix2 (V c main_v26) (V c main_v32) (V c main_v34) (V c main_v36) (V c main_v39)
    (iblk2 V c 0 t) (iblk2 V c 1 t) (iblk2 V c 2 t) (iblk2 V c 3 t) (iblk2 V c 4 t) t.val ht ?_ ?_ ?_ ?_ ?_ _ _
  · intro p k
    show V c main_v26 (((cfg2.win 0).blk t).view.emb (ix2 p k)) = _
    refine congrArg (V c main_v26) (funext fun a => Fin.ext ?_)
    match a with
    | ⟨0, _⟩ => show win2_0.index t (0 : Fin 2) * 5000 + 1 * p.val = t.val * 5000 + p.val; omega
    | ⟨1, _⟩ => show win2_0.index t (1 : Fin 2) * 32 + 1 * k.val = k.val; omega
  · intro p k
    show V c main_v32 (((cfg2.win 1).blk t).view.emb (ix2 p k)) = _
    refine congrArg (V c main_v32) (funext fun a => Fin.ext ?_)
    match a with
    | ⟨0, _⟩ => show win2_1.index t (0 : Fin 2) * 5000 + 1 * p.val = t.val * 5000 + p.val; omega
    | ⟨1, _⟩ => show win2_1.index t (1 : Fin 2) * 32 + 1 * k.val = k.val; omega
  · funext y
    show V c main_v34 (((cfg2.win 2).blk t).view.emb y) = V c main_v34 y
    refine congrArg (V c main_v34) (funext fun a => Fin.ext ?_)
    match a with
    | ⟨0, _⟩ => show win2_2.index t (0 : Fin 2) * 32 + 1 * (y 0).val = (y 0).val; omega
    | ⟨1, _⟩ => show win2_2.index t (1 : Fin 2) * 32 + 1 * (y 1).val = (y 1).val; omega
  · funext y
    show V c main_v36 (((cfg2.win 3).blk t).view.emb y) = V c main_v36 y
    refine congrArg (V c main_v36) (funext fun a => Fin.ext ?_)
    match a with
    | ⟨0, _⟩ => show win2_3.index t (0 : Fin 2) * 32 + 1 * (y 0).val = (y 0).val; omega
    | ⟨1, _⟩ => show win2_3.index t (1 : Fin 2) * 32 + 1 * (y 1).val = (y 1).val; omega
  · funext y
    show V c main_v39 (((cfg2.win 4).blk t).view.emb y) = V c main_v39 y
    refine congrArg (V c main_v39) (funext fun a => Fin.ext ?_)
    match a with
    | ⟨0, _⟩ => show win2_4.index t (0 : Fin 2) * 1 + 1 * (y 0).val = (y 0).val; omega
    | ⟨1, _⟩ => show win2_4.index t (1 : Fin 2) * 32 + 1 * (y 1).val = (y 1).val; omega

/-! ## The blocks cover the array -/

/-- An index of the array is in point `t`'s block iff each coordinate is in the block's range on its axis. -/
theorem mem_block (t : Fin cfg2.N) (i : S100000x32.Idx) :
    i ∈ ((cfg2.win 5).blk t).view.set
      ↔ ∀ a : Fin 2, win2_5.index t a * S5000x32.size a ≤ (i a).val ∧ (i a).val < win2_5.index t a * S5000x32.size a + S5000x32.size a := by
  show i ∈ ((View.whole main_v40).slice (win2_5.rect t)).set ↔ _
  rw [View.set_slice_whole, Rect.mem_set_unit]
  exact Iff.rfl

/-- Row `r` is in the block of point `r / 5000`. -/
theorem cover (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  let t : Fin cfg2.N := ⟨(i 0).val / 5000, by show (i 0).val / 5000 < 20; omega⟩
  have htv : t.val = (i 0).val / 5000 := rfl
  obtain ⟨-, -, -, -, -, -, -, -, -, -, e50, e51⟩ := index_facts t
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-! ## The array after the region -/

/-- After region 2 its output array is the layer update of its operand arrays, whatever they hold. -/
theorem final2 (c : Dev nD) :
    (dat2 (F := Ideal) V c).arrAt 5 cfg2.N
      = Cert.Spec.upd (V c main_v26) (V c main_v32) (V c main_v34) (V c main_v36) (V c main_v39) :=
  (dat2 (F := Ideal) V c).arrAt_eq_of_cover 5
    (Cert.Spec.upd (V c main_v26) (V c main_v32) (V c main_v34) (V c main_v36) (V c main_v39))
    (fun t _ => flushed_eq V c t) cover

end Cert.KernelIdeal.Region2

end
-- ==== Proof.Region3.lean ====
/-
  Region 3 (the edge network): the output array after the region is `Spec.edge` of the seven operand arrays as the
  region finds them — the gathered features of each edge's two endpoints, the two 32-row halves of the first weight
  matrix, its one-row bias, the second weight matrix (one column) and its bias.  Grid point `t` of 500 computes
  edges `5000·t … 5000·t + 4999` from the same rows of the two gathered arrays.

  The body's arithmetic at row `p` of a block, column `q`: each matrix product into the zero accumulator is the plain
  sum over the contracted coordinate; the changes of float format are the identity on extended reals; the bias rows are
  broadcast along the rows; the rectifier is the maximum with zero.  So the block's entry is `Spec.edgeAt` of the seven
  blocks.  Row `p` of point `t`'s block of a row-blocked array is row `5000·t + p` of the array, and the weight and
  bias windows hold their whole arrays at every point, so what point `t` writes back is the block of `Spec.edge` of
  the arrays; the 500 blocks tile the 2 500 000 rows (row `r` lies in block `r / 5000`).
-/
import proofs.«405452_j73366631350578_1_alg».proof.Proof.Gen.KernelIdeal.Frame
import proofs.«405452_j73366631350578_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.KernelIdeal.Facts₀ Idealize.ShloMosaic Idealize.ShloMosaic.TcCoe Idealize.ShloMosaic.ValueIdx Idealize.SL.Sem
open Idealize.ShloMosaic.Pipeline (Dat Cfg Window)
open scoped BigOperators

/-! ## The matrix products at an index -/

/-- The all-zero offset of a rectangle that is the whole block. -/
theorem hz : (![0, 0] : Fin 2 → Nat) = fun _ => 0 := funext fun a => by fin_cases a <;> rfl

/-- The first product's left operand is read at the output's row … -/
theorem lhsA_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
/-- … and the contracted coordinate; -/
theorem lhsA_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
/-- its right operand at the contracted coordinate … -/
theorem rhsA_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
/-- … and the output's column. -/
theorem rhsA_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A [5000,32] × [32,32] product into the zero accumulator, at row `p`, column `q`: the sum over the 32 contracted
    coordinates of the operands' products. -/
theorem mmA_apply (l : FVec Ideal S5000x32 .bf16) (r : FVec Ideal S32x32 .bf16) (p : Fin 5000) (q : Fin 32) :
    matmul dot_S5000x32_S32x32_S5000x32_1_0_0_1_n_n none l r (constant (F := Ideal) S5000x32 .f32 0x00000000#32) (ix2 p q)
      = ∑ k : Fin 32, l (ix2 p k) * r (ix2 k q) := by
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k := funext fun a => Fin.ext (by
    match a with
    | ⟨0, _⟩ => exact lhsA_0 _ _
    | ⟨1, _⟩ => exact (lhsA_1 _ _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q := funext fun a => Fin.ext (by
    match a with
    | ⟨0, _⟩ => exact (rhsA_0 _ _).trans hk
    | ⟨1, _⟩ => exact rhsA_1 _ _)
  rw [el, er]

/-- The second product's left operand is read at the output's row … -/
theorem lhsB_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- … and the contracted coordinate; -/
theorem lhsB_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
/-- its right operand at the contracted coordinate … -/
theorem rhsB_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
/-- … and the output's column. -/
theorem rhsB_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- A [5000,32] × [32,1] product into the zero accumulator, at row `p`, column `q`. -/
theorem mmB_apply (l : FVec Ideal S5000x32 .bf16) (r : FVec Ideal S32x1 .bf16) (p : Fin 5000) (q : Fin 1) :
    matmul dot_S5000x32_S32x1_S5000x1_1_0_0_1_n_n none l r (constant (F := Ideal) S5000x1 .f32 0x00000000#32) (ix2 p q)
      = ∑ k : Fin 32, l (ix2 p k) * r (ix2 k q) := by
  simp only [matmul]
  rw [Ideal.matmul_constant_zero_apply, ← Equiv.sum_comp (ValueIdx.contrEquiv1 dot_S5000x32_S32x1_S5000x1_1_0_0_1_n_n 32 rfl rfl).symm]
  refine Finset.sum_congr rfl fun k _ => ?_
  have hk := ValueIdx.contrEquiv1_symm_val dot_S5000x32_S32x1_S5000x1_1_0_0_1_n_n 32 rfl rfl k
  have el : dot_S5000x32_S32x1_S5000x1_1_0_0_1_n_n.lhsIdx (ix2 p q) ((ValueIdx.contrEquiv1 dot_S5000x32_S32x1_S5000x1_1_0_0_1_n_n 32 rfl rfl).symm k) = ix2 p k := funext fun a => Fin.ext (by
    match a with
    | ⟨0, _⟩ => exact lhsB_0 _ _
    | ⟨1, _⟩ => exact (lhsB_1 _ _).trans hk)
  have er : dot_S5000x32_S32x1_S5000x1_1_0_0_1_n_n.rhsIdx (ix2 p q) ((ValueIdx.contrEquiv1 dot_S5000x32_S32x1_S5000x1_1_0_0_1_n_n 32 rfl rfl).symm k) = ix2 k q := funext fun a => Fin.ext (by
    match a with
    | ⟨0, _⟩ => exact (rhsB_0 _ _).trans hk
    | ⟨1, _⟩ => exact rhsB_1 _ _)
  rw [el, er]

/-! ## The body's arithmetic at an index -/

/-- Row `p`, column `q` of what the body stores is the edge network of its seven loaded blocks there. -/
theorem pay_apply (x0 x1 : Vec Ideal S5000x32 .f32) (x2 x3 : Vec Ideal S32x32 .f32) (x4 : Vec Ideal S1x32 .f32)
    (x5 : Vec Ideal S32x1 .f32) (x6 : Vec Ideal S1x1 .f32) (p : Fin 5000) (q : Fin 1) :
    k3_pay1 (F := Ideal) x0 x1 x2 x3 x4 x5 x6 (ix2 p q) = Cert.Spec.edgeAt x0 x1 x2 x3 x4 x5 x6 p q := by
  unfold k3_pay1
  simp only [shapeCast_self]
  rw [addf_apply, mmB_apply, broadcastTo_1b_ab_apply]
  unfold Cert.Spec.edgeAt Cert.Spec.updAt
  refine congrArg (· + x6 (ix2 0 q)) (Finset.sum_congr rfl fun j _ => ?_)
  rw [truncf_apply, truncf_apply, maximumf_apply, addf_apply, addf_apply, mmA_apply, mmA_apply, broadcastTo_1b_ab_apply,
    broadcast_apply]
  simp only [truncf_apply, Ideal.ofBits_def, Ideal.ofBits_zero_f32]

-- the TensorCore's buffer contents when the region is entered
variable (V : (c : Dev nD) → (b : Ref sig .tc) → Buf (Elt Ideal) ((c : Thread nD τ).loc b))

/-! ## From blocks to the array -/

/-- One entry of a block of the output from the arrays: where rows `y 0` of the two row blocks are rows `i 0` of the
    two gathered arrays, and the weight and bias blocks are their whole arrays, the body's entry at `y` is the edge
    network of the arrays at `i` (the output has one column). -/
theorem blk_edge (A0 A1 : S2500000x32.Idx → EReal) (A2 A3 : S32x32.Idx → EReal) (A4 : S1x32.Idx → EReal)
    (A5 : S32x1.Idx → EReal) (A6 : S1x1.Idx → EReal)
    (x0 x1 : Vec Ideal S5000x32 .f32) (x2 x3 : Vec Ideal S32x32 .f32) (x4 : Vec Ideal S1x32 .f32)
    (x5 : Vec Ideal S32x1 .f32) (x6 : Vec Ideal S1x1 .f32) (i : S2500000x1.Idx) (y : S5000x1.Idx)
    (h0 : ∀ k : Fin 32, x0 (ix2 ⟨(y 0).val, idx2_lt0 y⟩ k) = A0 (ix2 ⟨(i 0).val, idx2_lt0 i⟩ k))
    (h1 : ∀ k : Fin 32, x1 (ix2 ⟨(y 0).val, idx2_lt0 y⟩ k) = A1 (ix2 ⟨(i 0).val, idx2_lt0 i⟩ k))
    (h2 : x2 = A2) (h3 : x3 = A3) (h4 : x4 = A4) (h5 : x5 = A5) (h6 : x6 = A6) :
    k3_pay1 (F := Ideal) x0 x1 x2 x3 x4 x5 x6 y = Cert.Spec.edge A0 A1 A2 A3 A4 A5 A6 i := by
  subst h2 h3 h4 h5 h6
  obtain ⟨p, q, rfl⟩ : ∃ (p : Fin 5000) (q : Fin 1), y = ix2 p q := ⟨y 0, y 1, eq_ix2 y⟩
  rw [pay_apply]
  show Cert.Spec.edgeAt x0 x1 x2 x3 x4 x5 x6 p q
    = Cert.Spec.edgeAt A0 A1 x2 x3 x4 x5 x6 ⟨(i 0).val, idx2_lt0 i⟩ ⟨(i 1).val, idx2_lt1 i⟩
  have hq : q = ⟨(i 1).val, idx2_lt1 i⟩ := Subsingleton.elim _ _
  subst hq
  have h0' : ∀ k : Fin 32, x0 (ix2 p k) = A0 (ix2 ⟨(i 0).val, idx2_lt0 i⟩ k) := h0
  have h1' : ∀ k : Fin 32, x1 (ix2 p k) = A1 (ix2 ⟨(i 0).val, idx2_lt0 i⟩ k) := h1
  unfold Cert.Spec.edgeAt Cert.Spec.updAt
  simp only [h0', h1']

/-- The windows' index maps over the grid: the two row-blocked inputs move with the output, whose block index is the
    point; the weight and bias windows stay at block zero. -/
theorem idx_facts : ∀ t : Fin cfg3.N, win3_7.index t (0 : Fin 2) = t.val ∧ win3_7.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row `y 0` of point `t`'s block of the first gathered array is row `5000·t + y 0` of the array. -/
theorem iblk0_apply (c : Dev nD) (t : Fin cfg3.N) (y : S5000x32.Idx) (i : S2500000x32.Idx)
    (h0 : (i 0).val = 5000 * t.val + (y 0).val) (h1 : (i 1).val = (y 1).val) :
    (iblk3 V c 0 t : Vec Ideal S5000x32 .f32) y = (V c main_v41 : S2500000x32.Idx → EReal) i := by
  obtain ⟨-, -, e0, e1, -⟩ := idx_facts t
  unfold iblk3
  rw [View.read_apply]
  show V c main_v41 _ = V c main_v41 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 32 + 1 * (y 1).val = (i 1).val; rw [e1, h1]; omega

/-- The same for the second gathered array. -/
theorem iblk1_apply (c : Dev nD) (t : Fin cfg3.N) (y : S5000x32.Idx) (i : S2500000x32.Idx)
    (h0 : (i 0).val = 5000 * t.val + (y 0).val) (h1 : (i 1).val = (y 1).val) :
    (iblk3 V c 1 t : Vec Ideal S5000x32 .f32) y = (V c main_v42 : S2500000x32.Idx → EReal) i := by
  obtain ⟨-, -, -, -, e0, e1, -⟩ := idx_facts t
  unfold iblk3
  rw [View.read_apply]
  show V c main_v42 _ = V c main_v42 _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 32 + 1 * (y 1).val = (i 1).val; rw [e1, h1]; omega

/-- The first weight half's window holds its whole array at every point. -/
theorem iblk2_eq (c : Dev nD) (t : Fin cfg3.N) : (iblk3 V c 2 t : Vec Ideal S32x32 .f32) = (V c main_v43 : S32x32.Idx → EReal) := by
  obtain ⟨-, -, -, -, -, -, e0, e1, -⟩ := idx_facts t
  funext y
  unfold iblk3
  rw [View.read_apply]
  show V c main_v43 _ = V c main_v43 _
  congr 1
  funext a
  apply Fin.ext
  match a with
  | ⟨0, _⟩ => show win3_2.index t (0 : Fin 2) * 32 + 1 * (y 0).val = (y 0).val; rw [e0]; omega
  | ⟨1, _⟩ => show win3_2.index t (1 : Fin 2) * 32 + 1 * (y 1).val = (y 1).val; rw [e1]; omega

/-- So does the second weight half's, -/
theorem iblk3_eq (c : Dev nD) (t : Fin cfg3.N) : (iblk3 V c 3 t : Vec Ideal S32x32 .f32) = (V c main_v44 : S32x32.Idx → EReal) := by
  obtain ⟨-, -, -, -, -, -, -, -, e0, e1, -⟩ := idx_facts t
  funext y
  unfold iblk3
  rw [View.read_apply]
  show V c main_v44 _ = V c main_v44 _
  congr 1
  funext a
  apply Fin.ext
  match a with
  | ⟨0, _⟩ => show win3_3.index t (0 : Fin 2) * 32 + 1 * (y 0).val = (y 0).val; rw [e0]; omega
  | ⟨1, _⟩ => show win3_3.index t (1 : Fin 2) * 32 + 1 * (y 1).val = (y 1).val; rw [e1]; omega

/-- the first bias row's, -/
theorem iblk4_eq (c : Dev nD) (t : Fin cfg3.N) : (iblk3 V c 4 t : Vec Ideal S1x32 .f32) = (V c main_v45 : S1x32.Idx → EReal) := by
  obtain ⟨-, -, -, -, -, -, -, -, -, -, e0, e1, -⟩ := idx_facts t
  funext y
  unfold iblk3
  rw [View.read_apply]
  show V c main_v45 _ = V c main_v45 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 32 + 1 * (y 1).val = (y 1).val; rw [e1]; omega

/-- the second weight matrix's, -/
theorem iblk5_eq (c : Dev nD) (t : Fin cfg3.N) : (iblk3 V c 5 t : Vec Ideal S32x1 .f32) = (V c main_arg8 : S32x1.Idx → EReal) := by
  obtain ⟨-, -, -, -, -, -, -, -, -, -, -, -, e0, e1, -⟩ := idx_facts t
  funext y
  unfold iblk3
  rw [View.read_apply]
  show V c main_arg8 _ = V c main_arg8 _
  congr 1
  funext a
  apply Fin.ext
  match a with
  | ⟨0, _⟩ => show win3_5.index t (0 : Fin 2) * 32 + 1 * (y 0).val = (y 0).val; rw [e0]; omega
  | ⟨1, _⟩ => show win3_5.index t (1 : Fin 2) * 1 + 1 * (y 1).val = (y 1).val; rw [e1]; omega

/-- and the second bias's. -/
theorem iblk6_eq (c : Dev nD) (t : Fin cfg3.N) : (iblk3 V c 6 t : Vec Ideal S1x1 .f32) = (V c main_v46 : S1x1.Idx → EReal) := by
  obtain ⟨-, -, -, -, -, -, -, -, -, -, -, -, -, -, e0, e1⟩ := idx_facts t
  funext y
  unfold iblk3
  rw [View.read_apply]
  show V c main_v46 _ = V c main_v46 _
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 1 + 1 * (y 1).val = (y 1).val; rw [e1]; omega

/-- What point `t` writes back is block `t` of the edge network of the arrays as the region finds them. -/
theorem flushed_eq (c : Dev nD) (t : Fin cfg3.N) :
    (dat3 (F := Ideal) V c).flushed 7 t = ((cfg3.win 7).blk t).view.read (Elt Ideal)
      (Cert.Spec.edge (V c main_v41) (V c main_v42) (V c main_v43) (V c main_v44) (V c main_v45) (V c main_arg8) (V c main_v46)) := by
  show (cfg3.win 7).cut (grid3.coords t) ((dat3 V c).after 7 t) = _
  rw [after3_7]
  unfold out3_7
  rw [View.canon_unit_zero hz]
  simp only [View.ld_unit_zero (S := S5000x32) hz, View.ld_unit_zero (S := S32x32) hz, View.ld_unit_zero (S := S1x32) hz,
    View.ld_unit_zero (S := S32x1) hz, View.ld_unit_zero (S := S1x1) hz]
  funext j
  obtain ⟨e0, e1, -⟩ := idx_facts t
  have hj0 : (j 0).val < 5000 := (j 0).isLt
  have hj1 : (j 1).val < 1 := (j 1).isLt
  have hi0 : ((((cfg3.win 7).blk t).view.emb j) 0).val = 5000 * t.val + (j 0).val := by
    show win3_7.index t (0 : Fin 2) * 5000 + 1 * (j 0).val = _
    rw [e0]; omega
  show k3_pay1 (F := Ideal) (iblk3 V c 0 t) (iblk3 V c 1 t) (iblk3 V c 2 t) (iblk3 V c 3 t) (iblk3 V c 4 t) (iblk3 V c 5 t) (iblk3 V c 6 t) j
    = Cert.Spec.edge (V c main_v41) (V c main_v42) (V c main_v43) (V c main_v44) (V c main_v45) (V c main_arg8) (V c main_v46)
        (((cfg3.win 7).blk t).view.emb j)
  exact blk_edge (V c main_v41) (V c main_v42) (V c main_v43) (V c main_v44) (V c main_v45) (V c main_arg8) (V c main_v46)
    (iblk3 V c 0 t) (iblk3 V c 1 t) (iblk3 V c 2 t) (iblk3 V c 3 t) (iblk3 V c 4 t) (iblk3 V c 5 t) (iblk3 V c 6 t)
    (((cfg3.win 7).blk t).view.emb j) j
    (fun k => iblk0_apply V c t _ _ hi0 rfl) (fun k => iblk1_apply V c t _ _ hi0 rfl)
    (iblk2_eq V c t) (iblk3_eq V c t) (iblk4_eq V c t) (iblk5_eq V c t) (iblk6_eq V c t)

/-- An index of the output array is in point `t`'s block iff each coordinate is in the block's range on its axis. -/
theorem mem_blk (t : Fin cfg3.N) (i : S2500000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v47).slice (win3_7.rect t)).set ↔ _
  rw [View.set_slice_whole, Rect.mem_set_unit]
  exact Iff.rfl

/-- Every edge row lies in some point's block: row `r` in that of point `r / 5000`. -/
theorem cover (i : S2500000x1.Idx) : ∃ t : Fin cfg3.N, (cfg3.win 7).flush t = true ∧ i ∈ ((cfg3.win 7).blk t).view.set := by
  have hi0 : (i 0).val < 2500000 := (i 0).isLt
  have hi1 : (i 1).val < 1 := (i 1).isLt
  have hN : grid3.N = 500 := N_3
  obtain ⟨t, ht⟩ : ∃ t : Fin cfg3.N, t.val = (i 0).val / 5000 :=
    ⟨⟨(i 0).val / 5000, by show (i 0).val / 5000 < grid3.N; rw [hN]; omega⟩, rfl⟩
  obtain ⟨e0, e1, -⟩ := idx_facts t
  refine ⟨t, flush3_7 t, ?_⟩
  rw [mem_blk]
  intro a
  match a with
  | ⟨0, _⟩ =>
    show win3_7.index t (0 : Fin 2) * 5000 ≤ (i 0).val ∧ (i 0).val < win3_7.index t (0 : Fin 2) * 5000 + 5000
    rw [e0, ht]; omega
  | ⟨1, _⟩ =>
    show win3_7.index t (1 : Fin 2) * 1 ≤ (i 1).val ∧ (i 1).val < win3_7.index t (1 : Fin 2) * 1 + 1
    rw [e1]; omega

/-- After region 3 its output array is the edge network of its operand arrays, whatever they hold. -/
theorem final3 (c : Dev nD) :
    (dat3 (F := Ideal) V c).arrAt 7 cfg3.N
      = Cert.Spec.edge (V c main_v41) (V c main_v42) (V c main_v43) (V c main_v44) (V c main_v45) (V c main_arg8) (V c main_v46) :=
  (dat3 (F := Ideal) V c).arrAt_eq_of_cover 7
    (Cert.Spec.edge (V c main_v41) (V c main_v42) (V c main_v43) (V c main_v44) (V c main_v45) (V c main_arg8) (V c main_v46))
    (fun t _ => flushed_eq V c t) cover

end Cert.KernelIdeal.Region3

end
-- ==== Proof.Chain.lean ====
/-
  The two programs' results as compositions of whole-array stages of the argument arrays.

  Both programs compute, from node features `x`, an edge list `ei` (row 0: source node of each edge, row 1:
  target node) and the weights: `h₀ = relu (x W_in + b_in)`; the node degrees `deg`; twice
  `h ← relu ([h, agg h] W_upd[l] + b_upd[l])` where `agg h` sums, for every node, the rows `h[target]` over the
  node's outgoing edges and divides by its degree; and for every edge
  `relu ([h[source], h[target]] We1 + be1) We2 + be2`.

  `KChain` spells the first program's stages: its dense stages are the index-wise functions of `Cert.Spec`, fed
  with the two row halves of each weight matrix, and its row gather fills rows whose (wrapped) index lies outside
  `[0, 99999]` with a fixed word.  `RChain` spells the second program's: dense stages over the concatenated
  features and the whole weight matrix, and a plain gather.
-/
import proofs.«405452_j73366631350578_1_alg».proof.Proof.Gen.KernelIdeal
import proofs.«405452_j73366631350578_1_alg».proof.Proof.Gen.ReferenceIdeal
import proofs.«405452_j73366631350578_1_alg».proof.Proof.Spec

noncomputable section

/-- Every entry of the edge list is a node number: `0 ≤ ei[i] < 100000` as signed integers. -/
def Cert.InRange (ei : Idealize.ShloMosaic.IVec (⟨2, ![2, 2500000]⟩ : Idealize.ShloMosaic.Shape) 32) : Prop :=
  ∀ i, 0 ≤ (ei i).toInt ∧ (ei i).toInt < 100000

namespace Cert.KChain

open Cert.KernelIdeal Cert.KernelIdeal.Facts₀ Idealize.ShloMosaic

/-- The edges' source row: row 0 of the edge list, as a flat vector. -/
def row (ei : IVec S2x2500000 32) : IVec S2500000 32 :=
  shapeCast S2500000 (extractStridedSlice S1x2500000 ![0, 0] ei slices_S2x2500000_S1x2500000_0_0) shapeCasts_S1x2500000_S2500000

/-- The edges' target row: row 1 of the edge list, as a flat vector. -/
def col (ei : IVec S2x2500000 32) : IVec S2500000 32 :=
  shapeCast S2500000 (extractStridedSlice S1x2500000 ![1, 0] ei slices_S2x2500000_S1x2500000_1_0) shapeCasts_S1x2500000_S2500000

/-- A negative index counted from the end: `idx + 100000` where `idx < 0`, else `idx`. -/
def wrap (idx : IVec S2500000 32) : IVec S2500000 32 :=
  select (cmpi .slt idx (broadcastInDim S2500000 ![] bcast_S_S2500000 (constantI S_ 32 0#32)))
    (addi idx (broadcastInDim S2500000 ![] bcast_S_S2500000 (constantI S_ 32 100000#32))) idx

/-- The wrapped index vector as a column of start indices. -/
def idxCol (idx : IVec S2500000 32) : IVec S2500000x1 32 :=
  broadcastInDim S2500000x1 ![0] bcast_S2500000_S2500000x1_0 (wrap idx)

/-- Node degrees: the number of edges whose source is the node, at least one, as a column. -/
def deg (ei : IVec S2x2500000 32) : FVec Ideal S100000x1 .f32 :=
  broadcastInDim S100000x1 ![0] bcast_S100000_S100000x1_0
    (maximumf
      (Host.scatterAdd scatter_S100000_S2500000x1_S2500000_n_0_0_1
        (broadcastInDim S100000 ![] bcast_S_S100000 (constant S_ .f32 0x00000000#32))
        (broadcastInDim S2500000x1 ![0] bcast_S2500000_S2500000x1_0 (row ei))
        (broadcastInDim S2500000 ![] bcast_S_S2500000 (constant S_ .f32 0x3F800000#32)))
      (broadcastInDim S100000 ![] bcast_S_S100000 (constant S_ .f32 0x3F800000#32)))

/-- The sum over a node's outgoing edges of the rows `g` gathered per edge, divided by the node's degree. -/
def aggOf (g : FVec Ideal S2500000x32 .f32) (ei : IVec S2x2500000 32) : FVec Ideal S100000x32 .f32 :=
  Host.divf
    (Host.scatterAdd scatter_S100000x32_S2500000x1_S2500000x32_1_0_0_1
      (broadcastInDim S100000x32 ![] bcast_S_S100000x32 (constant S_ .f32 0x00000000#32))
      (broadcastInDim S2500000x1 ![0] bcast_S2500000_S2500000x1_0 (row ei)) g)
    (broadcastInDim S100000x32 ![0, 1] bcast_S100000x1_S100000x32_0_1 (deg ei))

/-- Which (wrapped) start indices lie in `[0, 99999]`. -/
def inRange (j : IVec S2500000x1 32) : IVec S2500000 1 :=
  Host.reduce IntOp.andi
    (andi (cmpi .sge j (broadcastInDim S2500000x1 ![] bcast_S_S2500000x1 (constantI S_ 32 0#32)))
      (cmpi .sle j (broadcastInDim S2500000x1 ![0, 1] bcast_S1x1_S2500000x1_0_1
        (broadcastInDim S1x1 ![1] bcast_S1_S1x1_1 (constantI S1 32 99999#32)))))
    (constantI S_ 1 1#1) reducesTo_S2500000x1_S2500000_d1 h_S_

/-- The filling row gather: row `e` is `h`'s row at the wrapped index `idx e` when that lies in `[0, 99999]`, and a
    fixed filler word otherwise. -/
def take (h : FVec Ideal S100000x32 .f32) (idx : IVec S2500000 32) : FVec Ideal S2500000x32 .f32 :=
  select (broadcastInDim S2500000x32 ![0] bcast_S2500000_S2500000x32_0 (inRange (idxCol idx)))
    (Host.gather gather_S100000x32_S2500000x1_S2500000x32_1_0_n_n_0_1_132 h (idxCol idx))
    (broadcastInDim S2500000x32 ![] bcast_S_S2500000x32 (constant S_ .f32 0x7FC00000#32))

/-- The normalised neighbourhood sum of `h`. -/
def agg (h : FVec Ideal S100000x32 .f32) (ei : IVec S2x2500000 32) : FVec Ideal S100000x32 .f32 :=
  aggOf (take h (col ei)) ei

/-- Layer `l`'s weight rows 0…31 (applied to a node's own features). -/
def wh0 (W : FVec Ideal S2x64x32 .f32) : FVec Ideal S32x32 .f32 :=
  shapeCast S32x32 (extractStridedSlice S1x32x32 ![0, 0, 0] W slices_S2x64x32_S1x32x32_0_0_0) shapeCasts_S1x32x32_S32x32
/-- Layer 0's weight rows 32…63 (applied to the neighbourhood sum). -/
def wa0 (W : FVec Ideal S2x64x32 .f32) : FVec Ideal S32x32 .f32 :=
  shapeCast S32x32 (extractStridedSlice S1x32x32 ![0, 32, 0] W slices_S2x64x32_S1x32x32_0_32_0) shapeCasts_S1x32x32_S32x32
/-- Layer 0's bias as a one-row matrix. -/
def bu0 (b : FVec Ideal S2x32 .f32) : FVec Ideal S1x32 .f32 :=
  shapeCast S1x32 (shapeCast S32 (extractStridedSlice S1x32 ![0, 0] b slices_S2x32_S1x32_0_0) shapeCasts_S1x32_S32) shapeCasts_S32_S1x32
def wh1 (W : FVec Ideal S2x64x32 .f32) : FVec Ideal S32x32 .f32 :=
  shapeCast S32x32 (extractStridedSlice S1x32x32 ![1, 0, 0] W slices_S2x64x32_S1x32x32_1_0_0) shapeCasts_S1x32x32_S32x32
def wa1 (W : FVec Ideal S2x64x32 .f32) : FVec Ideal S32x32 .f32 :=
  shapeCast S32x32 (extractStridedSlice S1x32x32 ![1, 32, 0] W slices_S2x64x32_S1x32x32_1_32_0) shapeCasts_S1x32x32_S32x32
def bu1 (b : FVec Ideal S2x32 .f32) : FVec Ideal S1x32 .f32 :=
  shapeCast S1x32 (shapeCast S32 (extractStridedSlice S1x32 ![1, 0] b slices_S2x32_S1x32_1_0) shapeCasts_S1x32_S32) shapeCasts_S32_S1x32

/-- The projected node features. -/
def h0 (x : FVec Ideal S100000x2 .f32) (Win : FVec Ideal S2x32 .f32) (bin : FVec Ideal S32 .f32) : FVec Ideal S100000x32 .f32 :=
  Cert.Spec.lin x Win (shapeCast S1x32 bin shapeCasts_S32_S1x32)

/-- The edge network on gathered endpoint features `hr`, `hc`, flattened to one value per edge. -/
def out (hr hc : FVec Ideal S2500000x32 .f32) (We1 : FVec Ideal S64x32 .f32) (be1 : FVec Ideal S32 .f32)
    (We2 : FVec Ideal S32x1 .f32) (be2 : FVec Ideal S1 .f32) : FVec Ideal S2500000 .f32 :=
  shapeCast S2500000
    (Cert.Spec.edge hr hc (extractStridedSlice S32x32 ![0, 0] We1 slices_S64x32_S32x32_0_0)
      (extractStridedSlice S32x32 ![32, 0] We1 slices_S64x32_S32x32_32_0) (shapeCast S1x32 be1 shapeCasts_S32_S1x32) We2
      (shapeCast S1x1 be2 shapeCasts_S1_S1x1))
    shapeCasts_S2500000x1_S2500000

/-- The first program's result as a function of the ten argument arrays. -/
def val (x : FVec Ideal S100000x2 .f32) (ei : IVec S2x2500000 32) (Win : FVec Ideal S2x32 .f32) (bin : FVec Ideal S32 .f32)
    (Wu : FVec Ideal S2x64x32 .f32) (bu : FVec Ideal S2x32 .f32) (We1 : FVec Ideal S64x32 .f32) (be1 : FVec Ideal S32 .f32)
    (We2 : FVec Ideal S32x1 .f32) (be2 : FVec Ideal S1 .f32) : FVec Ideal S2500000 .f32 :=
  let a0 := h0 x Win bin
  let a1 : FVec Ideal S100000x32 .f32 := Cert.Spec.upd a0 (agg a0 ei) (wh0 Wu) (wa0 Wu) (bu0 bu)
  let a2 : FVec Ideal S100000x32 .f32 := Cert.Spec.upd a1 (agg a1 ei) (wh1 Wu) (wa1 Wu) (bu1 bu)
  out (take a2 (row ei)) (take a2 (col ei)) We1 be1 We2 be2

end Cert.KChain

namespace Cert.RChain

open Cert.ReferenceIdeal Cert.ReferenceIdeal.Facts₀ Idealize.ShloMosaic

-- the second program's stages at any float instance (the first program's above are read at the ideal one)
variable {F : FTy → Type} [FloatOps F]

/-- The edges' source row: row 0 of the edge list, as a flat vector. -/
def row (ei : IVec S2x2500000 32) : IVec S2500000 32 :=
  shapeCast S2500000 (extractStridedSlice S1x2500000 ![0, 0] ei slices_S2x2500000_S1x2500000_0_0) shapeCasts_S1x2500000_S2500000

/-- The edges' target row: row 1 of the edge list, as a flat vector. -/
def col (ei : IVec S2x2500000 32) : IVec S2500000 32 :=
  shapeCast S2500000 (extractStridedSlice S1x2500000 ![1, 0] ei slices_S2x2500000_S1x2500000_1_0) shapeCasts_S1x2500000_S2500000

/-- A negative index counted from the end: `idx + 100000` where `idx < 0`, else `idx`. -/
def wrap (idx : IVec S2500000 32) : IVec S2500000 32 :=
  select (cmpi .slt idx (broadcastInDim S2500000 ![] bcast_S_S2500000 (constantI S_ 32 0#32)))
    (addi idx (broadcastInDim S2500000 ![] bcast_S_S2500000 (constantI S_ 32 100000#32))) idx

/-- The wrapped index vector as a column of start indices. -/
def idxCol (idx : IVec S2500000 32) : IVec S2500000x1 32 :=
  broadcastInDim S2500000x1 ![0] bcast_S2500000_S2500000x1_0 (wrap idx)

/-- Node degrees: the number of edges whose source is the node, at least one, as a column. -/
def deg (ei : IVec S2x2500000 32) : FVec F S100000x1 .f32 :=
  broadcastInDim S100000x1 ![0] bcast_S100000_S100000x1_0
    (maximumf
      (Host.scatterAdd scatter_S100000_S2500000x1_S2500000_n_0_0_1
        (broadcastInDim S100000 ![] bcast_S_S100000 (constant S_ .f32 0x00000000#32))
        (broadcastInDim S2500000x1 ![0] bcast_S2500000_S2500000x1_0 (row ei))
        (broadcastInDim S2500000 ![] bcast_S_S2500000 (constant S_ .f32 0x3F800000#32)))
      (broadcastInDim S100000 ![] bcast_S_S100000 (constant S_ .f32 0x3F800000#32)))

/-- The sum over a node's outgoing edges of the rows `g` gathered per edge, divided by the node's degree. -/
def aggOf (g : FVec F S2500000x32 .f32) (ei : IVec S2x2500000 32) : FVec F S100000x32 .f32 :=
  Host.divf
    (Host.scatterAdd scatter_S100000x32_S2500000x1_S2500000x32_1_0_0_1
      (broadcastInDim S100000x32 ![] bcast_S_S100000x32 (constant S_ .f32 0x00000000#32))
      (broadcastInDim S2500000x1 ![0] bcast_S2500000_S2500000x1_0 (row ei)) g)
    (broadcastInDim S100000x32 ![0, 1] bcast_S100000x1_S100000x32_0_1 (deg ei))

/-- The plain row gather: row `e` is `h`'s row at the wrapped index `idx e` (read signed and clamped into range). -/
def gat (h : FVec F S100000x32 .f32) (idx : IVec S2500000 32) : FVec F S2500000x32 .f32 :=
  Host.gather gather_S100000x32_S2500000x1_S2500000x32_1_0_n_n_0_1_132 h (idxCol idx)

/-- The normalised neighbourhood sum of `h`. -/
def agg (h : FVec F S100000x32 .f32) (ei : IVec S2x2500000 32) : FVec F S100000x32 .f32 :=
  aggOf (gat h (col ei)) ei

/-- The rectifier. -/
def relu32 (y : FVec F S100000x32 .f32) : FVec F S100000x32 .f32 :=
  maximumf y (broadcastInDim S100000x32 ![] bcast_S_S100000x32 (constant S_ .f32 0x00000000#32))

/-- The projected node features. -/
def h0 (x : FVec F S100000x2 .f32) (Win : FVec F S2x32 .f32) (bin : FVec F S32 .f32) : FVec F S100000x32 .f32 :=
  relu32 (addf (Host.dotGeneral dot_S100000x2_S2x32_S100000x32_1_0_0_1_n_n none x Win)
    (broadcastInDim S100000x32 ![0, 1] bcast_S1x32_S100000x32_0_1 (broadcastInDim S1x32 ![1] bcast_S32_S1x32_1 bin)))

/-- One layer over the concatenated features, a whole 64-row weight matrix `W` and a bias vector `b`. -/
def layer (h a : FVec F S100000x32 .f32) (W : FVec F S64x32 .f32) (b : FVec F S32 .f32) : FVec F S100000x32 .f32 :=
  relu32 (addf (Host.dotGeneral dot_S100000x64_S64x32_S100000x32_1_0_0_1_n_n none
      (concatenate S100000x64 1 [⟨S100000x32, h⟩, ⟨S100000x32, a⟩] concatenates_S100000x32_S100000x32_S100000x64_d1) W)
    (broadcastInDim S100000x32 ![0, 1] bcast_S1x32_S100000x32_0_1 (broadcastInDim S1x32 ![1] bcast_S32_S1x32_1 b)))

def w0 (W : FVec F S2x64x32 .f32) : FVec F S64x32 .f32 :=
  shapeCast S64x32 (extractStridedSlice S1x64x32 ![0, 0, 0] W slices_S2x64x32_S1x64x32_0_0_0) shapeCasts_S1x64x32_S64x32
def w1 (W : FVec F S2x64x32 .f32) : FVec F S64x32 .f32 :=
  shapeCast S64x32 (extractStridedSlice S1x64x32 ![1, 0, 0] W slices_S2x64x32_S1x64x32_1_0_0) shapeCasts_S1x64x32_S64x32
def b0 (b : FVec F S2x32 .f32) : FVec F S32 .f32 :=
  shapeCast S32 (extractStridedSlice S1x32 ![0, 0] b slices_S2x32_S1x32_0_0) shapeCasts_S1x32_S32
def b1 (b : FVec F S2x32 .f32) : FVec F S32 .f32 :=
  shapeCast S32 (extractStridedSlice S1x32 ![1, 0] b slices_S2x32_S1x32_1_0) shapeCasts_S1x32_S32

/-- The edge network on gathered endpoint features, flattened to one value per edge. -/
def out (hr hc : FVec F S2500000x32 .f32) (We1 : FVec F S64x32 .f32) (be1 : FVec F S32 .f32)
    (We2 : FVec F S32x1 .f32) (be2 : FVec F S1 .f32) : FVec F S2500000 .f32 :=
  shapeCast S2500000
    (addf (Host.dotGeneral dot_S2500000x32_S32x1_S2500000x1_1_0_0_1_n_n none
        (maximumf (addf (Host.dotGeneral dot_S2500000x64_S64x32_S2500000x32_1_0_0_1_n_n none
              (concatenate S2500000x64 1 [⟨S2500000x32, hr⟩, ⟨S2500000x32, hc⟩] concatenates_S2500000x32_S2500000x32_S2500000x64_d1) We1)
            (broadcastInDim S2500000x32 ![0, 1] bcast_S1x32_S2500000x32_0_1 (broadcastInDim S1x32 ![1] bcast_S32_S1x32_1 be1)))
          (broadcastInDim S2500000x32 ![] bcast_S_S2500000x32 (constant S_ .f32 0x00000000#32))) We2)
      (broadcastInDim S2500000x1 ![0, 1] bcast_S1x1_S2500000x1_0_1 (broadcastInDim S1x1 ![1] bcast_S1_S1x1_1 be2)))
    shapeCasts_S2500000x1_S2500000

/-- The second program's result as a function of the ten argument arrays. -/
def val (x : FVec F S100000x2 .f32) (ei : IVec S2x2500000 32) (Win : FVec F S2x32 .f32) (bin : FVec F S32 .f32)
    (Wu : FVec F S2x64x32 .f32) (bu : FVec F S2x32 .f32) (We1 : FVec F S64x32 .f32) (be1 : FVec F S32 .f32)
    (We2 : FVec F S32x1 .f32) (be2 : FVec F S1 .f32) : FVec F S2500000 .f32 :=
  let a0 := h0 x Win bin
  let a1 := layer a0 (agg a0 ei) (w0 Wu) (b0 bu)
  let a2 := layer a1 (agg a1 ei) (w1 Wu) (b1 bu)
  out (gat a2 (row ei)) (gat a2 (col ei)) We1 be1 We2 be2

end Cert.RChain

end
-- ==== Proof.KernelValue.lean ====
/-
  The first program's result buffer, followed back through the run.  The buffer contents at the boundaries of
  @main's fourteen segments are a fold from the launch memory: a stretch of host operations rewrites the buffers it
  writes, a kernel region leaves in its output array what its grid points wrote.  Reading the fold at the buffers
  each later segment reads gives, stage by stage: the two rows of the edge list; the projected features `h₀`
  (region 0); the degrees; the normalised neighbourhood sums and the weight slices of layer 0 and `h₁` (region 1);
  the same for layer 1 and `h₂` (region 2); the gathered endpoint features and the edge network (region 3); and the
  flattened result — the composition `Cert.KChain.val` of the ten argument arrays.
-/
import proofs.«405452_j73366631350578_1_alg».proof.Proof.Gen.KernelIdeal.Frame
import proofs.«405452_j73366631350578_1_alg».proof.Proof.Region0
import proofs.«405452_j73366631350578_1_alg».proof.Proof.Region1
import proofs.«405452_j73366631350578_1_alg».proof.Proof.Region2
import proofs.«405452_j73366631350578_1_alg».proof.Proof.Region3
import proofs.«405452_j73366631350578_1_alg».proof.Proof.Chain
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

section Stretches
/-! ## The host stretches, at any float instance and from any buffer contents

Each stretch of host operations between two regions is read once, from contents `V` that stay a variable: the
buffer it computes as a function of the buffers it reads. -/

variable {F : FTy → Type} [FloatOps F]

/-- Contents carried to a typed reference's buffer and back are unchanged. -/
theorem ofBuf_toBuf {T : BufTy} (x : StableHlo.TRef sig T) (v : T.Contents (Elt F)) : x.ofBuf (x.toBuf v) = v := by
  obtain ⟨r, rfl, _, _⟩ := x
  rfl

theorem ofBuf_v3 (p1 p2 p3) (v) : (StableHlo.TRef.of (T := ⟨S2500000, .i32⟩) main_v3 p1 p2 p3).ofBuf (Val := Elt F) v = v := rfl
theorem ofBuf_v1 (p1 p2 p3) (v) : (StableHlo.TRef.of (T := ⟨S2500000, .i32⟩) main_v1 p1 p2 p3).ofBuf (Val := Elt F) v = v := rfl
theorem ofBuf_v5 (p1 p2 p3) (v) : (StableHlo.TRef.of (T := ⟨S100000x32, .f32⟩) main_v5 p1 p2 p3).ofBuf (Val := Elt F) v = v := rfl
theorem ofBuf_v26 (p1 p2 p3) (v) : (StableHlo.TRef.of (T := ⟨S100000x32, .f32⟩) main_v26 p1 p2 p3).ofBuf (Val := Elt F) v = v := rfl
theorem ofBuf_v40 (p1 p2 p3) (v) : (StableHlo.TRef.of (T := ⟨S100000x32, .f32⟩) main_v40 p1 p2 p3).ofBuf (Val := Elt F) v = v := rfl
theorem toBuf_v13 (p1 p2 p3) (v) : (StableHlo.TRef.of (T := ⟨S2500000x32, .f32⟩) main_v13 p1 p2 p3).toBuf (Val := Elt F) v = v := rfl
theorem toBuf_v27 (p1 p2 p3) (v) : (StableHlo.TRef.of (T := ⟨S2500000x32, .f32⟩) main_v27 p1 p2 p3).toBuf (Val := Elt F) v = v := rfl
theorem toBuf_v41 (p1 p2 p3) (v) : (StableHlo.TRef.of (T := ⟨S2500000x32, .f32⟩) main_v41 p1 p2 p3).toBuf (Val := Elt F) v = v := rfl
theorem toBuf_v42 (p1 p2 p3) (v) : (StableHlo.TRef.of (T := ⟨S2500000x32, .f32⟩) main_v42 p1 p2 p3).toBuf (Val := Elt F) v = v := rfl

/-- The filling row gather: row `e` is `h`'s row at the wrapped index `idx e` when that lies in `[0, 99999]`, and a
    fixed filler word otherwise. -/
def takeF (h : FVec F S100000x32 .f32) (idx : IVec S2500000 32) : FVec F S2500000x32 .f32 :=
  select (broadcastInDim S2500000x32 ![0] Facts₀.bcast_S2500000_S2500000x32_0 (Cert.KChain.inRange (Cert.KChain.idxCol idx)))
    (Host.gather gather_S100000x32_S2500000x1_S2500000x32_1_0_n_n_0_1_132 h (Cert.KChain.idxCol idx))
    (broadcastInDim S2500000x32 ![] Facts₀.bcast_S_S2500000x32 (constant S_ .f32 0x7FC00000#32))

/-- The scatter-sum of per-edge rows `g` into the edges' source nodes `rowv`, divided by the degrees `degv`. -/
def aggF (g : FVec F S2500000x32 .f32) (rowv : IVec S2500000 32) (degv : FVec F S100000x1 .f32) : FVec F S100000x32 .f32 :=
  Host.divf
    (Host.scatterAdd scatter_S100000x32_S2500000x1_S2500000x32_1_0_0_1
      (broadcastInDim S100000x32 ![] Facts₀.bcast_S_S100000x32 (constant S_ .f32 0x00000000#32))
      (broadcastInDim S2500000x1 ![0] Facts₀.bcast_S2500000_S2500000x1_0 rowv) g)
    (broadcastInDim S100000x32 ![0, 1] Facts₀.bcast_S100000x1_S100000x32_0_1 degv)

set_option maxHeartbeats 2000000 in
/-- The gather stretch `hostOps1_1`: its result buffer is the filling gather of the two buffers it reads. -/
theorem take_stretch0 (V : Valuation τ sig (Elt F)) :
    StableHlo.after (hostOps1_1 (F := F)) V (Proc.devRef .tc main_v13) = takeF (V (Proc.devRef .tc main_v5)) (V (Proc.devRef .tc main_v3)) := by
  after_results_simp
  simp only [ofBuf_toBuf, ofBuf_v5, ofBuf_v3, toBuf_v13]
  rfl

set_option maxHeartbeats 2000000 in
/-- The gather stretch `hostOps2`: its result buffer is the filling gather of the two buffers it reads. -/
theorem take_stretch1 (V : Valuation τ sig (Elt F)) :
    StableHlo.after (hostOps2 (F := F)) V (Proc.devRef .tc main_v27) = takeF (V (Proc.devRef .tc main_v26)) (V (Proc.devRef .tc main_v3)) := by
  after_results_simp
  simp only [ofBuf_toBuf, ofBuf_v26, ofBuf_v3, toBuf_v27]
  rfl

set_option maxHeartbeats 2000000 in
/-- The gather stretch `hostOps3`: its result buffer is the filling gather of the two buffers it reads. -/
theorem take_stretch2 (V : Valuation τ sig (Elt F)) :
    StableHlo.after (hostOps3 (F := F)) V (Proc.devRef .tc main_v41) = takeF (V (Proc.devRef .tc main_v40)) (V (Proc.devRef .tc main_v1)) := by
  after_results_simp
  simp only [ofBuf_toBuf, ofBuf_v40, ofBuf_v1, toBuf_v41]
  rfl

set_option maxHeartbeats 2000000 in
/-- The gather stretch `hostOps3_1`: its result buffer is the filling gather of the two buffers it reads. -/
theorem take_stretch3 (V : Valuation τ sig (Elt F)) :
    StableHlo.after (hostOps3_1 (F := F)) V (Proc.devRef .tc main_v42) = takeF (V (Proc.devRef .tc main_v40)) (V (Proc.devRef .tc main_v3)) := by
  after_results_simp
  simp only [ofBuf_toBuf, ofBuf_v40, ofBuf_v3, toBuf_v42]
  rfl

/-- The stretch `hostOps1_2`: the normalised scatter-sum of the gathered rows. -/
theorem agg_stretch0 (V : Valuation τ sig (Elt F)) :
    StableHlo.after (hostOps1_2 (F := F)) V (Proc.devRef .tc main_v18) = aggF (V (Proc.devRef .tc main_v13)) (V (Proc.devRef .tc main_v1)) (V (Proc.devRef .tc main_v12)) := by
  after_results <;> rfl

/-- The stretch `hostOps2_1`: the normalised scatter-sum of the gathered rows. -/
theorem agg_stretch1 (V : Valuation τ sig (Elt F)) :
    StableHlo.after (hostOps2_1 (F := F)) V (Proc.devRef .tc main_v32) = aggF (V (Proc.devRef .tc main_v27)) (V (Proc.devRef .tc main_v1)) (V (Proc.devRef .tc main_v12)) := by
  after_results <;> rfl

/-- The last two stretches before region 3 leave the first gathered array alone. -/
theorem carry_v41 (V : Valuation τ sig (Elt F)) :
    StableHlo.after (hostOps3_2 (F := F)) (StableHlo.after (hostOps3_1 (F := F)) V) (Proc.devRef .tc main_v41) = V (Proc.devRef .tc main_v41) := by
  after_results <;> rfl

/-- The last stretch before region 3 leaves the second gathered array alone. -/
theorem carry_v42 (V : Valuation τ sig (Elt F)) :
    StableHlo.after (hostOps3_2 (F := F)) V (Proc.devRef .tc main_v42) = V (Proc.devRef .tc main_v42) := by
  after_results <;> rfl

end Stretches

theorem takeF_ideal (h : FVec Ideal S100000x32 .f32) (idx : IVec S2500000 32) : takeF (F := Ideal) h idx = Cert.KChain.take h idx := rfl

theorem aggF_ideal (h : FVec Ideal S100000x32 .f32) (ei : IVec S2x2500000 32) :
    aggF (F := Ideal) (Cert.KChain.take h (Cert.KChain.col ei)) (Cert.KChain.row ei) (Cert.KChain.deg ei) = Cert.KChain.agg h ei := rfl

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)
/-- The edge list's source row, target row and the degrees, of the launched edge list. -/
abbrev ROW := Cert.KChain.row (arg m c main_arg1)
abbrev COL := Cert.KChain.col (arg m c main_arg1)
abbrev DEG := Cert.KChain.deg (arg m c main_arg1)
/-- The node features after the projection and after each layer. -/
abbrev H0 := Cert.KChain.h0 (arg m c main_arg0) (arg m c main_arg2) (arg m c main_arg3)
abbrev H1 : FVec Ideal S100000x32 .f32 :=
  Cert.Spec.upd (H0 m c) (Cert.KChain.agg (H0 m c) (arg m c main_arg1)) (Cert.KChain.wh0 (arg m c main_arg4)) (Cert.KChain.wa0 (arg m c main_arg4)) (Cert.KChain.bu0 (arg m c main_arg5))
abbrev H2 : FVec Ideal S100000x32 .f32 :=
  Cert.Spec.upd (H1 m c) (Cert.KChain.agg (H1 m c) (arg m c main_arg1)) (Cert.KChain.wh1 (arg m c main_arg4)) (Cert.KChain.wa1 (arg m c main_arg4)) (Cert.KChain.bu1 (arg m c main_arg5))

/-! ## Before region 0: the buffers after the first stretch -/
theorem W1_arg0 : W1 m ρ c (Proc.devRef .tc main_arg0) = arg m c main_arg0 := by
  show StableHlo.after hostOps0 (W0 m ρ c) (Proc.devRef .tc main_arg0) = _
  after_results <;> rfl

theorem W1_arg1 : W1 m ρ c (Proc.devRef .tc main_arg1) = arg m c main_arg1 := by
  show StableHlo.after hostOps0 (W0 m ρ c) (Proc.devRef .tc main_arg1) = _
  after_results <;> rfl

theorem W1_arg2 : W1 m ρ c (Proc.devRef .tc main_arg2) = arg m c main_arg2 := by
  show StableHlo.after hostOps0 (W0 m ρ c) (Proc.devRef .tc main_arg2) = _
  after_results <;> rfl

theorem W1_arg4 : W1 m ρ c (Proc.devRef .tc main_arg4) = arg m c main_arg4 := by
  show StableHlo.after hostOps0 (W0 m ρ c) (Proc.devRef .tc main_arg4) = _
  after_results <;> rfl

theorem W1_arg5 : W1 m ρ c (Proc.devRef .tc main_arg5) = arg m c main_arg5 := by
  show StableHlo.after hostOps0 (W0 m ρ c) (Proc.devRef .tc main_arg5) = _
  after_results <;> rfl

theorem W1_arg6 : W1 m ρ c (Proc.devRef .tc main_arg6) = arg m c main_arg6 := by
  show StableHlo.after hostOps0 (W0 m ρ c) (Proc.devRef .tc main_arg6) = _
  after_results <;> rfl

theorem W1_arg7 : W1 m ρ c (Proc.devRef .tc main_arg7) = arg m c main_arg7 := by
  show StableHlo.after hostOps0 (W0 m ρ c) (Proc.devRef .tc main_arg7) = _
  after_results <;> rfl

theorem W1_arg8 : W1 m ρ c (Proc.devRef .tc main_arg8) = arg m c main_arg8 := by
  show StableHlo.after hostOps0 (W0 m ρ c) (Proc.devRef .tc main_arg8) = _
  after_results <;> rfl

theorem W1_arg9 : W1 m ρ c (Proc.devRef .tc main_arg9) = arg m c main_arg9 := by
  show StableHlo.after hostOps0 (W0 m ρ c) (Proc.devRef .tc main_arg9) = _
  after_results <;> rfl

theorem W1_v1 : W1 m ρ c (Proc.devRef .tc main_v1) = ROW m c := by
  show StableHlo.after hostOps0 (W0 m ρ c) (Proc.devRef .tc main_v1) = _
  after_results <;> rfl

theorem W1_v3 : W1 m ρ c (Proc.devRef .tc main_v3) = COL m c := by
  show StableHlo.after hostOps0 (W0 m ρ c) (Proc.devRef .tc main_v3) = _
  after_results <;> rfl

theorem W1_v4 : W1 m ρ c (Proc.devRef .tc main_v4) = shapeCast S1x32 (arg m c main_arg3) Facts₀.shapeCasts_S32_S1x32 := by
  show StableHlo.after hostOps0 (W0 m ρ c) (Proc.devRef .tc main_v4) = _
  after_results <;> rfl

/-! ## Region 0: its output is the projection; every other buffer is as before it -/

theorem W2_v5 : W2 m ρ c (Proc.devRef .tc main_v5) = H0 m c := by
  refine ((W2_arr m ρ c 3).trans (Cert.KernelIdeal.Region0.final0 (V1 m ρ) c)).trans ?_
  show Cert.Spec.lin (W1 m ρ c (Proc.devRef .tc main_arg0)) (W1 m ρ c (Proc.devRef .tc main_arg2)) (W1 m ρ c (Proc.devRef .tc main_v4)) = _
  rw [W1_arg0, W1_arg2, W1_v4]
  rfl

theorem W2_arg1 : W2 m ρ c (Proc.devRef .tc main_arg1) = arg m c main_arg1 :=
  (W2_of_ne m ρ c main_arg1 (by decide)).trans (W1_arg1 m ρ c)
theorem W2_arg4 : W2 m ρ c (Proc.devRef .tc main_arg4) = arg m c main_arg4 :=
  (W2_of_ne m ρ c main_arg4 (by decide)).trans (W1_arg4 m ρ c)
theorem W2_arg5 : W2 m ρ c (Proc.devRef .tc main_arg5) = arg m c main_arg5 :=
  (W2_of_ne m ρ c main_arg5 (by decide)).trans (W1_arg5 m ρ c)
theorem W2_arg6 : W2 m ρ c (Proc.devRef .tc main_arg6) = arg m c main_arg6 :=
  (W2_of_ne m ρ c main_arg6 (by decide)).trans (W1_arg6 m ρ c)
theorem W2_arg7 : W2 m ρ c (Proc.devRef .tc main_arg7) = arg m c main_arg7 :=
  (W2_of_ne m ρ c main_arg7 (by decide)).trans (W1_arg7 m ρ c)
theorem W2_arg8 : W2 m ρ c (Proc.devRef .tc main_arg8) = arg m c main_arg8 :=
  (W2_of_ne m ρ c main_arg8 (by decide)).trans (W1_arg8 m ρ c)
theorem W2_arg9 : W2 m ρ c (Proc.devRef .tc main_arg9) = arg m c main_arg9 :=
  (W2_of_ne m ρ c main_arg9 (by decide)).trans (W1_arg9 m ρ c)
theorem W2_v1 : W2 m ρ c (Proc.devRef .tc main_v1) = ROW m c := (W2_of_ne m ρ c main_v1 (by decide)).trans (W1_v1 m ρ c)
theorem W2_v3 : W2 m ρ c (Proc.devRef .tc main_v3) = COL m c := (W2_of_ne m ρ c main_v3 (by decide)).trans (W1_v3 m ρ c)

/-! ## Before region 1: the degrees, the neighbourhood sums of `h₀`, layer 0's weights -/
theorem W5_v5 : W5 m ρ c (Proc.devRef .tc main_v5) = H0 m c := by
  show StableHlo.after hostOps1_2 (StableHlo.after hostOps1_1 (StableHlo.after hostOps1 (W2 m ρ c))) (Proc.devRef .tc main_v5) = _
  after_results
  exact W2_v5 m ρ c

theorem W5_v1 : W5 m ρ c (Proc.devRef .tc main_v1) = ROW m c := by
  show StableHlo.after hostOps1_2 (StableHlo.after hostOps1_1 (StableHlo.after hostOps1 (W2 m ρ c))) (Proc.devRef .tc main_v1) = _
  after_results
  exact W2_v1 m ρ c

theorem W5_v3 : W5 m ρ c (Proc.devRef .tc main_v3) = COL m c := by
  show StableHlo.after hostOps1_2 (StableHlo.after hostOps1_1 (StableHlo.after hostOps1 (W2 m ρ c))) (Proc.devRef .tc main_v3) = _
  after_results
  exact W2_v3 m ρ c

theorem W5_arg4 : W5 m ρ c (Proc.devRef .tc main_arg4) = arg m c main_arg4 := by
  show StableHlo.after hostOps1_2 (StableHlo.after hostOps1_1 (StableHlo.after hostOps1 (W2 m ρ c))) (Proc.devRef .tc main_arg4) = _
  after_results
  exact W2_arg4 m ρ c

theorem W5_arg5 : W5 m ρ c (Proc.devRef .tc main_arg5) = arg m c main_arg5 := by
  show StableHlo.after hostOps1_2 (StableHlo.after hostOps1_1 (StableHlo.after hostOps1 (W2 m ρ c))) (Proc.devRef .tc main_arg5) = _
  after_results
  exact W2_arg5 m ρ c

theorem W5_arg6 : W5 m ρ c (Proc.devRef .tc main_arg6) = arg m c main_arg6 := by
  show StableHlo.after hostOps1_2 (StableHlo.after hostOps1_1 (StableHlo.after hostOps1 (W2 m ρ c))) (Proc.devRef .tc main_arg6) = _
  after_results
  exact W2_arg6 m ρ c

theorem W5_arg7 : W5 m ρ c (Proc.devRef .tc main_arg7) = arg m c main_arg7 := by
  show StableHlo.after hostOps1_2 (StableHlo.after hostOps1_1 (StableHlo.after hostOps1 (W2 m ρ c))) (Proc.devRef .tc main_arg7) = _
  after_results
  exact W2_arg7 m ρ c

theorem W5_arg8 : W5 m ρ c (Proc.devRef .tc main_arg8) = arg m c main_arg8 := by
  show StableHlo.after hostOps1_2 (StableHlo.after hostOps1_1 (StableHlo.after hostOps1 (W2 m ρ c))) (Proc.devRef .tc main_arg8) = _
  after_results
  exact W2_arg8 m ρ c

theorem W5_arg9 : W5 m ρ c (Proc.devRef .tc main_arg9) = arg m c main_arg9 := by
  show StableHlo.after hostOps1_2 (StableHlo.after hostOps1_1 (StableHlo.after hostOps1 (W2 m ρ c))) (Proc.devRef .tc main_arg9) = _
  after_results
  exact W2_arg9 m ρ c

theorem W5_v12 : W5 m ρ c (Proc.devRef .tc main_v12) = DEG m c := by
  show StableHlo.after hostOps1_2 (StableHlo.after hostOps1_1 (StableHlo.after hostOps1 (W2 m ρ c))) (Proc.devRef .tc main_v12) = _
  after_results
  rw [W2_v1]
  rfl

theorem W3_v5 : W3 m ρ c (Proc.devRef .tc main_v5) = H0 m c := by
  show StableHlo.after hostOps1 (W2 m ρ c) (Proc.devRef .tc main_v5) = _
  after_results
  exact W2_v5 m ρ c

theorem W3_v3 : W3 m ρ c (Proc.devRef .tc main_v3) = COL m c := by
  show StableHlo.after hostOps1 (W2 m ρ c) (Proc.devRef .tc main_v3) = _
  after_results
  exact W2_v3 m ρ c

theorem W4_v13 : W4 m ρ c (Proc.devRef .tc main_v13) = Cert.KChain.take (H0 m c) (COL m c) := by
  refine (take_stretch0 (F := Ideal) (W3 m ρ c)).trans ?_
  rw [W3_v5, W3_v3]
  rfl

theorem W4_v1 : W4 m ρ c (Proc.devRef .tc main_v1) = ROW m c := by
  show StableHlo.after hostOps1_1 (StableHlo.after hostOps1 (W2 m ρ c)) (Proc.devRef .tc main_v1) = _
  after_results
  exact W2_v1 m ρ c

theorem W4_v12 : W4 m ρ c (Proc.devRef .tc main_v12) = DEG m c := by
  show StableHlo.after hostOps1_1 (StableHlo.after hostOps1 (W2 m ρ c)) (Proc.devRef .tc main_v12) = _
  after_results
  rw [W2_v1]
  rfl

theorem W5_v18 : W5 m ρ c (Proc.devRef .tc main_v18) = Cert.KChain.agg (H0 m c) (arg m c main_arg1) := by
  refine (agg_stretch0 (F := Ideal) (W4 m ρ c)).trans ?_
  rw [W4_v13, W4_v1, W4_v12]
  rfl

theorem W5_v20 : W5 m ρ c (Proc.devRef .tc main_v20) = Cert.KChain.wh0 (arg m c main_arg4) := by
  show StableHlo.after hostOps1_2 (StableHlo.after hostOps1_1 (StableHlo.after hostOps1 (W2 m ρ c))) (Proc.devRef .tc main_v20) = _
  after_results
  rw [W2_arg4]
  rfl

theorem W5_v22 : W5 m ρ c (Proc.devRef .tc main_v22) = Cert.KChain.wa0 (arg m c main_arg4) := by
  show StableHlo.after hostOps1_2 (StableHlo.after hostOps1_1 (StableHlo.after hostOps1 (W2 m ρ c))) (Proc.devRef .tc main_v22) = _
  after_results
  rw [W2_arg4]
  rfl

theorem W5_v25 : W5 m ρ c (Proc.devRef .tc main_v25) = Cert.KChain.bu0 (arg m c main_arg5) := by
  show StableHlo.after hostOps1_2 (StableHlo.after hostOps1_1 (StableHlo.after hostOps1 (W2 m ρ c))) (Proc.devRef .tc main_v25) = _
  after_results
  rw [W2_arg5]
  rfl

/-! ## Region 1: its output is `h₁`; every other buffer is as before it -/

theorem W6_v26 : W6 m ρ c (Proc.devRef .tc main_v26) = H1 m c := by
  refine ((W6_arr m ρ c 5).trans (Cert.KernelIdeal.Region1.final1 (V5 m ρ) c)).trans ?_
  show Cert.Spec.upd (W5 m ρ c (Proc.devRef .tc main_v5)) (W5 m ρ c (Proc.devRef .tc main_v18)) (W5 m ρ c (Proc.devRef .tc main_v20)) (W5 m ρ c (Proc.devRef .tc main_v22)) (W5 m ρ c (Proc.devRef .tc main_v25)) = _
  rw [W5_v5, W5_v18, W5_v20, W5_v22, W5_v25]

theorem W6_v1 : W6 m ρ c (Proc.devRef .tc main_v1) = ROW m c := (W6_of_ne m ρ c main_v1 (by decide)).trans (W5_v1 m ρ c)
theorem W6_v3 : W6 m ρ c (Proc.devRef .tc main_v3) = COL m c := (W6_of_ne m ρ c main_v3 (by decide)).trans (W5_v3 m ρ c)
theorem W6_v12 : W6 m ρ c (Proc.devRef .tc main_v12) = DEG m c := (W6_of_ne m ρ c main_v12 (by decide)).trans (W5_v12 m ρ c)
theorem W6_arg4 : W6 m ρ c (Proc.devRef .tc main_arg4) = arg m c main_arg4 := (W6_of_ne m ρ c main_arg4 (by decide)).trans (W5_arg4 m ρ c)
theorem W6_arg5 : W6 m ρ c (Proc.devRef .tc main_arg5) = arg m c main_arg5 := (W6_of_ne m ρ c main_arg5 (by decide)).trans (W5_arg5 m ρ c)
theorem W6_arg6 : W6 m ρ c (Proc.devRef .tc main_arg6) = arg m c main_arg6 := (W6_of_ne m ρ c main_arg6 (by decide)).trans (W5_arg6 m ρ c)
theorem W6_arg7 : W6 m ρ c (Proc.devRef .tc main_arg7) = arg m c main_arg7 := (W6_of_ne m ρ c main_arg7 (by decide)).trans (W5_arg7 m ρ c)
theorem W6_arg8 : W6 m ρ c (Proc.devRef .tc main_arg8) = arg m c main_arg8 := (W6_of_ne m ρ c main_arg8 (by decide)).trans (W5_arg8 m ρ c)
theorem W6_arg9 : W6 m ρ c (Proc.devRef .tc main_arg9) = arg m c main_arg9 := (W6_of_ne m ρ c main_arg9 (by decide)).trans (W5_arg9 m ρ c)

/-! ## Before region 2: the neighbourhood sums of `h₁`, layer 1's weights -/
theorem W8_v26 : W8 m ρ c (Proc.devRef .tc main_v26) = H1 m c := by
  show StableHlo.after hostOps2_1 (StableHlo.after hostOps2 (W6 m ρ c)) (Proc.devRef .tc main_v26) = _
  after_results
  exact W6_v26 m ρ c

theorem W8_v1 : W8 m ρ c (Proc.devRef .tc main_v1) = ROW m c := by
  show StableHlo.after hostOps2_1 (StableHlo.after hostOps2 (W6 m ρ c)) (Proc.devRef .tc main_v1) = _
  after_results
  exact W6_v1 m ρ c

theorem W8_v3 : W8 m ρ c (Proc.devRef .tc main_v3) = COL m c := by
  show StableHlo.after hostOps2_1 (StableHlo.after hostOps2 (W6 m ρ c)) (Proc.devRef .tc main_v3) = _
  after_results
  exact W6_v3 m ρ c

theorem W8_arg6 : W8 m ρ c (Proc.devRef .tc main_arg6) = arg m c main_arg6 := by
  show StableHlo.after hostOps2_1 (StableHlo.after hostOps2 (W6 m ρ c)) (Proc.devRef .tc main_arg6) = _
  after_results
  exact W6_arg6 m ρ c

theorem W8_arg7 : W8 m ρ c (Proc.devRef .tc main_arg7) = arg m c main_arg7 := by
  show StableHlo.after hostOps2_1 (StableHlo.after hostOps2 (W6 m ρ c)) (Proc.devRef .tc main_arg7) = _
  after_results
  exact W6_arg7 m ρ c

theorem W8_arg8 : W8 m ρ c (Proc.devRef .tc main_arg8) = arg m c main_arg8 := by
  show StableHlo.after hostOps2_1 (StableHlo.after hostOps2 (W6 m ρ c)) (Proc.devRef .tc main_arg8) = _
  after_results
  exact W6_arg8 m ρ c

theorem W8_arg9 : W8 m ρ c (Proc.devRef .tc main_arg9) = arg m c main_arg9 := by
  show StableHlo.after hostOps2_1 (StableHlo.after hostOps2 (W6 m ρ c)) (Proc.devRef .tc main_arg9) = _
  after_results
  exact W6_arg9 m ρ c

theorem W7_v27 : W7 m ρ c (Proc.devRef .tc main_v27) = Cert.KChain.take (H1 m c) (COL m c) := by
  refine (take_stretch1 (F := Ideal) (W6 m ρ c)).trans ?_
  rw [W6_v26, W6_v3]
  rfl

theorem W7_v1 : W7 m ρ c (Proc.devRef .tc main_v1) = ROW m c := by
  show StableHlo.after hostOps2 (W6 m ρ c) (Proc.devRef .tc main_v1) = _
  after_results
  exact W6_v1 m ρ c

theorem W7_v12 : W7 m ρ c (Proc.devRef .tc main_v12) = DEG m c := by
  show StableHlo.after hostOps2 (W6 m ρ c) (Proc.devRef .tc main_v12) = _
  after_results
  exact W6_v12 m ρ c

theorem W8_v32 : W8 m ρ c (Proc.devRef .tc main_v32) = Cert.KChain.agg (H1 m c) (arg m c main_arg1) := by
  refine (agg_stretch1 (F := Ideal) (W7 m ρ c)).trans ?_
  rw [W7_v27, W7_v1, W7_v12]
  rfl

theorem W8_v34 : W8 m ρ c (Proc.devRef .tc main_v34) = Cert.KChain.wh1 (arg m c main_arg4) := by
  show StableHlo.after hostOps2_1 (StableHlo.after hostOps2 (W6 m ρ c)) (Proc.devRef .tc main_v34) = _
  after_results
  rw [W6_arg4]
  rfl

theorem W8_v36 : W8 m ρ c (Proc.devRef .tc main_v36) = Cert.KChain.wa1 (arg m c main_arg4) := by
  show StableHlo.after hostOps2_1 (StableHlo.after hostOps2 (W6 m ρ c)) (Proc.devRef .tc main_v36) = _
  after_results
  rw [W6_arg4]
  rfl

theorem W8_v39 : W8 m ρ c (Proc.devRef .tc main_v39) = Cert.KChain.bu1 (arg m c main_arg5) := by
  show StableHlo.after hostOps2_1 (StableHlo.after hostOps2 (W6 m ρ c)) (Proc.devRef .tc main_v39) = _
  after_results
  rw [W6_arg5]
  rfl

/-! ## Region 2: its output is `h₂` -/

theorem W9_v40 : W9 m ρ c (Proc.devRef .tc main_v40) = H2 m c := by
  refine ((W9_arr m ρ c 5).trans (Cert.KernelIdeal.Region2.final2 (V8 m ρ) c)).trans ?_
  show Cert.Spec.upd (W8 m ρ c (Proc.devRef .tc main_v26)) (W8 m ρ c (Proc.devRef .tc main_v32)) (W8 m ρ c (Proc.devRef .tc main_v34)) (W8 m ρ c (Proc.devRef .tc main_v36)) (W8 m ρ c (Proc.devRef .tc main_v39)) = _
  rw [W8_v26, W8_v32, W8_v34, W8_v36, W8_v39]

theorem W9_v1 : W9 m ρ c (Proc.devRef .tc main_v1) = ROW m c := (W9_of_ne m ρ c main_v1 (by decide)).trans (W8_v1 m ρ c)
theorem W9_v3 : W9 m ρ c (Proc.devRef .tc main_v3) = COL m c := (W9_of_ne m ρ c main_v3 (by decide)).trans (W8_v3 m ρ c)
theorem W9_arg6 : W9 m ρ c (Proc.devRef .tc main_arg6) = arg m c main_arg6 := (W9_of_ne m ρ c main_arg6 (by decide)).trans (W8_arg6 m ρ c)
theorem W9_arg7 : W9 m ρ c (Proc.devRef .tc main_arg7) = arg m c main_arg7 := (W9_of_ne m ρ c main_arg7 (by decide)).trans (W8_arg7 m ρ c)
theorem W9_arg8 : W9 m ρ c (Proc.devRef .tc main_arg8) = arg m c main_arg8 := (W9_of_ne m ρ c main_arg8 (by decide)).trans (W8_arg8 m ρ c)
theorem W9_arg9 : W9 m ρ c (Proc.devRef .tc main_arg9) = arg m c main_arg9 := (W9_of_ne m ρ c main_arg9 (by decide)).trans (W8_arg9 m ρ c)

/-! ## Before region 3: the endpoint features of every edge, the edge network's weights -/
theorem W10_v40 : W10 m ρ c (Proc.devRef .tc main_v40) = H2 m c := by
  show StableHlo.after hostOps3 (W9 m ρ c) (Proc.devRef .tc main_v40) = _
  after_results
  exact W9_v40 m ρ c

theorem W10_v3 : W10 m ρ c (Proc.devRef .tc main_v3) = COL m c := by
  show StableHlo.after hostOps3 (W9 m ρ c) (Proc.devRef .tc main_v3) = _
  after_results
  exact W9_v3 m ρ c

theorem W10_v41 : W10 m ρ c (Proc.devRef .tc main_v41) = Cert.KChain.take (H2 m c) (ROW m c) := by
  refine (take_stretch2 (F := Ideal) (W9 m ρ c)).trans ?_
  rw [W9_v40, W9_v1]
  rfl

theorem W11_v42 : W11 m ρ c (Proc.devRef .tc main_v42) = Cert.KChain.take (H2 m c) (COL m c) := by
  refine (take_stretch3 (F := Ideal) (W10 m ρ c)).trans ?_
  rw [W10_v40, W10_v3]
  rfl

theorem W12_v41 : W12 m ρ c (Proc.devRef .tc main_v41) = Cert.KChain.take (H2 m c) (ROW m c) :=
  (carry_v41 (F := Ideal) (W10 m ρ c)).trans (W10_v41 m ρ c)

theorem W12_v42 : W12 m ρ c (Proc.devRef .tc main_v42) = Cert.KChain.take (H2 m c) (COL m c) :=
  (carry_v42 (F := Ideal) (W11 m ρ c)).trans (W11_v42 m ρ c)

theorem W12_v43 : W12 m ρ c (Proc.devRef .tc main_v43) = extractStridedSlice S32x32 ![0, 0] (arg m c main_arg6) Facts₀.slices_S64x32_S32x32_0_0 := by
  show StableHlo.after hostOps3_2 (StableHlo.after hostOps3_1 (StableHlo.after hostOps3 (W9 m ρ c))) (Proc.devRef .tc main_v43) = _
  after_results
  rw [W9_arg6]

theorem W12_v44 : W12 m ρ c (Proc.devRef .tc main_v44) = extractStridedSlice S32x32 ![32, 0] (arg m c main_arg6) Facts₀.slices_S64x32_S32x32_32_0 := by
  show StableHlo.after hostOps3_2 (StableHlo.after hostOps3_1 (StableHlo.after hostOps3 (W9 m ρ c))) (Proc.devRef .tc main_v44) = _
  after_results
  rw [W9_arg6]

theorem W12_v45 : W12 m ρ c (Proc.devRef .tc main_v45) = shapeCast S1x32 (arg m c main_arg7) Facts₀.shapeCasts_S32_S1x32 := by
  show StableHlo.after hostOps3_2 (StableHlo.after hostOps3_1 (StableHlo.after hostOps3 (W9 m ρ c))) (Proc.devRef .tc main_v45) = _
  after_results
  rw [W9_arg7]
  rfl

theorem W12_v46 : W12 m ρ c (Proc.devRef .tc main_v46) = shapeCast S1x1 (arg m c main_arg9) Facts₀.shapeCasts_S1_S1x1 := by
  show StableHlo.after hostOps3_2 (StableHlo.after hostOps3_1 (StableHlo.after hostOps3 (W9 m ρ c))) (Proc.devRef .tc main_v46) = _
  after_results
  rw [W9_arg9]
  rfl

theorem W12_arg8 : W12 m ρ c (Proc.devRef .tc main_arg8) = arg m c main_arg8 := by
  show StableHlo.after hostOps3_2 (StableHlo.after hostOps3_1 (StableHlo.after hostOps3 (W9 m ρ c))) (Proc.devRef .tc main_arg8) = _
  after_results
  exact W9_arg8 m ρ c

/-! ## Region 3 and the last stretch: the edge network, flattened -/

theorem W13_v47 : W13 m ρ c (Proc.devRef .tc main_v47)
    = Cert.Spec.edge (Cert.KChain.take (H2 m c) (ROW m c)) (Cert.KChain.take (H2 m c) (COL m c))
        (extractStridedSlice S32x32 ![0, 0] (arg m c main_arg6) Facts₀.slices_S64x32_S32x32_0_0)
        (extractStridedSlice S32x32 ![32, 0] (arg m c main_arg6) Facts₀.slices_S64x32_S32x32_32_0)
        (shapeCast S1x32 (arg m c main_arg7) Facts₀.shapeCasts_S32_S1x32) (arg m c main_arg8)
        (shapeCast S1x1 (arg m c main_arg9) Facts₀.shapeCasts_S1_S1x1) := by
  refine ((W13_arr m ρ c 7).trans (Cert.KernelIdeal.Region3.final3 (V12 m ρ) c)).trans ?_
  show Cert.Spec.edge (W12 m ρ c (Proc.devRef .tc main_v41)) (W12 m ρ c (Proc.devRef .tc main_v42)) (W12 m ρ c (Proc.devRef .tc main_v43)) (W12 m ρ c (Proc.devRef .tc main_v44)) (W12 m ρ c (Proc.devRef .tc main_v45)) (W12 m ρ c (Proc.devRef .tc main_arg8)) (W12 m ρ c (Proc.devRef .tc main_v46)) = _
  rw [W12_v41, W12_v42, W12_v43, W12_v44, W12_v45, W12_arg8, W12_v46]

/-- The result buffer at the end of the run is the composition `Cert.KChain.val` of the argument arrays. -/
theorem W14_v48 : W14 m ρ c (Proc.devRef .tc main_v48)
    = Cert.KChain.val (arg m c main_arg0) (arg m c main_arg1) (arg m c main_arg2) (arg m c main_arg3) (arg m c main_arg4)
        (arg m c main_arg5) (arg m c main_arg6) (arg m c main_arg7) (arg m c main_arg8) (arg m c main_arg9) := by
  show StableHlo.after hostOps4 (W13 m ρ c) (Proc.devRef .tc main_v48) = _
  after_results
  rw [W13_v47]
  rfl

end Cert.KernelIdeal.Val

end
-- ==== Proof.RefValue.lean ====
/-
  The second program's buffers after its host operations, followed chunk by chunk.  The operation list is cut
  before every concatenate into eight chunks; each chunk's result buffers are a function of the buffers it reads,
  whatever the contents it starts from: the two rows of the edge list and the projected features; the degrees; the
  normalised neighbourhood sums; a layer over the concatenated features; the same once more; the endpoint
  features of every edge; the edge network.  Folded over the launch contents this is `Cert.RChain.val` of the
  argument arrays, and no operation writes an argument array.
-/
import proofs.«405452_j73366631350578_1_alg».proof.Proof.RefOps
import proofs.«405452_j73366631350578_1_alg».proof.Proof.Chain
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Contents carried to a typed reference's buffer and back are unchanged. -/
theorem ofBuf_toBuf {T : BufTy} (x : StableHlo.TRef sig T) (v : T.Contents (Elt F)) : x.ofBuf (x.toBuf v) = v := by
  obtain ⟨r, rfl, _, _⟩ := x
  rfl
theorem ofBuf_v7 (p1 p2 p3) (v) : (StableHlo.TRef.of (T := ⟨S100000x32, .f32⟩) main_v7 p1 p2 p3).ofBuf (Val := Elt F) v = v := rfl
theorem ofBuf_v36 (p1 p2 p3) (v) : (StableHlo.TRef.of (T := ⟨S100000x32, .f32⟩) main_v36 p1 p2 p3).ofBuf (Val := Elt F) v = v := rfl
theorem ofBuf_v58 (p1 p2 p3) (v) : (StableHlo.TRef.of (T := ⟨S100000x32, .f32⟩) main_v58 p1 p2 p3).ofBuf (Val := Elt F) v = v := rfl
theorem ofBuf_v78 (p1 p2 p3) (v) : (StableHlo.TRef.of (T := ⟨S2500000x32, .f32⟩) main_v78 p1 p2 p3).ofBuf (Val := Elt F) v = v := rfl
theorem toBuf_v8 (p1 p2 p3) (v) : (StableHlo.TRef.of (T := ⟨S100000x32, .f32⟩) main_v8 p1 p2 p3).toBuf (Val := Elt F) v = v := rfl
theorem toBuf_v37 (p1 p2 p3) (v) : (StableHlo.TRef.of (T := ⟨S100000x32, .f32⟩) main_v37 p1 p2 p3).toBuf (Val := Elt F) v = v := rfl
theorem toBuf_v59 (p1 p2 p3) (v) : (StableHlo.TRef.of (T := ⟨S100000x32, .f32⟩) main_v59 p1 p2 p3).toBuf (Val := Elt F) v = v := rfl
theorem toBuf_v79 (p1 p2 p3) (v) : (StableHlo.TRef.of (T := ⟨S2500000x32, .f32⟩) main_v79 p1 p2 p3).toBuf (Val := Elt F) v = v := rfl

/-- The degrees from the edges' source row. -/
def degOfRow (rowv : IVec S2500000 32) : FVec F S100000x1 .f32 :=
  broadcastInDim S100000x1 ![0] Facts₀.bcast_S100000_S100000x1_0
    (maximumf
      (Host.scatterAdd scatter_S100000_S2500000x1_S2500000_n_0_0_1
        (broadcastInDim S100000 ![] Facts₀.bcast_S_S100000 (constant S_ .f32 0x00000000#32))
        (broadcastInDim S2500000x1 ![0] Facts₀.bcast_S2500000_S2500000x1_0 rowv)
        (broadcastInDim S2500000 ![] Facts₀.bcast_S_S2500000 (constant S_ .f32 0x3F800000#32)))
      (broadcastInDim S100000 ![] Facts₀.bcast_S_S100000 (constant S_ .f32 0x3F800000#32)))

/-- The normalised neighbourhood sum of `h` from the edges' two rows and the degrees. -/
def aggR (h : FVec F S100000x32 .f32) (colv rowv : IVec S2500000 32) (degv : FVec F S100000x1 .f32) : FVec F S100000x32 .f32 :=
  Host.divf
    (Host.scatterAdd scatter_S100000x32_S2500000x1_S2500000x32_1_0_0_1
      (broadcastInDim S100000x32 ![] Facts₀.bcast_S_S100000x32 (constant S_ .f32 0x00000000#32))
      (broadcastInDim S2500000x1 ![0] Facts₀.bcast_S2500000_S2500000x1_0 rowv) (Cert.RChain.gat h colv))
    (broadcastInDim S100000x32 ![0, 1] Facts₀.bcast_S100000x1_S100000x32_0_1 degv)

section Chunks
variable (V : Valuation τ sig (Elt F))

/-! ## What each chunk computes, from any contents -/

set_option maxHeartbeats 4000000 in
theorem c1_v1 : StableHlo.after (c1 (F := F)) V (Proc.devRef .tc main_v1) = Cert.RChain.row (V (Proc.devRef .tc main_arg1)) := by
  after_results <;> rfl
set_option maxHeartbeats 4000000 in
theorem c1_v3 : StableHlo.after (c1 (F := F)) V (Proc.devRef .tc main_v3) = Cert.RChain.col (V (Proc.devRef .tc main_arg1)) := by
  after_results <;> rfl
set_option maxHeartbeats 4000000 in
theorem c1_v8 : StableHlo.after (c1 (F := F)) V (Proc.devRef .tc main_v8) = Cert.RChain.h0 (V (Proc.devRef .tc main_arg0)) (V (Proc.devRef .tc main_arg2)) (V (Proc.devRef .tc main_arg3)) := by
  after_results_simp
  simp only [ofBuf_toBuf, ofBuf_v7, toBuf_v8]
  rfl
set_option maxHeartbeats 4000000 in
theorem c2_v15 : StableHlo.after (c2 (F := F)) V (Proc.devRef .tc main_v15) = degOfRow (V (Proc.devRef .tc main_v1)) := by
  after_results <;> rfl
set_option maxHeartbeats 4000000 in
theorem c3_v27 : StableHlo.after (c3 (F := F)) V (Proc.devRef .tc main_v27)
    = aggR (V (Proc.devRef .tc main_v8)) (V (Proc.devRef .tc main_v3)) (V (Proc.devRef .tc main_v1)) (V (Proc.devRef .tc main_v15)) := by
  after_results <;> rfl
set_option maxHeartbeats 4000000 in
theorem c4_v37 : StableHlo.after (c4 (F := F)) V (Proc.devRef .tc main_v37)
    = Cert.RChain.layer (V (Proc.devRef .tc main_v8)) (V (Proc.devRef .tc main_v27)) (Cert.RChain.w0 (V (Proc.devRef .tc main_arg4))) (Cert.RChain.b0 (V (Proc.devRef .tc main_arg5))) := by
  after_results_simp
  simp only [ofBuf_toBuf, ofBuf_v36, toBuf_v37]
  rfl
set_option maxHeartbeats 4000000 in
theorem c5_v49 : StableHlo.after (c5 (F := F)) V (Proc.devRef .tc main_v49)
    = aggR (V (Proc.devRef .tc main_v37)) (V (Proc.devRef .tc main_v3)) (V (Proc.devRef .tc main_v1)) (V (Proc.devRef .tc main_v15)) := by
  after_results <;> rfl
set_option maxHeartbeats 4000000 in
theorem c6_v59 : StableHlo.after (c6 (F := F)) V (Proc.devRef .tc main_v59)
    = Cert.RChain.layer (V (Proc.devRef .tc main_v37)) (V (Proc.devRef .tc main_v49)) (Cert.RChain.w1 (V (Proc.devRef .tc main_arg4))) (Cert.RChain.b1 (V (Proc.devRef .tc main_arg5))) := by
  after_results_simp
  simp only [ofBuf_toBuf, ofBuf_v58, toBuf_v59]
  rfl
set_option maxHeartbeats 4000000 in
theorem c7_v66 : StableHlo.after (c7 (F := F)) V (Proc.devRef .tc main_v66) = Cert.RChain.gat (V (Proc.devRef .tc main_v59)) (V (Proc.devRef .tc main_v1)) := by
  after_results <;> rfl
set_option maxHeartbeats 4000000 in
theorem c7_v73 : StableHlo.after (c7 (F := F)) V (Proc.devRef .tc main_v73) = Cert.RChain.gat (V (Proc.devRef .tc main_v59)) (V (Proc.devRef .tc main_v3)) := by
  after_results <;> rfl
set_option maxHeartbeats 4000000 in
theorem c8_v84 : StableHlo.after (c8 (F := F)) V (Proc.devRef .tc main_v84)
    = Cert.RChain.out (V (Proc.devRef .tc main_v66)) (V (Proc.devRef .tc main_v73)) (V (Proc.devRef .tc main_arg6)) (V (Proc.devRef .tc main_arg7)) (V (Proc.devRef .tc main_arg8)) (V (Proc.devRef .tc main_arg9)) := by
  after_results_simp
  simp only [ofBuf_toBuf, ofBuf_v78, toBuf_v79]
  rfl

/-! ## What each chunk leaves alone -/

theorem c1_keep_arg0 : StableHlo.after (c1 (F := F)) V (Proc.devRef .tc main_arg0) = V (Proc.devRef .tc main_arg0) := by
  after_results <;> rfl
theorem c1_keep_arg1 : StableHlo.after (c1 (F := F)) V (Proc.devRef .tc main_arg1) = V (Proc.devRef .tc main_arg1) := by
  after_results <;> rfl
theorem c1_keep_arg2 : StableHlo.after (c1 (F := F)) V (Proc.devRef .tc main_arg2) = V (Proc.devRef .tc main_arg2) := by
  after_results <;> rfl
theorem c1_keep_arg3 : StableHlo.after (c1 (F := F)) V (Proc.devRef .tc main_arg3) = V (Proc.devRef .tc main_arg3) := by
  after_results <;> rfl
theorem c1_keep_arg4 : StableHlo.after (c1 (F := F)) V (Proc.devRef .tc main_arg4) = V (Proc.devRef .tc main_arg4) := by
  after_results <;> rfl
theorem c1_keep_arg5 : StableHlo.after (c1 (F := F)) V (Proc.devRef .tc main_arg5) = V (Proc.devRef .tc main_arg5) := by
  after_results <;> rfl
theorem c1_keep_arg6 : StableHlo.after (c1 (F := F)) V (Proc.devRef .tc main_arg6) = V (Proc.devRef .tc main_arg6) := by
  after_results <;> rfl
theorem c1_keep_arg7 : StableHlo.after (c1 (F := F)) V (Proc.devRef .tc main_arg7) = V (Proc.devRef .tc main_arg7) := by
  after_results <;> rfl
theorem c1_keep_arg8 : StableHlo.after (c1 (F := F)) V (Proc.devRef .tc main_arg8) = V (Proc.devRef .tc main_arg8) := by
  after_results <;> rfl
theorem c1_keep_arg9 : StableHlo.after (c1 (F := F)) V (Proc.devRef .tc main_arg9) = V (Proc.devRef .tc main_arg9) := by
  after_results <;> rfl
theorem c2_keep_arg0 : StableHlo.after (c2 (F := F)) V (Proc.devRef .tc main_arg0) = V (Proc.devRef .tc main_arg0) := by
  after_results <;> rfl
theorem c2_keep_arg1 : StableHlo.after (c2 (F := F)) V (Proc.devRef .tc main_arg1) = V (Proc.devRef .tc main_arg1) := by
  after_results <;> rfl
theorem c2_keep_arg2 : StableHlo.after (c2 (F := F)) V (Proc.devRef .tc main_arg2) = V (Proc.devRef .tc main_arg2) := by
  after_results <;> rfl
theorem c2_keep_arg3 : StableHlo.after (c2 (F := F)) V (Proc.devRef .tc main_arg3) = V (Proc.devRef .tc main_arg3) := by
  after_results <;> rfl
theorem c2_keep_arg4 : StableHlo.after (c2 (F := F)) V (Proc.devRef .tc main_arg4) = V (Proc.devRef .tc main_arg4) := by
  after_results <;> rfl
theorem c2_keep_arg5 : StableHlo.after (c2 (F := F)) V (Proc.devRef .tc main_arg5) = V (Proc.devRef .tc main_arg5) := by
  after_results <;> rfl
theorem c2_keep_arg6 : StableHlo.after (c2 (F := F)) V (Proc.devRef .tc main_arg6) = V (Proc.devRef .tc main_arg6) := by
  after_results <;> rfl
theorem c2_keep_arg7 : StableHlo.after (c2 (F := F)) V (Proc.devRef .tc main_arg7) = V (Proc.devRef .tc main_arg7) := by
  after_results <;> rfl
theorem c2_keep_arg8 : StableHlo.after (c2 (F := F)) V (Proc.devRef .tc main_arg8) = V (Proc.devRef .tc main_arg8) := by
  after_results <;> rfl
theorem c2_keep_arg9 : StableHlo.after (c2 (F := F)) V (Proc.devRef .tc main_arg9) = V (Proc.devRef .tc main_arg9) := by
  after_results <;> rfl
theorem c2_keep_v1 : StableHlo.after (c2 (F := F)) V (Proc.devRef .tc main_v1) = V (Proc.devRef .tc main_v1) := by
  after_results <;> rfl
theorem c2_keep_v3 : StableHlo.after (c2 (F := F)) V (Proc.devRef .tc main_v3) = V (Proc.devRef .tc main_v3) := by
  after_results <;> rfl
theorem c2_keep_v8 : StableHlo.after (c2 (F := F)) V (Proc.devRef .tc main_v8) = V (Proc.devRef .tc main_v8) := by
  after_results <;> rfl
theorem c3_keep_arg0 : StableHlo.after (c3 (F := F)) V (Proc.devRef .tc main_arg0) = V (Proc.devRef .tc main_arg0) := by
  after_results <;> rfl
theorem c3_keep_arg1 : StableHlo.after (c3 (F := F)) V (Proc.devRef .tc main_arg1) = V (Proc.devRef .tc main_arg1) := by
  after_results <;> rfl
theorem c3_keep_arg2 : StableHlo.after (c3 (F := F)) V (Proc.devRef .tc main_arg2) = V (Proc.devRef .tc main_arg2) := by
  after_results <;> rfl
theorem c3_keep_arg3 : StableHlo.after (c3 (F := F)) V (Proc.devRef .tc main_arg3) = V (Proc.devRef .tc main_arg3) := by
  after_results <;> rfl
theorem c3_keep_arg4 : StableHlo.after (c3 (F := F)) V (Proc.devRef .tc main_arg4) = V (Proc.devRef .tc main_arg4) := by
  after_results <;> rfl
theorem c3_keep_arg5 : StableHlo.after (c3 (F := F)) V (Proc.devRef .tc main_arg5) = V (Proc.devRef .tc main_arg5) := by
  after_results <;> rfl
theorem c3_keep_arg6 : StableHlo.after (c3 (F := F)) V (Proc.devRef .tc main_arg6) = V (Proc.devRef .tc main_arg6) := by
  after_results <;> rfl
theorem c3_keep_arg7 : StableHlo.after (c3 (F := F)) V (Proc.devRef .tc main_arg7) = V (Proc.devRef .tc main_arg7) := by
  after_results <;> rfl
theorem c3_keep_arg8 : StableHlo.after (c3 (F := F)) V (Proc.devRef .tc main_arg8) = V (Proc.devRef .tc main_arg8) := by
  after_results <;> rfl
theorem c3_keep_arg9 : StableHlo.after (c3 (F := F)) V (Proc.devRef .tc main_arg9) = V (Proc.devRef .tc main_arg9) := by
  after_results <;> rfl
theorem c3_keep_v1 : StableHlo.after (c3 (F := F)) V (Proc.devRef .tc main_v1) = V (Proc.devRef .tc main_v1) := by
  after_results <;> rfl
theorem c3_keep_v3 : StableHlo.after (c3 (F := F)) V (Proc.devRef .tc main_v3) = V (Proc.devRef .tc main_v3) := by
  after_results <;> rfl
theorem c3_keep_v8 : StableHlo.after (c3 (F := F)) V (Proc.devRef .tc main_v8) = V (Proc.devRef .tc main_v8) := by
  after_results <;> rfl
theorem c3_keep_v15 : StableHlo.after (c3 (F := F)) V (Proc.devRef .tc main_v15) = V (Proc.devRef .tc main_v15) := by
  after_results <;> rfl
theorem c4_keep_arg0 : StableHlo.after (c4 (F := F)) V (Proc.devRef .tc main_arg0) = V (Proc.devRef .tc main_arg0) := by
  after_results <;> rfl
theorem c4_keep_arg1 : StableHlo.after (c4 (F := F)) V (Proc.devRef .tc main_arg1) = V (Proc.devRef .tc main_arg1) := by
  after_results <;> rfl
theorem c4_keep_arg2 : StableHlo.after (c4 (F := F)) V (Proc.devRef .tc main_arg2) = V (Proc.devRef .tc main_arg2) := by
  after_results <;> rfl
theorem c4_keep_arg3 : StableHlo.after (c4 (F := F)) V (Proc.devRef .tc main_arg3) = V (Proc.devRef .tc main_arg3) := by
  after_results <;> rfl
theorem c4_keep_arg4 : StableHlo.after (c4 (F := F)) V (Proc.devRef .tc main_arg4) = V (Proc.devRef .tc main_arg4) := by
  after_results <;> rfl
theorem c4_keep_arg5 : StableHlo.after (c4 (F := F)) V (Proc.devRef .tc main_arg5) = V (Proc.devRef .tc main_arg5) := by
  after_results <;> rfl
theorem c4_keep_arg6 : StableHlo.after (c4 (F := F)) V (Proc.devRef .tc main_arg6) = V (Proc.devRef .tc main_arg6) := by
  after_results <;> rfl
theorem c4_keep_arg7 : StableHlo.after (c4 (F := F)) V (Proc.devRef .tc main_arg7) = V (Proc.devRef .tc main_arg7) := by
  after_results <;> rfl
theorem c4_keep_arg8 : StableHlo.after (c4 (F := F)) V (Proc.devRef .tc main_arg8) = V (Proc.devRef .tc main_arg8) := by
  after_results <;> rfl
theorem c4_keep_arg9 : StableHlo.after (c4 (F := F)) V (Proc.devRef .tc main_arg9) = V (Proc.devRef .tc main_arg9) := by
  after_results <;> rfl
theorem c4_keep_v1 : StableHlo.after (c4 (F := F)) V (Proc.devRef .tc main_v1) = V (Proc.devRef .tc main_v1) := by
  after_results <;> rfl
theorem c4_keep_v3 : StableHlo.after (c4 (F := F)) V (Proc.devRef .tc main_v3) = V (Proc.devRef .tc main_v3) := by
  after_results <;> rfl
theorem c4_keep_v15 : StableHlo.after (c4 (F := F)) V (Proc.devRef .tc main_v15) = V (Proc.devRef .tc main_v15) := by
  after_results <;> rfl
theorem c5_keep_arg0 : StableHlo.after (c5 (F := F)) V (Proc.devRef .tc main_arg0) = V (Proc.devRef .tc main_arg0) := by
  after_results <;> rfl
theorem c5_keep_arg1 : StableHlo.after (c5 (F := F)) V (Proc.devRef .tc main_arg1) = V (Proc.devRef .tc main_arg1) := by
  after_results <;> rfl
theorem c5_keep_arg2 : StableHlo.after (c5 (F := F)) V (Proc.devRef .tc main_arg2) = V (Proc.devRef .tc main_arg2) := by
  after_results <;> rfl
theorem c5_keep_arg3 : StableHlo.after (c5 (F := F)) V (Proc.devRef .tc main_arg3) = V (Proc.devRef .tc main_arg3) := by
  after_results <;> rfl
theorem c5_keep_arg4 : StableHlo.after (c5 (F := F)) V (Proc.devRef .tc main_arg4) = V (Proc.devRef .tc main_arg4) := by
  after_results <;> rfl
theorem c5_keep_arg5 : StableHlo.after (c5 (F := F)) V (Proc.devRef .tc main_arg5) = V (Proc.devRef .tc main_arg5) := by
  after_results <;> rfl
theorem c5_keep_arg6 : StableHlo.after (c5 (F := F)) V (Proc.devRef .tc main_arg6) = V (Proc.devRef .tc main_arg6) := by
  after_results <;> rfl
theorem c5_keep_arg7 : StableHlo.after (c5 (F := F)) V (Proc.devRef .tc main_arg7) = V (Proc.devRef .tc main_arg7) := by
  after_results <;> rfl
theorem c5_keep_arg8 : StableHlo.after (c5 (F := F)) V (Proc.devRef .tc main_arg8) = V (Proc.devRef .tc main_arg8) := by
  after_results <;> rfl
theorem c5_keep_arg9 : StableHlo.after (c5 (F := F)) V (Proc.devRef .tc main_arg9) = V (Proc.devRef .tc main_arg9) := by
  after_results <;> rfl
theorem c5_keep_v1 : StableHlo.after (c5 (F := F)) V (Proc.devRef .tc main_v1) = V (Proc.devRef .tc main_v1) := by
  after_results <;> rfl
theorem c5_keep_v3 : StableHlo.after (c5 (F := F)) V (Proc.devRef .tc main_v3) = V (Proc.devRef .tc main_v3) := by
  after_results <;> rfl
theorem c5_keep_v37 : StableHlo.after (c5 (F := F)) V (Proc.devRef .tc main_v37) = V (Proc.devRef .tc main_v37) := by
  after_results <;> rfl
theorem c6_keep_arg0 : StableHlo.after (c6 (F := F)) V (Proc.devRef .tc main_arg0) = V (Proc.devRef .tc main_arg0) := by
  after_results <;> rfl
theorem c6_keep_arg1 : StableHlo.after (c6 (F := F)) V (Proc.devRef .tc main_arg1) = V (Proc.devRef .tc main_arg1) := by
  after_results <;> rfl
theorem c6_keep_arg2 : StableHlo.after (c6 (F := F)) V (Proc.devRef .tc main_arg2) = V (Proc.devRef .tc main_arg2) := by
  after_results <;> rfl
theorem c6_keep_arg3 : StableHlo.after (c6 (F := F)) V (Proc.devRef .tc main_arg3) = V (Proc.devRef .tc main_arg3) := by
  after_results <;> rfl
theorem c6_keep_arg4 : StableHlo.after (c6 (F := F)) V (Proc.devRef .tc main_arg4) = V (Proc.devRef .tc main_arg4) := by
  after_results <;> rfl
theorem c6_keep_arg5 : StableHlo.after (c6 (F := F)) V (Proc.devRef .tc main_arg5) = V (Proc.devRef .tc main_arg5) := by
  after_results <;> rfl
theorem c6_keep_arg6 : StableHlo.after (c6 (F := F)) V (Proc.devRef .tc main_arg6) = V (Proc.devRef .tc main_arg6) := by
  after_results <;> rfl
theorem c6_keep_arg7 : StableHlo.after (c6 (F := F)) V (Proc.devRef .tc main_arg7) = V (Proc.devRef .tc main_arg7) := by
  after_results <;> rfl
theorem c6_keep_arg8 : StableHlo.after (c6 (F := F)) V (Proc.devRef .tc main_arg8) = V (Proc.devRef .tc main_arg8) := by
  after_results <;> rfl
theorem c6_keep_arg9 : StableHlo.after (c6 (F := F)) V (Proc.devRef .tc main_arg9) = V (Proc.devRef .tc main_arg9) := by
  after_results <;> rfl
theorem c6_keep_v1 : StableHlo.after (c6 (F := F)) V (Proc.devRef .tc main_v1) = V (Proc.devRef .tc main_v1) := by
  after_results <;> rfl
theorem c6_keep_v3 : StableHlo.after (c6 (F := F)) V (Proc.devRef .tc main_v3) = V (Proc.devRef .tc main_v3) := by
  after_results <;> rfl
theorem c7_keep_arg0 : StableHlo.after (c7 (F := F)) V (Proc.devRef .tc main_arg0) = V (Proc.devRef .tc main_arg0) := by
  after_results <;> rfl
theorem c7_keep_arg1 : StableHlo.after (c7 (F := F)) V (Proc.devRef .tc main_arg1) = V (Proc.devRef .tc main_arg1) := by
  after_results <;> rfl
theorem c7_keep_arg2 : StableHlo.after (c7 (F := F)) V (Proc.devRef .tc main_arg2) = V (Proc.devRef .tc main_arg2) := by
  after_results <;> rfl
theorem c7_keep_arg3 : StableHlo.after (c7 (F := F)) V (Proc.devRef .tc main_arg3) = V (Proc.devRef .tc main_arg3) := by
  after_results <;> rfl
theorem c7_keep_arg4 : StableHlo.after (c7 (F := F)) V (Proc.devRef .tc main_arg4) = V (Proc.devRef .tc main_arg4) := by
  after_results <;> rfl
theorem c7_keep_arg5 : StableHlo.after (c7 (F := F)) V (Proc.devRef .tc main_arg5) = V (Proc.devRef .tc main_arg5) := by
  after_results <;> rfl
theorem c7_keep_arg6 : StableHlo.after (c7 (F := F)) V (Proc.devRef .tc main_arg6) = V (Proc.devRef .tc main_arg6) := by
  after_results <;> rfl
theorem c7_keep_arg7 : StableHlo.after (c7 (F := F)) V (Proc.devRef .tc main_arg7) = V (Proc.devRef .tc main_arg7) := by
  after_results <;> rfl
theorem c7_keep_arg8 : StableHlo.after (c7 (F := F)) V (Proc.devRef .tc main_arg8) = V (Proc.devRef .tc main_arg8) := by
  after_results <;> rfl
theorem c7_keep_arg9 : StableHlo.after (c7 (F := F)) V (Proc.devRef .tc main_arg9) = V (Proc.devRef .tc main_arg9) := by
  after_results <;> rfl
theorem c8_keep_arg0 : StableHlo.after (c8 (F := F)) V (Proc.devRef .tc main_arg0) = V (Proc.devRef .tc main_arg0) := by
  after_results <;> rfl
theorem c8_keep_arg1 : StableHlo.after (c8 (F := F)) V (Proc.devRef .tc main_arg1) = V (Proc.devRef .tc main_arg1) := by
  after_results <;> rfl
theorem c8_keep_arg2 : StableHlo.after (c8 (F := F)) V (Proc.devRef .tc main_arg2) = V (Proc.devRef .tc main_arg2) := by
  after_results <;> rfl
theorem c8_keep_arg3 : StableHlo.after (c8 (F := F)) V (Proc.devRef .tc main_arg3) = V (Proc.devRef .tc main_arg3) := by
  after_results <;> rfl
theorem c8_keep_arg4 : StableHlo.after (c8 (F := F)) V (Proc.devRef .tc main_arg4) = V (Proc.devRef .tc main_arg4) := by
  after_results <;> rfl
theorem c8_keep_arg5 : StableHlo.after (c8 (F := F)) V (Proc.devRef .tc main_arg5) = V (Proc.devRef .tc main_arg5) := by
  after_results <;> rfl
theorem c8_keep_arg6 : StableHlo.after (c8 (F := F)) V (Proc.devRef .tc main_arg6) = V (Proc.devRef .tc main_arg6) := by
  after_results <;> rfl
theorem c8_keep_arg7 : StableHlo.after (c8 (F := F)) V (Proc.devRef .tc main_arg7) = V (Proc.devRef .tc main_arg7) := by
  after_results <;> rfl
theorem c8_keep_arg8 : StableHlo.after (c8 (F := F)) V (Proc.devRef .tc main_arg8) = V (Proc.devRef .tc main_arg8) := by
  after_results <;> rfl
theorem c8_keep_arg9 : StableHlo.after (c8 (F := F)) V (Proc.devRef .tc main_arg9) = V (Proc.devRef .tc main_arg9) := by
  after_results <;> rfl

end Chunks

/-! ## The fold over the launch contents -/

section Fold
variable (V : Valuation τ sig (Elt F))

/-- The contents after the first `k` chunks. -/
abbrev U1 : Valuation τ sig (Elt F) := StableHlo.after c1 V
abbrev U2 : Valuation τ sig (Elt F) := StableHlo.after c2 (U1 V)
abbrev U3 : Valuation τ sig (Elt F) := StableHlo.after c3 (U2 V)
abbrev U4 : Valuation τ sig (Elt F) := StableHlo.after c4 (U3 V)
abbrev U5 : Valuation τ sig (Elt F) := StableHlo.after c5 (U4 V)
abbrev U6 : Valuation τ sig (Elt F) := StableHlo.after c6 (U5 V)
abbrev U7 : Valuation τ sig (Elt F) := StableHlo.after c7 (U6 V)
abbrev U8 : Valuation τ sig (Elt F) := StableHlo.after c8 (U7 V)

abbrev ROW : IVec S2500000 32 := Cert.RChain.row (V (Proc.devRef .tc main_arg1))
abbrev COL : IVec S2500000 32 := Cert.RChain.col (V (Proc.devRef .tc main_arg1))
abbrev DEG : FVec F S100000x1 .f32 := Cert.RChain.deg (V (Proc.devRef .tc main_arg1))
abbrev H0 : FVec F S100000x32 .f32 := Cert.RChain.h0 (V (Proc.devRef .tc main_arg0)) (V (Proc.devRef .tc main_arg2)) (V (Proc.devRef .tc main_arg3))
abbrev H1 : FVec F S100000x32 .f32 := Cert.RChain.layer (H0 V) (Cert.RChain.agg (H0 V) (V (Proc.devRef .tc main_arg1))) (Cert.RChain.w0 (V (Proc.devRef .tc main_arg4))) (Cert.RChain.b0 (V (Proc.devRef .tc main_arg5)))
abbrev H2 : FVec F S100000x32 .f32 := Cert.RChain.layer (H1 V) (Cert.RChain.agg (H1 V) (V (Proc.devRef .tc main_arg1))) (Cert.RChain.w1 (V (Proc.devRef .tc main_arg4))) (Cert.RChain.b1 (V (Proc.devRef .tc main_arg5)))

theorem U1_arg0 : U1 V (Proc.devRef .tc main_arg0) = V (Proc.devRef .tc main_arg0) :=
  (c1_keep_arg0 (V)).trans rfl
theorem U2_arg0 : U2 V (Proc.devRef .tc main_arg0) = V (Proc.devRef .tc main_arg0) :=
  (c2_keep_arg0 (U1 V)).trans (U1_arg0 V)
theorem U3_arg0 : U3 V (Proc.devRef .tc main_arg0) = V (Proc.devRef .tc main_arg0) :=
  (c3_keep_arg0 (U2 V)).trans (U2_arg0 V)
theorem U4_arg0 : U4 V (Proc.devRef .tc main_arg0) = V (Proc.devRef .tc main_arg0) :=
  (c4_keep_arg0 (U3 V)).trans (U3_arg0 V)
theorem U5_arg0 : U5 V (Proc.devRef .tc main_arg0) = V (Proc.devRef .tc main_arg0) :=
  (c5_keep_arg0 (U4 V)).trans (U4_arg0 V)
theorem U6_arg0 : U6 V (Proc.devRef .tc main_arg0) = V (Proc.devRef .tc main_arg0) :=
  (c6_keep_arg0 (U5 V)).trans (U5_arg0 V)
theorem U7_arg0 : U7 V (Proc.devRef .tc main_arg0) = V (Proc.devRef .tc main_arg0) :=
  (c7_keep_arg0 (U6 V)).trans (U6_arg0 V)
theorem U8_arg0 : U8 V (Proc.devRef .tc main_arg0) = V (Proc.devRef .tc main_arg0) :=
  (c8_keep_arg0 (U7 V)).trans (U7_arg0 V)
theorem U1_arg1 : U1 V (Proc.devRef .tc main_arg1) = V (Proc.devRef .tc main_arg1) :=
  (c1_keep_arg1 (V)).trans rfl
theorem U2_arg1 : U2 V (Proc.devRef .tc main_arg1) = V (Proc.devRef .tc main_arg1) :=
  (c2_keep_arg1 (U1 V)).trans (U1_arg1 V)
theorem U3_arg1 : U3 V (Proc.devRef .tc main_arg1) = V (Proc.devRef .tc main_arg1) :=
  (c3_keep_arg1 (U2 V)).trans (U2_arg1 V)
theorem U4_arg1 : U4 V (Proc.devRef .tc main_arg1) = V (Proc.devRef .tc main_arg1) :=
  (c4_keep_arg1 (U3 V)).trans (U3_arg1 V)
theorem U5_arg1 : U5 V (Proc.devRef .tc main_arg1) = V (Proc.devRef .tc main_arg1) :=
  (c5_keep_arg1 (U4 V)).trans (U4_arg1 V)
theorem U6_arg1 : U6 V (Proc.devRef .tc main_arg1) = V (Proc.devRef .tc main_arg1) :=
  (c6_keep_arg1 (U5 V)).trans (U5_arg1 V)
theorem U7_arg1 : U7 V (Proc.devRef .tc main_arg1) = V (Proc.devRef .tc main_arg1) :=
  (c7_keep_arg1 (U6 V)).trans (U6_arg1 V)
theorem U8_arg1 : U8 V (Proc.devRef .tc main_arg1) = V (Proc.devRef .tc main_arg1) :=
  (c8_keep_arg1 (U7 V)).trans (U7_arg1 V)
theorem U1_arg2 : U1 V (Proc.devRef .tc main_arg2) = V (Proc.devRef .tc main_arg2) :=
  (c1_keep_arg2 (V)).trans rfl
theorem U2_arg2 : U2 V (Proc.devRef .tc main_arg2) = V (Proc.devRef .tc main_arg2) :=
  (c2_keep_arg2 (U1 V)).trans (U1_arg2 V)
theorem U3_arg2 : U3 V (Proc.devRef .tc main_arg2) = V (Proc.devRef .tc main_arg2) :=
  (c3_keep_arg2 (U2 V)).trans (U2_arg2 V)
theorem U4_arg2 : U4 V (Proc.devRef .tc main_arg2) = V (Proc.devRef .tc main_arg2) :=
  (c4_keep_arg2 (U3 V)).trans (U3_arg2 V)
theorem U5_arg2 : U5 V (Proc.devRef .tc main_arg2) = V (Proc.devRef .tc main_arg2) :=
  (c5_keep_arg2 (U4 V)).trans (U4_arg2 V)
theorem U6_arg2 : U6 V (Proc.devRef .tc main_arg2) = V (Proc.devRef .tc main_arg2) :=
  (c6_keep_arg2 (U5 V)).trans (U5_arg2 V)
theorem U7_arg2 : U7 V (Proc.devRef .tc main_arg2) = V (Proc.devRef .tc main_arg2) :=
  (c7_keep_arg2 (U6 V)).trans (U6_arg2 V)
theorem U8_arg2 : U8 V (Proc.devRef .tc main_arg2) = V (Proc.devRef .tc main_arg2) :=
  (c8_keep_arg2 (U7 V)).trans (U7_arg2 V)
theorem U1_arg3 : U1 V (Proc.devRef .tc main_arg3) = V (Proc.devRef .tc main_arg3) :=
  (c1_keep_arg3 (V)).trans rfl
theorem U2_arg3 : U2 V (Proc.devRef .tc main_arg3) = V (Proc.devRef .tc main_arg3) :=
  (c2_keep_arg3 (U1 V)).trans (U1_arg3 V)
theorem U3_arg3 : U3 V (Proc.devRef .tc main_arg3) = V (Proc.devRef .tc main_arg3) :=
  (c3_keep_arg3 (U2 V)).trans (U2_arg3 V)
theorem U4_arg3 : U4 V (Proc.devRef .tc main_arg3) = V (Proc.devRef .tc main_arg3) :=
  (c4_keep_arg3 (U3 V)).trans (U3_arg3 V)
theorem U5_arg3 : U5 V (Proc.devRef .tc main_arg3) = V (Proc.devRef .tc main_arg3) :=
  (c5_keep_arg3 (U4 V)).trans (U4_arg3 V)
theorem U6_arg3 : U6 V (Proc.devRef .tc main_arg3) = V (Proc.devRef .tc main_arg3) :=
  (c6_keep_arg3 (U5 V)).trans (U5_arg3 V)
theorem U7_arg3 : U7 V (Proc.devRef .tc main_arg3) = V (Proc.devRef .tc main_arg3) :=
  (c7_keep_arg3 (U6 V)).trans (U6_arg3 V)
theorem U8_arg3 : U8 V (Proc.devRef .tc main_arg3) = V (Proc.devRef .tc main_arg3) :=
  (c8_keep_arg3 (U7 V)).trans (U7_arg3 V)
theorem U1_arg4 : U1 V (Proc.devRef .tc main_arg4) = V (Proc.devRef .tc main_arg4) :=
  (c1_keep_arg4 (V)).trans rfl
theorem U2_arg4 : U2 V (Proc.devRef .tc main_arg4) = V (Proc.devRef .tc main_arg4) :=
  (c2_keep_arg4 (U1 V)).trans (U1_arg4 V)
theorem U3_arg4 : U3 V (Proc.devRef .tc main_arg4) = V (Proc.devRef .tc main_arg4) :=
  (c3_keep_arg4 (U2 V)).trans (U2_arg4 V)
theorem U4_arg4 : U4 V (Proc.devRef .tc main_arg4) = V (Proc.devRef .tc main_arg4) :=
  (c4_keep_arg4 (U3 V)).trans (U3_arg4 V)
theorem U5_arg4 : U5 V (Proc.devRef .tc main_arg4) = V (Proc.devRef .tc main_arg4) :=
  (c5_keep_arg4 (U4 V)).trans (U4_arg4 V)
theorem U6_arg4 : U6 V (Proc.devRef .tc main_arg4) = V (Proc.devRef .tc main_arg4) :=
  (c6_keep_arg4 (U5 V)).trans (U5_arg4 V)
theorem U7_arg4 : U7 V (Proc.devRef .tc main_arg4) = V (Proc.devRef .tc main_arg4) :=
  (c7_keep_arg4 (U6 V)).trans (U6_arg4 V)
theorem U8_arg4 : U8 V (Proc.devRef .tc main_arg4) = V (Proc.devRef .tc main_arg4) :=
  (c8_keep_arg4 (U7 V)).trans (U7_arg4 V)
theorem U1_arg5 : U1 V (Proc.devRef .tc main_arg5) = V (Proc.devRef .tc main_arg5) :=
  (c1_keep_arg5 (V)).trans rfl
theorem U2_arg5 : U2 V (Proc.devRef .tc main_arg5) = V (Proc.devRef .tc main_arg5) :=
  (c2_keep_arg5 (U1 V)).trans (U1_arg5 V)
theorem U3_arg5 : U3 V (Proc.devRef .tc main_arg5) = V (Proc.devRef .tc main_arg5) :=
  (c3_keep_arg5 (U2 V)).trans (U2_arg5 V)
theorem U4_arg5 : U4 V (Proc.devRef .tc main_arg5) = V (Proc.devRef .tc main_arg5) :=
  (c4_keep_arg5 (U3 V)).trans (U3_arg5 V)
theorem U5_arg5 : U5 V (Proc.devRef .tc main_arg5) = V (Proc.devRef .tc main_arg5) :=
  (c5_keep_arg5 (U4 V)).trans (U4_arg5 V)
theorem U6_arg5 : U6 V (Proc.devRef .tc main_arg5) = V (Proc.devRef .tc main_arg5) :=
  (c6_keep_arg5 (U5 V)).trans (U5_arg5 V)
theorem U7_arg5 : U7 V (Proc.devRef .tc main_arg5) = V (Proc.devRef .tc main_arg5) :=
  (c7_keep_arg5 (U6 V)).trans (U6_arg5 V)
theorem U8_arg5 : U8 V (Proc.devRef .tc main_arg5) = V (Proc.devRef .tc main_arg5) :=
  (c8_keep_arg5 (U7 V)).trans (U7_arg5 V)
theorem U1_arg6 : U1 V (Proc.devRef .tc main_arg6) = V (Proc.devRef .tc main_arg6) :=
  (c1_keep_arg6 (V)).trans rfl
theorem U2_arg6 : U2 V (Proc.devRef .tc main_arg6) = V (Proc.devRef .tc main_arg6) :=
  (c2_keep_arg6 (U1 V)).trans (U1_arg6 V)
theorem U3_arg6 : U3 V (Proc.devRef .tc main_arg6) = V (Proc.devRef .tc main_arg6) :=
  (c3_keep_arg6 (U2 V)).trans (U2_arg6 V)
theorem U4_arg6 : U4 V (Proc.devRef .tc main_arg6) = V (Proc.devRef .tc main_arg6) :=
  (c4_keep_arg6 (U3 V)).trans (U3_arg6 V)
theorem U5_arg6 : U5 V (Proc.devRef .tc main_arg6) = V (Proc.devRef .tc main_arg6) :=
  (c5_keep_arg6 (U4 V)).trans (U4_arg6 V)
theorem U6_arg6 : U6 V (Proc.devRef .tc main_arg6) = V (Proc.devRef .tc main_arg6) :=
  (c6_keep_arg6 (U5 V)).trans (U5_arg6 V)
theorem U7_arg6 : U7 V (Proc.devRef .tc main_arg6) = V (Proc.devRef .tc main_arg6) :=
  (c7_keep_arg6 (U6 V)).trans (U6_arg6 V)
theorem U8_arg6 : U8 V (Proc.devRef .tc main_arg6) = V (Proc.devRef .tc main_arg6) :=
  (c8_keep_arg6 (U7 V)).trans (U7_arg6 V)
theorem U1_arg7 : U1 V (Proc.devRef .tc main_arg7) = V (Proc.devRef .tc main_arg7) :=
  (c1_keep_arg7 (V)).trans rfl
theorem U2_arg7 : U2 V (Proc.devRef .tc main_arg7) = V (Proc.devRef .tc main_arg7) :=
  (c2_keep_arg7 (U1 V)).trans (U1_arg7 V)
theorem U3_arg7 : U3 V (Proc.devRef .tc main_arg7) = V (Proc.devRef .tc main_arg7) :=
  (c3_keep_arg7 (U2 V)).trans (U2_arg7 V)
theorem U4_arg7 : U4 V (Proc.devRef .tc main_arg7) = V (Proc.devRef .tc main_arg7) :=
  (c4_keep_arg7 (U3 V)).trans (U3_arg7 V)
theorem U5_arg7 : U5 V (Proc.devRef .tc main_arg7) = V (Proc.devRef .tc main_arg7) :=
  (c5_keep_arg7 (U4 V)).trans (U4_arg7 V)
theorem U6_arg7 : U6 V (Proc.devRef .tc main_arg7) = V (Proc.devRef .tc main_arg7) :=
  (c6_keep_arg7 (U5 V)).trans (U5_arg7 V)
theorem U7_arg7 : U7 V (Proc.devRef .tc main_arg7) = V (Proc.devRef .tc main_arg7) :=
  (c7_keep_arg7 (U6 V)).trans (U6_arg7 V)
theorem U8_arg7 : U8 V (Proc.devRef .tc main_arg7) = V (Proc.devRef .tc main_arg7) :=
  (c8_keep_arg7 (U7 V)).trans (U7_arg7 V)
theorem U1_arg8 : U1 V (Proc.devRef .tc main_arg8) = V (Proc.devRef .tc main_arg8) :=
  (c1_keep_arg8 (V)).trans rfl
theorem U2_arg8 : U2 V (Proc.devRef .tc main_arg8) = V (Proc.devRef .tc main_arg8) :=
  (c2_keep_arg8 (U1 V)).trans (U1_arg8 V)
theorem U3_arg8 : U3 V (Proc.devRef .tc main_arg8) = V (Proc.devRef .tc main_arg8) :=
  (c3_keep_arg8 (U2 V)).trans (U2_arg8 V)
theorem U4_arg8 : U4 V (Proc.devRef .tc main_arg8) = V (Proc.devRef .tc main_arg8) :=
  (c4_keep_arg8 (U3 V)).trans (U3_arg8 V)
theorem U5_arg8 : U5 V (Proc.devRef .tc main_arg8) = V (Proc.devRef .tc main_arg8) :=
  (c5_keep_arg8 (U4 V)).trans (U4_arg8 V)
theorem U6_arg8 : U6 V (Proc.devRef .tc main_arg8) = V (Proc.devRef .tc main_arg8) :=
  (c6_keep_arg8 (U5 V)).trans (U5_arg8 V)
theorem U7_arg8 : U7 V (Proc.devRef .tc main_arg8) = V (Proc.devRef .tc main_arg8) :=
  (c7_keep_arg8 (U6 V)).trans (U6_arg8 V)
theorem U8_arg8 : U8 V (Proc.devRef .tc main_arg8) = V (Proc.devRef .tc main_arg8) :=
  (c8_keep_arg8 (U7 V)).trans (U7_arg8 V)
theorem U1_arg9 : U1 V (Proc.devRef .tc main_arg9) = V (Proc.devRef .tc main_arg9) :=
  (c1_keep_arg9 (V)).trans rfl
theorem U2_arg9 : U2 V (Proc.devRef .tc main_arg9) = V (Proc.devRef .tc main_arg9) :=
  (c2_keep_arg9 (U1 V)).trans (U1_arg9 V)
theorem U3_arg9 : U3 V (Proc.devRef .tc main_arg9) = V (Proc.devRef .tc main_arg9) :=
  (c3_keep_arg9 (U2 V)).trans (U2_arg9 V)
theorem U4_arg9 : U4 V (Proc.devRef .tc main_arg9) = V (Proc.devRef .tc main_arg9) :=
  (c4_keep_arg9 (U3 V)).trans (U3_arg9 V)
theorem U5_arg9 : U5 V (Proc.devRef .tc main_arg9) = V (Proc.devRef .tc main_arg9) :=
  (c5_keep_arg9 (U4 V)).trans (U4_arg9 V)
theorem U6_arg9 : U6 V (Proc.devRef .tc main_arg9) = V (Proc.devRef .tc main_arg9) :=
  (c6_keep_arg9 (U5 V)).trans (U5_arg9 V)
theorem U7_arg9 : U7 V (Proc.devRef .tc main_arg9) = V (Proc.devRef .tc main_arg9) :=
  (c7_keep_arg9 (U6 V)).trans (U6_arg9 V)
theorem U8_arg9 : U8 V (Proc.devRef .tc main_arg9) = V (Proc.devRef .tc main_arg9) :=
  (c8_keep_arg9 (U7 V)).trans (U7_arg9 V)

theorem U1_v1 : U1 V (Proc.devRef .tc main_v1) = ROW V := c1_v1 V
theorem U1_v3 : U1 V (Proc.devRef .tc main_v3) = COL V := c1_v3 V
theorem U1_v8 : U1 V (Proc.devRef .tc main_v8) = H0 V := c1_v8 V
theorem U2_v1 : U2 V (Proc.devRef .tc main_v1) = ROW V := (c2_keep_v1 (U1 V)).trans (U1_v1 V)
theorem U2_v3 : U2 V (Proc.devRef .tc main_v3) = COL V := (c2_keep_v3 (U1 V)).trans (U1_v3 V)
theorem U2_v8 : U2 V (Proc.devRef .tc main_v8) = H0 V := (c2_keep_v8 (U1 V)).trans (U1_v8 V)
theorem U2_v15 : U2 V (Proc.devRef .tc main_v15) = DEG V := by
  refine (c2_v15 (U1 V)).trans ?_
  rw [U1_v1]
  rfl
theorem U3_v1 : U3 V (Proc.devRef .tc main_v1) = ROW V := (c3_keep_v1 (U2 V)).trans (U2_v1 V)
theorem U3_v3 : U3 V (Proc.devRef .tc main_v3) = COL V := (c3_keep_v3 (U2 V)).trans (U2_v3 V)
theorem U3_v8 : U3 V (Proc.devRef .tc main_v8) = H0 V := (c3_keep_v8 (U2 V)).trans (U2_v8 V)
theorem U3_v15 : U3 V (Proc.devRef .tc main_v15) = DEG V := (c3_keep_v15 (U2 V)).trans (U2_v15 V)
theorem U3_v27 : U3 V (Proc.devRef .tc main_v27) = Cert.RChain.agg (H0 V) (V (Proc.devRef .tc main_arg1)) := by
  refine (c3_v27 (U2 V)).trans ?_
  rw [U2_v8, U2_v3, U2_v1, U2_v15]
  rfl
theorem U4_v1 : U4 V (Proc.devRef .tc main_v1) = ROW V := (c4_keep_v1 (U3 V)).trans (U3_v1 V)
theorem U4_v3 : U4 V (Proc.devRef .tc main_v3) = COL V := (c4_keep_v3 (U3 V)).trans (U3_v3 V)
theorem U4_v15 : U4 V (Proc.devRef .tc main_v15) = DEG V := (c4_keep_v15 (U3 V)).trans (U3_v15 V)
theorem U4_v37 : U4 V (Proc.devRef .tc main_v37) = H1 V := by
  refine (c4_v37 (U3 V)).trans ?_
  rw [U3_v8, U3_v27, U3_arg4, U3_arg5]
theorem U5_v1 : U5 V (Proc.devRef .tc main_v1) = ROW V := (c5_keep_v1 (U4 V)).trans (U4_v1 V)
theorem U5_v3 : U5 V (Proc.devRef .tc main_v3) = COL V := (c5_keep_v3 (U4 V)).trans (U4_v3 V)
theorem U5_v37 : U5 V (Proc.devRef .tc main_v37) = H1 V := (c5_keep_v37 (U4 V)).trans (U4_v37 V)
theorem U5_v49 : U5 V (Proc.devRef .tc main_v49) = Cert.RChain.agg (H1 V) (V (Proc.devRef .tc main_arg1)) := by
  refine (c5_v49 (U4 V)).trans ?_
  rw [U4_v37, U4_v3, U4_v1, U4_v15]
  rfl
theorem U6_v1 : U6 V (Proc.devRef .tc main_v1) = ROW V := (c6_keep_v1 (U5 V)).trans (U5_v1 V)
theorem U6_v3 : U6 V (Proc.devRef .tc main_v3) = COL V := (c6_keep_v3 (U5 V)).trans (U5_v3 V)
theorem U6_v59 : U6 V (Proc.devRef .tc main_v59) = H2 V := by
  refine (c6_v59 (U5 V)).trans ?_
  rw [U5_v37, U5_v49, U5_arg4, U5_arg5]
theorem U7_v66 : U7 V (Proc.devRef .tc main_v66) = Cert.RChain.gat (H2 V) (ROW V) := by
  refine (c7_v66 (U6 V)).trans ?_
  rw [U6_v59, U6_v1]
theorem U7_v73 : U7 V (Proc.devRef .tc main_v73) = Cert.RChain.gat (H2 V) (COL V) := by
  refine (c7_v73 (U6 V)).trans ?_
  rw [U6_v59, U6_v3]

/-- The result buffer after all eight chunks is `Cert.RChain.val` of the argument arrays. -/
theorem U8_v84 : U8 V (Proc.devRef .tc main_v84)
    = Cert.RChain.val (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  refine (c8_v84 (U7 V)).trans ?_
  rw [U7_v66, U7_v73, U7_arg6, U7_arg7, U7_arg8, U7_arg9]
  rfl

/-- The fold of the whole list is the fold of the chunks in order. -/
theorem after_ops : StableHlo.after (ops (F := F)) V = U8 V := by
  rw [ops_eq]
  simp only [StableHlo.after_append]

end Fold

/-- The second program's run with its result: every weakly fair execution terminates with the result buffer at
    `Cert.RChain.val` of the launched argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = Cert.RChain.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v84).trans ((congrFun (after_ops _) _).trans (U8_v84 _)),
     (h c main_arg0).trans ((congrFun (after_ops _) _).trans (U8_arg0 _)),
     (h c main_arg1).trans ((congrFun (after_ops _) _).trans (U8_arg1 _)),
     (h c main_arg2).trans ((congrFun (after_ops _) _).trans (U8_arg2 _)),
     (h c main_arg3).trans ((congrFun (after_ops _) _).trans (U8_arg3 _)),
     (h c main_arg4).trans ((congrFun (after_ops _) _).trans (U8_arg4 _)),
     (h c main_arg5).trans ((congrFun (after_ops _) _).trans (U8_arg5 _)),
     (h c main_arg6).trans ((congrFun (after_ops _) _).trans (U8_arg6 _)),
     (h c main_arg7).trans ((congrFun (after_ops _) _).trans (U8_arg7 _)),
     (h c main_arg8).trans ((congrFun (after_ops _) _).trans (U8_arg8 _)),
     (h c main_arg9).trans ((congrFun (after_ops _) _).trans (U8_arg9 _))⟩)
    (run_all m ρ)

end Cert.ReferenceIdeal.RefValue

end
-- ==== Proof.BridgeDense.lean ====
/-
  The dense stages agree.  The first program computes a layer from the two row halves of the weight matrix,
  Σ_{k<32} h[r,k]·W[k,q] + Σ_{k<32} a[r,k]·W[32+k,q]; the second from the concatenated features [h, a] and the
  whole matrix, Σ_{k<64} [h,a][r,k]·W[k,q].  A sum over 64 terms splits into its first and last 32, which uses only
  that addition of extended reals is commutative and associative; the biases reach row `r` through reshapes and
  broadcasts that read the same entry, and the rectifier is the same maximum with zero.
-/
import proofs.«405452_j73366631350578_1_alg».proof.Proof.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal (S100000x2 S2x2500000 S2x32 S32 S2x64x32 S64x32 S32x1 S1 S100000x32 S2500000x32 S2500000)

/-! # Reads at an index

Each matrix product of the second program, read at row r and column q, is the plain sum over the contracted column;
a two-piece concatenation along the columns reads its first piece at a column below 32 and its second piece 32 columns
further on; a sum over 64 terms is the sum of its first 32 and its last 32 terms; a bias vector broadcast to a one-row
matrix and then over all rows reads the vector at the column; the broadcast zero constant reads zero; a reshaped slice
of the stacked weights reads the stacked array at the layer, the shifted row and the column. -/

section Reads

open Cert.ReferenceIdeal (S100000x64 S2500000x64 S1x32 S_ S2500000x1 S1x1 S1x64x32
  dot_S100000x2_S2x32_S100000x32_1_0_0_1_n_n dot_S100000x64_S64x32_S100000x32_1_0_0_1_n_n
  dot_S2500000x64_S64x32_S2500000x32_1_0_0_1_n_n dot_S2500000x32_S32x1_S2500000x1_1_0_0_1_n_n)
open Cert.ReferenceIdeal.Facts₀

/-! ## The product of a 100000x2 by a 2x32 matrix -/

theorem lhsA_0 (i : S100000x32.Idx) (q : dot_S100000x2_S2x32_S100000x32_1_0_0_1_n_n.contr.Idx) :
    (dot_S100000x2_S2x32_S100000x32_1_0_0_1_n_n.lhsIdx i q 0).val = (i 0).val := by
  unfold DotDims.lhsIdx
  rw [dif_neg (show ¬(0 : Fin S100000x2.rank) ∈ dot_S100000x2_S2x32_S100000x32_1_0_0_1_n_n.lhsBatch by decide), dif_pos (show (0 : Fin S100000x2.rank) ∈ dot_S100000x2_S2x32_S100000x32_1_0_0_1_n_n.lhsNonContracting by decide)]
  rfl
theorem lhsA_1 (i : S100000x32.Idx) (q : dot_S100000x2_S2x32_S100000x32_1_0_0_1_n_n.contr.Idx) :
    (dot_S100000x2_S2x32_S100000x32_1_0_0_1_n_n.lhsIdx i q 1).val = (q ⟨0, by decide⟩).val :=
  dot_S100000x2_S2x32_S100000x32_1_0_0_1_n_n.lhsIdx_val_of_single rfl i q
theorem rhsA_0 (i : S100000x32.Idx) (q : dot_S100000x2_S2x32_S100000x32_1_0_0_1_n_n.contr.Idx) :
    (dot_S100000x2_S2x32_S100000x32_1_0_0_1_n_n.rhsIdx i q 0).val = (q ⟨0, by decide⟩).val :=
  dot_S100000x2_S2x32_S100000x32_1_0_0_1_n_n.rhsIdx_val_of_single rfl i q
theorem rhsA_1 (i : S100000x32.Idx) (q : dot_S100000x2_S2x32_S100000x32_1_0_0_1_n_n.contr.Idx) :
    (dot_S100000x2_S2x32_S100000x32_1_0_0_1_n_n.rhsIdx i q 1).val = (i 1).val := by
  unfold DotDims.rhsIdx
  rw [dif_neg (show ¬(1 : Fin S2x32.rank) ∈ dot_S100000x2_S2x32_S100000x32_1_0_0_1_n_n.rhsBatch by decide), dif_pos (show (1 : Fin S2x32.rank) ∈ dot_S100000x2_S2x32_S100000x32_1_0_0_1_n_n.rhsNonContracting by decide)]
  rfl

/-- Entry (r, q) of the product is the sum over the two columns of the left factor. -/
theorem dotA_apply (y0 : FVec Ideal S100000x2 .f32) (y1 : FVec Ideal S2x32 .f32) (r : Fin 100000) (q : Fin 32) :
    Host.dotGeneral dot_S100000x2_S2x32_S100000x32_1_0_0_1_n_n none y0 y1 (ix2 r q)
      = ∑ k : Fin 2, y0 (ix2 r k) * y1 (ix2 k q) := by
  simp only [Host.dotGeneral]
  rw [Ideal.dotGeneral_apply, ← Equiv.sum_comp (contrEquiv1 dot_S100000x2_S2x32_S100000x32_1_0_0_1_n_n 2 rfl rfl).symm]
  refine Finset.sum_congr rfl fun k _ => ?_
  have hk := contrEquiv1_symm_val dot_S100000x2_S2x32_S100000x32_1_0_0_1_n_n 2 rfl rfl k
  have el : dot_S100000x2_S2x32_S100000x32_1_0_0_1_n_n.lhsIdx (ix2 r q) ((contrEquiv1 dot_S100000x2_S2x32_S100000x32_1_0_0_1_n_n 2 rfl rfl).symm k) = ix2 r k := funext fun a => Fin.ext (by
    match a with
    | ⟨0, _⟩ => exact lhsA_0 _ _
    | ⟨1, _⟩ => exact (lhsA_1 _ _).trans hk)
  have er : dot_S100000x2_S2x32_S100000x32_1_0_0_1_n_n.rhsIdx (ix2 r q) ((contrEquiv1 dot_S100000x2_S2x32_S100000x32_1_0_0_1_n_n 2 rfl rfl).symm k) = ix2 k q := funext fun a => Fin.ext (by
    match a with
    | ⟨0, _⟩ => exact (rhsA_0 _ _).trans hk
    | ⟨1, _⟩ => exact rhsA_1 _ _)
  rw [el, er]

/-! ## The product of a 100000x64 by a 64x32 matrix -/

theorem lhsB_0 (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhsB_1 (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q
theorem rhsB_0 (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q
theorem rhsB_1 (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- Entry (r, q) of the product is the sum over the 64 columns of the left factor. -/
theorem dotB_apply (y0 : FVec Ideal S100000x64 .f32) (y1 : FVec Ideal S64x32 .f32) (r : Fin 100000) (q : Fin 32) :
    Host.dotGeneral dot_S100000x64_S64x32_S100000x32_1_0_0_1_n_n none y0 y1 (ix2 r q)
      = ∑ k : Fin 64, y0 (ix2 r k) * y1 (ix2 k q) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 r q) ((contrEquiv1 dot_S100000x64_S64x32_S100000x32_1_0_0_1_n_n 64 rfl rfl).symm k) = ix2 r k := funext fun a => Fin.ext (by
    match a with
    | ⟨0, _⟩ => exact lhsB_0 _ _
    | ⟨1, _⟩ => exact (lhsB_1 _ _).trans hk)
  have er : dot_S100000x64_S64x32_S100000x32_1_0_0_1_n_n.rhsIdx (ix2 r q) ((contrEquiv1 dot_S100000x64_S64x32_S100000x32_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The product of a 2500000x64 by a 64x32 matrix -/

theorem lhsC_0 (i : S2500000x32.Idx) (q : dot_S2500000x64_S64x32_S2500000x32_1_0_0_1_n_n.contr.Idx) :
    (dot_S2500000x64_S64x32_S2500000x32_1_0_0_1_n_n.lhsIdx i q 0).val = (i 0).val := by
  unfold DotDims.lhsIdx
  rw [dif_neg (show ¬(0 : Fin S2500000x64.rank) ∈ dot_S2500000x64_S64x32_S2500000x32_1_0_0_1_n_n.lhsBatch by decide), dif_pos (show (0 : Fin S2500000x64.rank) ∈ dot_S2500000x64_S64x32_S2500000x32_1_0_0_1_n_n.lhsNonContracting by decide)]
  rfl
theorem lhsC_1 (i : S2500000x32.Idx) (q : dot_S2500000x64_S64x32_S2500000x32_1_0_0_1_n_n.contr.Idx) :
    (dot_S2500000x64_S64x32_S2500000x32_1_0_0_1_n_n.lhsIdx i q 1).val = (q ⟨0, by decide⟩).val :=
  dot_S2500000x64_S64x32_S2500000x32_1_0_0_1_n_n.lhsIdx_val_of_single rfl i q
theorem rhsC_0 (i : S2500000x32.Idx) (q : dot_S2500000x64_S64x32_S2500000x32_1_0_0_1_n_n.contr.Idx) :
    (dot_S2500000x64_S64x32_S2500000x32_1_0_0_1_n_n.rhsIdx i q 0).val = (q ⟨0, by decide⟩).val :=
  dot_S2500000x64_S64x32_S2500000x32_1_0_0_1_n_n.rhsIdx_val_of_single rfl i q
theorem rhsC_1 (i : S2500000x32.Idx) (q : dot_S2500000x64_S64x32_S2500000x32_1_0_0_1_n_n.contr.Idx) :
    (dot_S2500000x64_S64x32_S2500000x32_1_0_0_1_n_n.rhsIdx i q 1).val = (i 1).val := by
  unfold DotDims.rhsIdx
  rw [dif_neg (show ¬(1 : Fin S64x32.rank) ∈ dot_S2500000x64_S64x32_S2500000x32_1_0_0_1_n_n.rhsBatch by decide), dif_pos (show (1 : Fin S64x32.rank) ∈ dot_S2500000x64_S64x32_S2500000x32_1_0_0_1_n_n.rhsNonContracting by decide)]
  rfl

/-- Entry (r, q) of the product is the sum over the 64 columns of the left factor. -/
theorem dotC_apply (y0 : FVec Ideal S2500000x64 .f32) (y1 : FVec Ideal S64x32 .f32) (r : Fin 2500000) (q : Fin 32) :
    Host.dotGeneral dot_S2500000x64_S64x32_S2500000x32_1_0_0_1_n_n none y0 y1 (ix2 r q)
      = ∑ k : Fin 64, y0 (ix2 r k) * y1 (ix2 k q) := by
  simp only [Host.dotGeneral]
  rw [Ideal.dotGeneral_apply, ← Equiv.sum_comp (contrEquiv1 dot_S2500000x64_S64x32_S2500000x32_1_0_0_1_n_n 64 rfl rfl).symm]
  refine Finset.sum_congr rfl fun k _ => ?_
  have hk := contrEquiv1_symm_val dot_S2500000x64_S64x32_S2500000x32_1_0_0_1_n_n 64 rfl rfl k
  have el : dot_S2500000x64_S64x32_S2500000x32_1_0_0_1_n_n.lhsIdx (ix2 r q) ((contrEquiv1 dot_S2500000x64_S64x32_S2500000x32_1_0_0_1_n_n 64 rfl rfl).symm k) = ix2 r k := funext fun a => Fin.ext (by
    match a with
    | ⟨0, _⟩ => exact lhsC_0 _ _
    | ⟨1, _⟩ => exact (lhsC_1 _ _).trans hk)
  have er : dot_S2500000x64_S64x32_S2500000x32_1_0_0_1_n_n.rhsIdx (ix2 r q) ((contrEquiv1 dot_S2500000x64_S64x32_S2500000x32_1_0_0_1_n_n 64 rfl rfl).symm k) = ix2 k q := funext fun a => Fin.ext (by
    match a with
    | ⟨0, _⟩ => exact (rhsC_0 _ _).trans hk
    | ⟨1, _⟩ => exact rhsC_1 _ _)
  rw [el, er]

/-! ## The product of a 2500000x32 by a 32x1 matrix -/

theorem lhsD_0 (i : S2500000x1.Idx) (q : dot_S2500000x32_S32x1_S2500000x1_1_0_0_1_n_n.contr.Idx) :
    (dot_S2500000x32_S32x1_S2500000x1_1_0_0_1_n_n.lhsIdx i q 0).val = (i 0).val := by
  unfold DotDims.lhsIdx
  rw [dif_neg (show ¬(0 : Fin S2500000x32.rank) ∈ dot_S2500000x32_S32x1_S2500000x1_1_0_0_1_n_n.lhsBatch by decide), dif_pos (show (0 : Fin S2500000x32.rank) ∈ dot_S2500000x32_S32x1_S2500000x1_1_0_0_1_n_n.lhsNonContracting by decide)]
  rfl
theorem lhsD_1 (i : S2500000x1.Idx) (q : dot_S2500000x32_S32x1_S2500000x1_1_0_0_1_n_n.contr.Idx) :
    (dot_S2500000x32_S32x1_S2500000x1_1_0_0_1_n_n.lhsIdx i q 1).val = (q ⟨0, by decide⟩).val :=
  dot_S2500000x32_S32x1_S2500000x1_1_0_0_1_n_n.lhsIdx_val_of_single rfl i q
theorem rhsD_0 (i : S2500000x1.Idx) (q : dot_S2500000x32_S32x1_S2500000x1_1_0_0_1_n_n.contr.Idx) :
    (dot_S2500000x32_S32x1_S2500000x1_1_0_0_1_n_n.rhsIdx i q 0).val = (q ⟨0, by decide⟩).val :=
  dot_S2500000x32_S32x1_S2500000x1_1_0_0_1_n_n.rhsIdx_val_of_single rfl i q
theorem rhsD_1 (i : S2500000x1.Idx) (q : dot_S2500000x32_S32x1_S2500000x1_1_0_0_1_n_n.contr.Idx) :
    (dot_S2500000x32_S32x1_S2500000x1_1_0_0_1_n_n.rhsIdx i q 1).val = (i 1).val := by
  unfold DotDims.rhsIdx
  rw [dif_neg (show ¬(1 : Fin S32x1.rank) ∈ dot_S2500000x32_S32x1_S2500000x1_1_0_0_1_n_n.rhsBatch by decide), dif_pos (show (1 : Fin S32x1.rank) ∈ dot_S2500000x32_S32x1_S2500000x1_1_0_0_1_n_n.rhsNonContracting by decide)]
  rfl

/-- Entry (r, q) of the product is the sum over the 32 columns of the left factor. -/
theorem dotD_apply (y0 : FVec Ideal S2500000x32 .f32) (y1 : FVec Ideal S32x1 .f32) (r : Fin 2500000) (q : Fin 1) :
    Host.dotGeneral dot_S2500000x32_S32x1_S2500000x1_1_0_0_1_n_n none y0 y1 (ix2 r q)
      = ∑ k : Fin 32, y0 (ix2 r k) * y1 (ix2 k q) := by
  simp only [Host.dotGeneral]
  rw [Ideal.dotGeneral_apply, ← Equiv.sum_comp (contrEquiv1 dot_S2500000x32_S32x1_S2500000x1_1_0_0_1_n_n 32 rfl rfl).symm]
  refine Finset.sum_congr rfl fun k _ => ?_
  have hk := contrEquiv1_symm_val dot_S2500000x32_S32x1_S2500000x1_1_0_0_1_n_n 32 rfl rfl k
  have el : dot_S2500000x32_S32x1_S2500000x1_1_0_0_1_n_n.lhsIdx (ix2 r q) ((contrEquiv1 dot_S2500000x32_S32x1_S2500000x1_1_0_0_1_n_n 32 rfl rfl).symm k) = ix2 r k := funext fun a => Fin.ext (by
    match a with
    | ⟨0, _⟩ => exact lhsD_0 _ _
    | ⟨1, _⟩ => exact (lhsD_1 _ _).trans hk)
  have er : dot_S2500000x32_S32x1_S2500000x1_1_0_0_1_n_n.rhsIdx (ix2 r q) ((contrEquiv1 dot_S2500000x32_S32x1_S2500000x1_1_0_0_1_n_n 32 rfl rfl).symm k) = ix2 k q := funext fun a => Fin.ext (by
    match a with
    | ⟨0, _⟩ => exact (rhsD_0 _ _).trans hk
    | ⟨1, _⟩ => exact rhsD_1 _ _)
  rw [el, er]

/-! ## A sum over 64 terms, and the layer's arithmetic -/

/-- A sum over 64 terms is the sum of the first 32 plus the sum of the last 32. -/
theorem sum64_split (f : Fin 64 → EReal) :
    ∑ k : Fin 64, f k
      = (∑ k : Fin 32, f ⟨k.val, by have := k.isLt; omega⟩) + ∑ k : Fin 32, f ⟨32 + k.val, by have := k.isLt; omega⟩ :=
  Fin.sum_univ_add (a := 32) (b := 32) f

/-- The layer's value from the two half products is its value from the one product over 64 columns, when the 64
    left factors are the 32 of `h` followed by the 32 of `a`, and the right factors likewise. -/
theorem dense_core (c w : Fin 64 → EReal) (h a wh wa : Fin 32 → EReal) (b b' : EReal)
    (h1 : ∀ k : Fin 32, c ⟨k.val, by have := k.isLt; omega⟩ = h k)
    (h2 : ∀ k : Fin 32, c ⟨32 + k.val, by have := k.isLt; omega⟩ = a k)
    (h3 : ∀ k : Fin 32, w ⟨k.val, by have := k.isLt; omega⟩ = wh k)
    (h4 : ∀ k : Fin 32, w ⟨32 + k.val, by have := k.isLt; omega⟩ = wa k) (hb : b = b') :
    max (((∑ k : Fin 32, h k * wh k) + (∑ k : Fin 32, a k * wa k)) + b) 0 = max ((∑ k : Fin 64, c k * w k) + b') 0 := by
  rw [sum64_split (fun k => c k * w k), hb]
  simp only [h1, h2, h3, h4]

/-! ## The concatenation of two 32-column arrays along the columns -/

theorem catN_left (h a : FVec Ideal S100000x32 .f32) (r : Fin 100000) (k : Fin 64) (k' : Fin 32) (hk : k.val = k'.val) :
    concatenate S100000x64 1 [⟨S100000x32, h⟩, ⟨S100000x32, a⟩] concatenates_S100000x32_S100000x32_S100000x64_d1 (ix2 r k)
      = h (ix2 r k') :=
  concatenate_pair_apply_left (t := S100000x64) (s₁ := S100000x32) (s₂ := S100000x32) 1 h a
    concatenates_S100000x32_S100000x32_S100000x64_d1 (ix2 r k) rfl (ix2 r k') (fun b => by
    match b with
    | ⟨0, _⟩ => rfl
    | ⟨1, _⟩ => exact hk.symm)

theorem catN_right (h a : FVec Ideal S100000x32 .f32) (r : Fin 100000) (k : Fin 64) (k' : Fin 32) (hk : k'.val + 32 = k.val) :
    concatenate S100000x64 1 [⟨S100000x32, h⟩, ⟨S100000x32, a⟩] concatenates_S100000x32_S100000x32_S100000x64_d1 (ix2 r k)
      = a (ix2 r k') :=
  concatenate_pair_apply_right (t := S100000x64) (s₁ := S100000x32) (s₂ := S100000x32) 1 h a
    concatenates_S100000x32_S100000x32_S100000x64_d1 (ix2 r k) rfl rfl (ix2 r k')
    (fun b hb => by
      match b with
      | ⟨0, _⟩ => rfl
      | ⟨1, _⟩ => exact absurd rfl hb)
    hk

theorem catE_left (h a : FVec Ideal S2500000x32 .f32) (r : Fin 2500000) (k : Fin 64) (k' : Fin 32) (hk : k.val = k'.val) :
    concatenate S2500000x64 1 [⟨S2500000x32, h⟩, ⟨S2500000x32, a⟩] concatenates_S2500000x32_S2500000x32_S2500000x64_d1 (ix2 r k)
      = h (ix2 r k') :=
  concatenate_pair_apply_left (t := S2500000x64) (s₁ := S2500000x32) (s₂ := S2500000x32) 1 h a
    concatenates_S2500000x32_S2500000x32_S2500000x64_d1 (ix2 r k) rfl (ix2 r k') (fun b => by
    match b with
    | ⟨0, _⟩ => rfl
    | ⟨1, _⟩ => exact hk.symm)

theorem catE_right (h a : FVec Ideal S2500000x32 .f32) (r : Fin 2500000) (k : Fin 64) (k' : Fin 32) (hk : k'.val + 32 = k.val) :
    concatenate S2500000x64 1 [⟨S2500000x32, h⟩, ⟨S2500000x32, a⟩] concatenates_S2500000x32_S2500000x32_S2500000x64_d1 (ix2 r k)
      = a (ix2 r k') :=
  concatenate_pair_apply_right (t := S2500000x64) (s₁ := S2500000x32) (s₂ := S2500000x32) 1 h a
    concatenates_S2500000x32_S2500000x32_S2500000x64_d1 (ix2 r k) rfl rfl (ix2 r k')
    (fun b hb => by
      match b with
      | ⟨0, _⟩ => rfl
      | ⟨1, _⟩ => exact absurd rfl hb)
    hk

/-! ## Bias broadcasts and the zero constant -/

theorem biasN_read (b : FVec Ideal S32 .f32) (r : Fin 100000) (q : Fin 32) :
    broadcastInDim S100000x32 ![0, 1] bcast_S1x32_S100000x32_0_1 (broadcastInDim S1x32 ![1] bcast_S32_S1x32_1 b) (ix2 r q)
      = b (ix1 q) :=
  (broadcastInDim_apply _ bcast_S1x32_S100000x32_0_1 _ (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])).trans
  (broadcastInDim_apply _ bcast_S32_S1x32_1 b (ix2 (0 : Fin 1) q) (ix1 q) (fun a => match a with
    | ⟨0, _⟩ => by show q.val = if (32 : Nat) = 1 then 0 else q.val; rw [if_neg (by decide)]))

theorem biasE_read (b : FVec Ideal S32 .f32) (r : Fin 2500000) (q : Fin 32) :
    broadcastInDim S2500000x32 ![0, 1] bcast_S1x32_S2500000x32_0_1 (broadcastInDim S1x32 ![1] bcast_S32_S1x32_1 b) (ix2 r q)
      = b (ix1 q) :=
  (broadcastInDim_apply _ bcast_S1x32_S2500000x32_0_1 _ (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])).trans
  (broadcastInDim_apply _ bcast_S32_S1x32_1 b (ix2 (0 : Fin 1) q) (ix1 q) (fun a => match a with
    | ⟨0, _⟩ => by show q.val = if (32 : Nat) = 1 then 0 else q.val; rw [if_neg (by decide)]))

theorem biasO_read (b : FVec Ideal S1 .f32) (r : Fin 2500000) (q : Fin 1) :
    broadcastInDim S2500000x1 ![0, 1] bcast_S1x1_S2500000x1_0_1 (broadcastInDim S1x1 ![1] bcast_S1_S1x1_1 b) (ix2 r q)
      = b (ix1 q) :=
  (broadcastInDim_apply _ bcast_S1x1_S2500000x1_0_1 _ (ix2 r q) (ix2 (0 : Fin 1) q) (fun a => match a with
    | ⟨0, _⟩ => by show 0 = if (1 : Nat) = 1 then 0 else r.val; rw [if_pos rfl]
    | ⟨1, _⟩ => by show q.val = if (1 : Nat) = 1 then 0 else q.val; rw [if_pos rfl]; have := q.isLt; omega)).trans
  (broadcastInDim_apply _ bcast_S1_S1x1_1 b (ix2 (0 : Fin 1) q) (ix1 q) (fun a => match a with
    | ⟨0, _⟩ => by show q.val = if (1 : Nat) = 1 then 0 else q.val; rw [if_pos rfl]; have := q.isLt; omega))

theorem zeroN_read (r : Fin 100000) (q : Fin 32) :
    broadcastInDim S100000x32 ![] bcast_S_S100000x32 (constant (F := Ideal) S_ .f32 0x00000000#32) (ix2 r q) = (0 : EReal) :=
  (broadcastInDim_apply _ bcast_S_S100000x32 _ (ix2 r q) ix0 (fun a => a.elim0)).trans
    ((constant_apply _ _).trans Ideal.ofBits_zero_f32)

theorem zeroE_read (r : Fin 2500000) (q : Fin 32) :
    broadcastInDim S2500000x32 ![] bcast_S_S2500000x32 (constant (F := Ideal) S_ .f32 0x00000000#32) (ix2 r q) = (0 : EReal) :=
  (broadcastInDim_apply _ bcast_S_S2500000x32 _ (ix2 r q) ix0 (fun a => a.elim0)).trans
    ((constant_apply _ _).trans Ideal.ofBits_zero_f32)

/-! ## Slices of the stacked weights and biases -/

/-- Thirty-two rows of layer `l` of the stacked weights, from row `o`, as a 32x32 matrix. -/
theorem wHalf_read (W : FVec Ideal S2x64x32 .f32) (l o : Nat) (hs : S2x64x32.Slices ![l, o, 0] ⟨3, ![1, 32, 32]⟩)
    (hc : (⟨3, ![1, 32, 32]⟩ : Shape).ShapeCasts ⟨2, ![32, 32]⟩) (k q : Fin 32) (hl : l < 2) (k64 : Fin 64)
    (hk : k64.val = o + k.val) :
    shapeCast ⟨2, ![32, 32]⟩ (extractStridedSlice ⟨3, ![1, 32, 32]⟩ ![l, o, 0] W hs) hc (ix2 k q)
      = W (ix3 (⟨l, hl⟩ : Fin 2) k64 q) :=
  (shapeCast_1ab_ab_apply _ hc k q).trans (extractStridedSlice_apply ![l, o, 0] W hs _ _ (fun a => by
    match a with
    | ⟨0, _⟩ => rfl
    | ⟨1, _⟩ => exact hk
    | ⟨2, _⟩ => exact (Nat.zero_add _).symm))

/-- All 64 rows of layer `l` of the stacked weights as a 64x32 matrix. -/
theorem wWhole_read (W : FVec Ideal S2x64x32 .f32) (l : Nat) (hs : S2x64x32.Slices ![l, 0, 0] S1x64x32)
    (hc : S1x64x32.ShapeCasts S64x32) (k : Fin 64) (q : Fin 32) (hl : l < 2) :
    shapeCast S64x32 (extractStridedSlice S1x64x32 ![l, 0, 0] W hs) hc (ix2 k q) = W (ix3 (⟨l, hl⟩ : Fin 2) k q) :=
  (shapeCast_1ab_ab_apply _ hc k q).trans (extractStridedSlice_apply ![l, 0, 0] W hs _ _ (fun a => by
    match a with
    | ⟨0, _⟩ => rfl
    | ⟨1, _⟩ => exact (Nat.zero_add _).symm
    | ⟨2, _⟩ => exact (Nat.zero_add _).symm))

/-- Row `l` of the stacked biases as a vector. -/
theorem bRow_read (b : FVec Ideal S2x32 .f32) (l : Nat) (hs : S2x32.Slices ![l, 0] S1x32) (hc : S1x32.ShapeCasts S32)
    (q : Fin 32) (hl : l < 2) :
    shapeCast S32 (extractStridedSlice S1x32 ![l, 0] b hs) hc (ix1 q) = b (ix2 (⟨l, hl⟩ : Fin 2) q) :=
  (shapeCast_1a_a_apply _ hc q).trans (extractStridedSlice_apply ![l, 0] b hs _ _ (fun a => by
    match a with
    | ⟨0, _⟩ => rfl
    | ⟨1, _⟩ => exact (Nat.zero_add _).symm))

/-! ## The second program's stages at an index -/

theorem h0_read (x : FVec Ideal S100000x2 .f32) (Win : FVec Ideal S2x32 .f32) (bin : FVec Ideal S32 .f32)
    (r : Fin 100000) (q : Fin 32) :
    Cert.RChain.h0 x Win bin (ix2 r q) = max ((∑ k : Fin 2, x (ix2 r k) * Win (ix2 k q)) + bin (ix1 q)) 0 := by
  unfold Cert.RChain.h0 Cert.RChain.relu32
  rw [maximumf_apply, addf_apply, dotA_apply, biasN_read, zeroN_read]

theorem layer_read (h a : FVec Ideal S100000x32 .f32) (W : FVec Ideal S64x32 .f32) (b : FVec Ideal S32 .f32)
    (r : Fin 100000) (q : Fin 32) :
    Cert.RChain.layer h a W b (ix2 r q)
      = max ((∑ k : Fin 64, concatenate S100000x64 1 [⟨S100000x32, h⟩, ⟨S100000x32, a⟩]
          concatenates_S100000x32_S100000x32_S100000x64_d1 (ix2 r k) * W (ix2 k q)) + b (ix1 q)) 0 := by
  unfold Cert.RChain.layer Cert.RChain.relu32
  rw [maximumf_apply, addf_apply, dotB_apply, biasN_read, zeroN_read]

/-- The edge network's hidden layer at an index. -/
theorem hidden_read (hr hc : FVec Ideal S2500000x32 .f32) (We1 : FVec Ideal S64x32 .f32) (be1 : FVec Ideal S32 .f32)
    (r : Fin 2500000) (j : Fin 32) :
    maximumf (addf (Host.dotGeneral dot_S2500000x64_S64x32_S2500000x32_1_0_0_1_n_n none
          (concatenate S2500000x64 1 [⟨S2500000x32, hr⟩, ⟨S2500000x32, hc⟩] concatenates_S2500000x32_S2500000x32_S2500000x64_d1) We1)
        (broadcastInDim S2500000x32 ![0, 1] bcast_S1x32_S2500000x32_0_1 (broadcastInDim S1x32 ![1] bcast_S32_S1x32_1 be1)))
      (broadcastInDim S2500000x32 ![] bcast_S_S2500000x32 (constant (F := Ideal) S_ .f32 0x00000000#32)) (ix2 r j)
      = max ((∑ k : Fin 64, concatenate S2500000x64 1 [⟨S2500000x32, hr⟩, ⟨S2500000x32, hc⟩]
          concatenates_S2500000x32_S2500000x32_S2500000x64_d1 (ix2 r k) * We1 (ix2 k j)) + be1 (ix1 j)) 0 := by
  rw [maximumf_apply, addf_apply, dotC_apply, biasE_read, zeroE_read]

/-- The edge network's output layer at an index, over any hidden array. -/
theorem outer_read (H : FVec Ideal S2500000x32 .f32) (We2 : FVec Ideal S32x1 .f32) (be2 : FVec Ideal S1 .f32)
    (r : Fin 2500000) (q : Fin 1) :
    addf (Host.dotGeneral dot_S2500000x32_S32x1_S2500000x1_1_0_0_1_n_n none H We2)
        (broadcastInDim S2500000x1 ![0, 1] bcast_S1x1_S2500000x1_0_1 (broadcastInDim S1x1 ![1] bcast_S1_S1x1_1 be2)) (ix2 r q)
      = (∑ j : Fin 32, H (ix2 r j) * We2 (ix2 j q)) + be2 (ix1 q) := by
  rw [addf_apply, dotD_apply, biasO_read]

/-! ## One layer, over any weights that read alike -/

/-- A layer from two 32x32 matrices and a one-row bias is the layer from a 64x32 matrix and a bias vector, when the
    two matrices are the upper and lower 32 rows of the one and the biases read alike. -/
theorem layer_gen (h a : FVec Ideal S100000x32 .f32) (Wh Wa : FVec Ideal ⟨2, ![32, 32]⟩ .f32) (bK : FVec Ideal S1x32 .f32)
    (W : FVec Ideal S64x32 .f32) (bR : FVec Ideal S32 .f32)
    (hWh : ∀ k q : Fin 32, Wh (ix2 k q) = W (ix2 (⟨k.val, by have := k.isLt; omega⟩ : Fin 64) q))
    (hWa : ∀ k q : Fin 32, Wa (ix2 k q) = W (ix2 (⟨32 + k.val, by have := k.isLt; omega⟩ : Fin 64) q))
    (hb : ∀ q : Fin 32, bK (ix2 0 q) = bR (ix1 q)) :
    (Cert.Spec.upd h a Wh Wa bK : FVec Ideal S100000x32 .f32) = Cert.RChain.layer h a W bR := by
  funext i
  obtain ⟨r, q, rfl⟩ : ∃ (r : Fin 100000) (q : Fin 32), i = ix2 r q := ⟨i 0, i 1, eq_ix2 i⟩
  rw [Cert.Spec.upd_ix2, layer_read]
  unfold Cert.Spec.updAt
  exact dense_core
    (fun k => concatenate S100000x64 1 [⟨S100000x32, h⟩, ⟨S100000x32, a⟩]
      concatenates_S100000x32_S100000x32_S100000x64_d1 (ix2 r k))
    (fun k => W (ix2 k q)) (fun k => h (ix2 r k)) (fun k => a (ix2 r k)) (fun k => Wh (ix2 k q)) (fun k => Wa (ix2 k q))
    (bK (ix2 0 q)) (bR (ix1 q))
    (fun k => catN_left h a r _ k rfl) (fun k => catN_right h a r _ k (Nat.add_comm _ _))
    (fun k => (hWh k q).symm) (fun k => (hWa k q).symm) (hb q)

/-- The same for the edge network's hidden layer, at one index. -/
theorem hidden_gen (hr hc : FVec Ideal S2500000x32 .f32) (Wa Wb : FVec Ideal ⟨2, ![32, 32]⟩ .f32) (bK : FVec Ideal S1x32 .f32)
    (W : FVec Ideal S64x32 .f32) (bR : FVec Ideal S32 .f32)
    (hWa : ∀ k q : Fin 32, Wa (ix2 k q) = W (ix2 (⟨k.val, by have := k.isLt; omega⟩ : Fin 64) q))
    (hWb : ∀ k q : Fin 32, Wb (ix2 k q) = W (ix2 (⟨32 + k.val, by have := k.isLt; omega⟩ : Fin 64) q))
    (hb : ∀ q : Fin 32, bK (ix2 0 q) = bR (ix1 q)) (r : Fin 2500000) (j : Fin 32) :
    Cert.Spec.updAt hr hc Wa Wb bK r j
      = max ((∑ k : Fin 64, concatenate S2500000x64 1 [⟨S2500000x32, hr⟩, ⟨S2500000x32, hc⟩]
          concatenates_S2500000x32_S2500000x32_S2500000x64_d1 (ix2 r k) * W (ix2 k j)) + bR (ix1 j)) 0 := by
  unfold Cert.Spec.updAt
  exact dense_core
    (fun k => concatenate S2500000x64 1 [⟨S2500000x32, hr⟩, ⟨S2500000x32, hc⟩]
      concatenates_S2500000x32_S2500000x32_S2500000x64_d1 (ix2 r k))
    (fun k => W (ix2 k j)) (fun k => hr (ix2 r k)) (fun k => hc (ix2 r k)) (fun k => Wa (ix2 k j)) (fun k => Wb (ix2 k j))
    (bK (ix2 0 j)) (bR (ix1 j))
    (fun k => catE_left hr hc r _ k rfl) (fun k => catE_right hr hc r _ k (Nat.add_comm _ _))
    (fun k => (hWa k j).symm) (fun k => (hWb k j).symm) (hb j)

/-- Flattening equal arrays gives equal vectors, whichever proofs of the size equation are used. -/
theorem flat_congr (X Y : FVec Ideal S2500000x1 .f32) (hX hY : S2500000x1.ShapeCasts S2500000) (e : X = Y) :
    shapeCast S2500000 X hX = shapeCast S2500000 Y hY := by
  subst e; rfl

end Reads

/-- The input projection: the index-wise rectified affine map with the bias as a one-row matrix is the printed
    `relu (x · W + broadcast b)`. -/
theorem h0_eq (x : FVec Ideal S100000x2 .f32) (Win : FVec Ideal S2x32 .f32) (bin : FVec Ideal S32 .f32) :
    Cert.KChain.h0 x Win bin = Cert.RChain.h0 x Win bin := by
  funext i
  obtain ⟨r, q, rfl⟩ : ∃ (r : Fin 100000) (q : Fin 32), i = ix2 r q := ⟨i 0, i 1, eq_ix2 i⟩
  unfold Cert.KChain.h0
  rw [Cert.Spec.lin_ix2, h0_read]
  unfold Cert.Spec.linAt
  rw [shapeCast_a_1a_apply]

/-- Layer 0: the two half products added are the product of the concatenated features with the whole matrix. -/
theorem layer0_eq (h a : FVec Ideal S100000x32 .f32) (Wu : FVec Ideal S2x64x32 .f32) (bu : FVec Ideal S2x32 .f32) :
    (Cert.Spec.upd h a (Cert.KChain.wh0 Wu) (Cert.KChain.wa0 Wu) (Cert.KChain.bu0 bu) : FVec Ideal S100000x32 .f32)
      = Cert.RChain.layer h a (Cert.RChain.w0 Wu) (Cert.RChain.b0 bu) := by
  refine layer_gen h a _ _ _ _ _ (fun k q => ?_) (fun k q => ?_) (fun q => ?_)
  · unfold Cert.KChain.wh0 Cert.RChain.w0
    exact (wHalf_read Wu 0 0 _ _ k q (by omega) ⟨k.val, by have := k.isLt; omega⟩ (Nat.zero_add _).symm).trans
      (wWhole_read Wu 0 _ _ ⟨k.val, by have := k.isLt; omega⟩ q (by omega)).symm
  · unfold Cert.KChain.wa0 Cert.RChain.w0
    exact (wHalf_read Wu 0 32 _ _ k q (by omega) ⟨32 + k.val, by have := k.isLt; omega⟩ rfl).trans
      (wWhole_read Wu 0 _ _ ⟨32 + k.val, by have := k.isLt; omega⟩ q (by omega)).symm
  · unfold Cert.KChain.bu0 Cert.RChain.b0
    exact shapeCast_a_1a_apply _ _ 0 q

/-- Layer 1: the same with the second slices of the weights and the bias. -/
theorem layer1_eq (h a : FVec Ideal S100000x32 .f32) (Wu : FVec Ideal S2x64x32 .f32) (bu : FVec Ideal S2x32 .f32) :
    (Cert.Spec.upd h a (Cert.KChain.wh1 Wu) (Cert.KChain.wa1 Wu) (Cert.KChain.bu1 bu) : FVec Ideal S100000x32 .f32)
      = Cert.RChain.layer h a (Cert.RChain.w1 Wu) (Cert.RChain.b1 bu) := by
  refine layer_gen h a _ _ _ _ _ (fun k q => ?_) (fun k q => ?_) (fun q => ?_)
  · unfold Cert.KChain.wh1 Cert.RChain.w1
    exact (wHalf_read Wu 1 0 _ _ k q (by omega) ⟨k.val, by have := k.isLt; omega⟩ (Nat.zero_add _).symm).trans
      (wWhole_read Wu 1 _ _ ⟨k.val, by have := k.isLt; omega⟩ q (by omega)).symm
  · unfold Cert.KChain.wa1 Cert.RChain.w1
    exact (wHalf_read Wu 1 32 _ _ k q (by omega) ⟨32 + k.val, by have := k.isLt; omega⟩ rfl).trans
      (wWhole_read Wu 1 _ _ ⟨32 + k.val, by have := k.isLt; omega⟩ q (by omega)).symm
  · unfold Cert.KChain.bu1 Cert.RChain.b1
    exact shapeCast_a_1a_apply _ _ 0 q

/-- The edge network: hidden layer from the two halves of the first matrix against the concatenated endpoint
    features and the whole matrix; the output layer and the flattening are the same on both sides. -/
theorem out_eq (hr hc : FVec Ideal S2500000x32 .f32) (We1 : FVec Ideal S64x32 .f32) (be1 : FVec Ideal S32 .f32)
    (We2 : FVec Ideal S32x1 .f32) (be2 : FVec Ideal S1 .f32) :
    Cert.KChain.out hr hc We1 be1 We2 be2 = Cert.RChain.out hr hc We1 be1 We2 be2 := by
  unfold Cert.KChain.out Cert.RChain.out
  refine flat_congr _ _ _ _ ?_
  funext i
  obtain ⟨r, q, rfl⟩ : ∃ (r : Fin 2500000) (q : Fin 1), i = ix2 r q := ⟨i 0, i 1, eq_ix2 i⟩
  rw [Cert.Spec.edge_ix2, outer_read]
  unfold Cert.Spec.edgeAt
  congr 1
  · refine Finset.sum_congr rfl fun j _ => ?_
    congr 1
    rw [hidden_read]
    exact hidden_gen hr hc _ _ _ We1 be1
      (fun k q => slice2_axis0_apply 0 We1 _ k q ⟨k.val, by have := k.isLt; omega⟩ (Nat.zero_add _).symm)
      (fun k q => slice2_axis0_apply 32 We1 _ k q ⟨32 + k.val, by have := k.isLt; omega⟩ rfl)
      (fun q => shapeCast_a_1a_apply _ _ 0 q) r j
  · exact shapeCast_a_1a_apply _ _ 0 q

end Cert.Bridge

end
-- ==== Proof.BridgeTake.lean ====
/-
  The two row gathers agree on an edge list of node numbers.  For an index `i` with `0 ≤ i < 100000` the wrap
  `i < 0 ? i + 100000 : i` is `i` itself, which lies in `[0, 99999]`, so the first program's range mask is set on
  every row and its select returns the gathered row — the second program's plain gather at the same start index.
  The remaining glue (the two rows of the edge list, the degrees, the normalised scatter-sum) is the same sequence of
  operations in both programs.
-/
import proofs.«405452_j73366631350578_1_alg».proof.Proof.Chain
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

namespace Cert.Bridge

open Idealize.ShloMosaic Idealize.ShloMosaic.ValueIdx
open Cert.KernelIdeal (S2x2500000 S100000x32 S2500000x32 S2500000)

/-- A flat index vector of node numbers. -/
def InRange1 (idx : IVec S2500000 32) : Prop := ∀ e, 0 ≤ (idx e).toInt ∧ (idx e).toInt < 100000

theorem row_eq (ei : IVec S2x2500000 32) : Cert.KChain.row ei = Cert.RChain.row ei := rfl

theorem col_eq (ei : IVec S2x2500000 32) : Cert.KChain.col ei = Cert.RChain.col ei := rfl

/-- The normalised scatter-sum is the same sequence of operations in both programs. -/
theorem aggOf_eq (g : FVec Ideal S2500000x32 .f32) (ei : IVec S2x2500000 32) :
    Cert.KChain.aggOf g ei = Cert.RChain.aggOf g ei := rfl

/-- Each entry of the source row is an entry of the edge list (a slice and a reshape only move entries). -/
theorem row_inRange (ei : IVec S2x2500000 32) (h : Cert.InRange ei) : InRange1 (Cert.KChain.row ei) := by
  intro e
  unfold Cert.KChain.row shapeCast extractStridedSlice
  exact h _

/-- Each entry of the target row is an entry of the edge list. -/
theorem col_inRange (ei : IVec S2x2500000 32) (h : Cert.InRange ei) : InRange1 (Cert.KChain.col ei) := by
  intro e
  unfold Cert.KChain.col shapeCast extractStridedSlice
  exact h _

namespace Take

/-! ### Words: a node number against the literals 0, 99999 -/

/-- A nonnegative word is not below zero. -/
theorem slt_zero_of_nonneg (w : BitVec 32) (h0 : 0 ≤ w.toInt) : IntOp.cmpi .slt w 0#32 = 0#1 := by
  apply eq_zero_of_ne_one
  rw [IntOp.cmpi_slt, show (0#32 : BitVec 32).toInt = 0 from by decide]
  omega

/-- A nonnegative word is at least zero. -/
theorem sge_zero_of_nonneg (w : BitVec 32) (h0 : 0 ≤ w.toInt) : IntOp.cmpi .sge w 0#32 = 1#1 := by
  rw [IntOp.cmpi_sge, show (0#32 : BitVec 32).toInt = 0 from by decide]
  exact h0

/-- A word below 100000 is at most 99999. -/
theorem sle_top_of_lt (w : BitVec 32) (h1 : w.toInt < 100000) : IntOp.cmpi .sle w 99999#32 = 1#1 := by
  rw [IntOp.cmpi_sle, show (99999#32 : BitVec 32).toInt = 99999 from by decide]
  omega

/-- A left fold by `and` from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    have ha : IntOp.andi 1#1 (f a) = 1#1 := by rw [hf a]; rfl
    rw [List.foldl_cons, ha]
    exact foldl_andi_one f hf l

/-- On a node number the wrap is the identity: the number is not negative. -/
theorem wrap_of_inRange (idx : IVec S2500000 32) (hidx : InRange1 idx) (k : S2500000.Idx) :
    Cert.KChain.wrap idx k = idx k := by
  show Scalar.select (IntOp.cmpi .slt (idx k) 0#32) _ (idx k) = idx k
  rw [slt_zero_of_nonneg _ (hidx k).1, select_zero]

/-- On node numbers every bit of the range mask is set: each row's one start index passes both comparisons. -/
theorem inRange_one (idx : IVec S2500000 32) (hidx : InRange1 idx) (p : S2500000.Idx) :
    Cert.KChain.inRange (Cert.KChain.idxCol idx) p = 1#1 := by
  unfold Cert.KChain.inRange
  rw [Host.reduce_eq_foldl]
  refine foldl_andi_one _ (fun i => ?_) _
  show IntOp.andi (IntOp.cmpi .sge (Cert.KChain.wrap idx _) 0#32) (IntOp.cmpi .sle (Cert.KChain.wrap idx _) 99999#32) = 1#1
  rw [wrap_of_inRange idx hidx, IntOp.andi_eq_one]
  exact ⟨sge_zero_of_nonneg _ (hidx _).1, sle_top_of_lt _ (hidx _).2⟩

/-- A broadcast of an all-ones mask is all ones. -/
theorem bcast_one {s t : Shape} (dims : Fin s.rank → Fin t.rank) (hb : s.BroadcastsInDim t dims) (m : IVec s 1)
    (hm : ∀ p, m p = 1#1) (j : t.Idx) : broadcastInDim t dims hb m j = 1#1 := by
  unfold broadcastInDim
  exact hm _

end Take

/-- On node numbers the filling gather is the plain gather. -/
theorem take_eq_gat (h : FVec Ideal S100000x32 .f32) (idx : IVec S2500000 32) (hidx : InRange1 idx) :
    Cert.KChain.take h idx = Cert.RChain.gat h idx := by
  funext j
  unfold Cert.KChain.take
  rw [select_apply, Take.bcast_one _ _ _ (Take.inRange_one idx hidx), select_one]
  rfl

end Cert.Bridge

end
-- ==== Proof.Bridge.lean ====
/-
  The two programs' results are one function of the arguments when the edge list holds node numbers.  Stage by
  stage: the projections agree; on node numbers the filling gather is the plain gather, so the neighbourhood sums
  agree; each layer's two half products are the product with the whole matrix; and the edge network likewise.
-/
import proofs.«405452_j73366631350578_1_alg».proof.Proof.BridgeDense
import proofs.«405452_j73366631350578_1_alg».proof.Proof.BridgeTake

noncomputable section

namespace Cert.Bridge

open Idealize.ShloMosaic
open Cert.KernelIdeal (S100000x2 S2x2500000 S2x32 S32 S2x64x32 S64x32 S32x1 S1 S100000x32 S2500000x32 S2500000)

/-- The neighbourhood sums agree on an edge list of node numbers. -/
theorem agg_eq (h : FVec Ideal S100000x32 .f32) (ei : IVec S2x2500000 32) (hr : Cert.InRange ei) :
    Cert.KChain.agg h ei = Cert.RChain.agg h ei := by
  unfold Cert.KChain.agg Cert.RChain.agg
  rw [take_eq_gat h _ (col_inRange ei hr), col_eq, aggOf_eq]

/-- The whole results agree on an edge list of node numbers. -/
theorem val_eq (x : FVec Ideal S100000x2 .f32) (ei : IVec S2x2500000 32) (Win : FVec Ideal S2x32 .f32) (bin : FVec Ideal S32 .f32)
    (Wu : FVec Ideal S2x64x32 .f32) (bu : FVec Ideal S2x32 .f32) (We1 : FVec Ideal S64x32 .f32) (be1 : FVec Ideal S32 .f32)
    (We2 : FVec Ideal S32x1 .f32) (be2 : FVec Ideal S1 .f32) (hr : Cert.InRange ei) :
    Cert.KChain.val x ei Win bin Wu bu We1 be1 We2 be2 = Cert.RChain.val x ei Win bin Wu bu We1 be1 We2 be2 := by
  simp only [Cert.KChain.val, Cert.RChain.val]
  rw [h0_eq, agg_eq _ ei hr, layer0_eq, agg_eq _ ei hr, layer1_eq, out_eq,
    take_eq_gat _ _ (row_inRange ei hr), take_eq_gat _ _ (col_inRange ei hr), row_eq, col_eq]

end Cert.Bridge

end
-- ==== Proof.PreRange.lean ====
/-
  The precondition's last conjunct, read back: if the printed predicate is all ones then every entry of the edge
  list satisfies `0 ≤ ei[i] < 100000` as a signed integer.  The predicate is a conjunction of one-bit reductions; its
  last factor is the `and`-reduction over both axes of `(ei ≥ 0) ∧ (ei < 100000)`, which is one exactly when every
  entry's two comparisons are.
-/
import proofs.«405452_j73366631350578_1_alg».proof.Pre_finite_inputs
import proofs.«405452_j73366631350578_1_alg».proof.Proof.Gen.Pre_finite_inputs
import proofs.«405452_j73366631350578_1_alg».proof.Proof.Chain
import Idealize.ShloMosaic.Lib.ValueIdx
import Idealize.ShloMosaic.Lib.StableHlo.Predicate
import Idealize.ShloMosaic.Lib.ReduceAll

set_option maxRecDepth 16384

noncomputable section

namespace Cert.Bridge

open Idealize.ShloMosaic Idealize.ShloMosaic.ValueIdx
open Cert.Pre_finite_inputs (S100000x2 S2x2500000 S2x32 S32 S2x64x32 S64x32 S32x1 S1)

/-- From the printed precondition to the range of the edge list's entries. -/
theorem inRange_of_pre (x : FVec Ideal S100000x2 .f32) (ei : IVec S2x2500000 32) (Win : FVec Ideal S2x32 .f32)
    (bin : FVec Ideal S32 .f32) (Wu : FVec Ideal S2x64x32 .f32) (bu : FVec Ideal S2x32 .f32) (We1 : FVec Ideal S64x32 .f32)
    (be1 : FVec Ideal S32 .f32) (We2 : FVec Ideal S32x1 .f32) (be2 : FVec Ideal S1 .f32)
    (h : Cert.Pre_finite_inputs.fn (F := Ideal) x ei Win bin Wu bu We1 be1 We2 be2 = fun _ => 1#1) : Cert.InRange ei := by
  -- the predicate's one word is the conjunction of the earlier factors with the reduction over the edge list
  have h0 : Cert.Pre_finite_inputs.fn (F := Ideal) x ei Win bin Wu bu We1 be1 We2 be2 ix0 = 1#1 := congrFun h ix0
  have h1 : IntOp.andi _
      (Host.reduce IntOp.andi
        (andi (cmpi .sge ei (broadcastInDim S2x2500000 ![] Cert.Pre_finite_inputs.Facts.bcast_S_S2x2500000
            (constantI Cert.Pre_finite_inputs.S_ 32 0#32)))
          (cmpi .slt ei (broadcastInDim S2x2500000 ![] Cert.Pre_finite_inputs.Facts.bcast_S_S2x2500000
            (constantI Cert.Pre_finite_inputs.S_ 32 100000#32))))
        (constantI Cert.Pre_finite_inputs.S_ 1 1#1) Cert.Pre_finite_inputs.Facts.reducesTo_S2x2500000_S_d0_1
        Cert.Pre_finite_inputs.Facts.h_S_ ix0) = 1#1 := h0
  have h2 := (IntOp.andi_eq_one.1 h1).2
  -- the scalar shape has one index
  haveI : Subsingleton Cert.Pre_finite_inputs.S_.Idx := ⟨fun a b => funext fun d => d.elim0⟩
  intro i
  -- the reduction over both axes is one, so the entry at `i` is
  have h3 : IntOp.andi (IntOp.cmpi .sge (ei i) 0#32) (IntOp.cmpi .slt (ei i) 100000#32) = 1#1 :=
    Host.reduce_andi_all _ _ _ _ _ h2 i
  obtain ⟨ha, hb⟩ := IntOp.andi_eq_one.1 h3
  rw [IntOp.cmpi_sge, show (0#32 : BitVec 32).toInt = 0 from by decide] at ha
  rw [IntOp.cmpi_slt, show (100000#32 : BitVec 32).toInt = 100000 from by decide] at hb
  exact ⟨ha, hb⟩

end Cert.Bridge

end
-- ==== Proof.lean ====
/-
  A two-layer message-passing network on a graph of 100000 nodes and 2500000 edges, with a two-layer network on
  every edge: the program that computes the dense stages in kernels over blocks of 5000 rows against the plain
  array program.

  With `x` the node features, `ei` the edge list (row 0 the source node of each edge, row 1 the target), both
  programs compute `h₀ = relu (x W_in + b_in)`, the degree of every node (at least 1), twice
  `h ← relu ([h, agg h] W_upd[l] + b_upd[l])` with `agg h` the sum over a node's outgoing edges of `h[target]`
  divided by the degree, and for every edge `relu ([h[source], h[target]] We1 + be1) We2 + be2`.

  The kernels split every product with a 64-row weight matrix into the products with its two 32-row halves:
  Σ_{k<64} [u, v][r,k]·W[k,q] = Σ_{k<32} u[r,k]·W[k,q] + Σ_{k<32} v[r,k]·W[32+k,q], a regrouping of a finite sum
  that holds over the extended reals without any finiteness (only commutativity and associativity of + are used;
  the changes of float format are the identity there).  The two programs' row gathers differ outside the index
  range: one fills rows whose index is not a node number with a fixed word, the other clamps the index.  Under the
  precondition every entry of the edge list is a node number, `0 ≤ ei < 100000`; then a negative-index wrap leaves
  the index alone, the range mask is set on every row, and both gathers read the same row.

  The first program's run is followed through its four kernel regions and the host operations between them
  (Proof/KernelRun.lean, Proof/KernelValue.lean, Proof/Region0–3.lean); the second program's host operations are followed chunk by chunk
  (Proof/RefOps.lean, Proof/RefValue.lean); the two compositions agree stage by stage (Proof/BridgeDense.lean,
  Proof/BridgeTake.lean, Proof/Bridge.lean); the precondition is read back in Proof/PreRange.lean.
-/
import proofs.«405452_j73366631350578_1_alg».proof.Defs
import proofs.«405452_j73366631350578_1_alg».proof.Proof.Gen.Kernel
import proofs.«405452_j73366631350578_1_alg».proof.Proof.Gen.Kernel.Skeleton
import proofs.«405452_j73366631350578_1_alg».proof.Proof.Gen.Kernel.Launch
import proofs.«405452_j73366631350578_1_alg».proof.Proof.Gen.Kernel.Points
import proofs.«405452_j73366631350578_1_alg».proof.Proof.Gen.Kernel.Frame
import proofs.«405452_j73366631350578_1_alg».proof.Proof.Gen.KernelIdeal
import proofs.«405452_j73366631350578_1_alg».proof.Proof.Gen.KernelIdeal.Skeleton
import proofs.«405452_j73366631350578_1_alg».proof.Proof.Gen.KernelIdeal.Launch
import proofs.«405452_j73366631350578_1_alg».proof.Proof.Gen.KernelIdeal.Points
import proofs.«405452_j73366631350578_1_alg».proof.Proof.Gen.KernelIdeal.Frame
import proofs.«405452_j73366631350578_1_alg».proof.Proof.Gen.ReferenceIdeal
import proofs.«405452_j73366631350578_1_alg».proof.Proof.Gen.Pre_finite_inputs
import proofs.«405452_j73366631350578_1_alg».proof.Proof.KernelRun
import proofs.«405452_j73366631350578_1_alg».proof.Proof.KernelValue
import proofs.«405452_j73366631350578_1_alg».proof.Proof.RefOps
import proofs.«405452_j73366631350578_1_alg».proof.Proof.RefValue
import proofs.«405452_j73366631350578_1_alg».proof.Proof.Bridge
import proofs.«405452_j73366631350578_1_alg».proof.Proof.PreRange
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The array program runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs end with the same per-edge values: the first at `Cert.KChain.val` of its arguments (its run
    followed through the regions), the second at `Cert.RChain.val` of arguments that agree, and on an edge list of
    node numbers the two compositions are equal. -/
theorem algebraic : Cert.algebraic_KernelIdeal_ReferenceIdeal := by
  intro m ρ m' ρ' hpre hagree
  refine ⟨fun c => Cert.KChain.val (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.W14_v48 m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6, e7, e8, e9⟩ := hagree c
    rw [e0, e1, e2, e3, e4, e5, e6, e7, e8, e9]
    exact (Cert.Bridge.val_eq _ _ _ _ _ _ _ _ _ _
      (Cert.Bridge.inRange_of_pre _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
